-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v10_0)) (v1 : (c : Dev Cert.KernelIdeal.nD) → Buf (Elt Ideal) ((c.tc : Thread Cert.KernelIdeal.nD Cert.KernelIdeal.τ).loc Cert.KernelIdeal.main_v10_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10_0) = v0 c
          ∧ r.2.mem ((c.tc : Thread Cert.KernelIdeal.nD Cert.KernelIdeal.τ).loc Cert.KernelIdeal.main_v10_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_v33) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x2048 : Shape := ⟨2, ![4096, 2048]⟩
abbrev S2048x4096 : Shape := ⟨2, ![2048, 4096]⟩
abbrev S2048 : Shape := ⟨1, ![2048]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S2048x4096 : S_.BroadcastsInDim S2048x4096 (![] : Fin 0 → Fin S2048x4096.rank)
  reducesTo_S2048x4096_S_d0_1 : S2048x4096.ReducesTo [0, 1] S_
  bcast_S_S2048 : S_.BroadcastsInDim S2048 (![] : Fin 0 → Fin S2048.rank)
  reducesTo_S2048_S_d0 : S2048.ReducesTo [0] S_

variable [Facts]

def fn_part3 {F : FTy → Type} [FloatOps F] (main_v48 : IVec S_ 1) (main_v49 : FVec F S2048 .f32) (main_v50 : FVec F S2048 .f32) : IVec S_ 1 :=
  let main_v51 : IVec S2048 1 := cmpf .olt main_v49 main_v50
  let main_c_19 : IVec S_ 1 := constantI S_ 1 1#1
  let main_v52 : IVec S_ 1 := (fun x v => Host.reduce IntOp.andi x v reducesTo_S2048_S_d0 h_S_) main_v51 main_c_19
  let main_v53 : IVec S_ 1 := andi main_v48 main_v52
  main_v53

def fn_part2 {F : FTy → Type} [FloatOps F] (main_arg7 : FVec F S2048x4096 .f32) (main_arg8 : FVec F S2048 .f32) (main_arg9 : FVec F S2048x4096 .f32) (main_arg10 : FVec F S2048 .f32) (main_v33 : IVec S_ 1) : IVec S_ 1 :=
  let main_v34 : FVec F S2048x4096 .f32 := Host.absf main_arg7
  let main_cst_12 : FVec F S_ .f32 := constant S_ .f32 0x7F800000#32
  let main_v35 : FVec F S2048x4096 .f32 := broadcastInDim S2048x4096 ![] bcast_S_S2048x4096 main_cst_12
  let main_v36 : IVec S2048x4096 1 := cmpf .olt main_v34 main_v35
  let main_c_13 : IVec S_ 1 := constantI S_ 1 1#1
  let main_v37 : IVec S_ 1 := (fun x v => Host.reduce IntOp.andi x v reducesTo_S2048x4096_S_d0_1 h_S_) main_v36 main_c_13
  let main_v38 : IVec S_ 1 := andi main_v33 main_v37
  let main_v39 : FVec F S2048 .f32 := Host.absf main_arg8
  let main_cst_14 : FVec F S_ .f32 := constant S_ .f32 0x7F800000#32
  let main_v40 : FVec F S2048 .f32 := broadcastInDim S2048 ![] bcast_S_S2048 main_cst_14
  let main_v41 : IVec S2048 1 := cmpf .olt main_v39 main_v40
  let main_c_15 : IVec S_ 1 := constantI S_ 1 1#1
  let main_v42 : IVec S_ 1 := (fun x v => Host.reduce IntOp.andi x v reducesTo_S2048_S_d0 h_S_) main_v41 main_c_15
  let main_v43 : IVec S_ 1 := andi main_v38 main_v42
  let main_v44 : FVec F S2048x4096 .f32 := Host.absf main_arg9
  let main_cst_16 : FVec F S_ .f32 := constant S_ .f32 0x7F800000#32
  let main_v45 : FVec F S2048x4096 .f32 := broadcastInDim S2048x4096 ![] bcast_S_S2048x4096 main_cst_16
  let main_v46 : IVec S2048x4096 1 := cmpf .olt main_v44 main_v45
  let main_c_17 : IVec S_ 1 := constantI S_ 1 1#1
  let main_v47 : IVec S_ 1 := (fun x v => Host.reduce IntOp.andi x v reducesTo_S2048x4096_S_d0_1 h_S_) main_v46 main_c_17
  let main_v48 : IVec S_ 1 := andi main_v43 main_v47
  let main_v49 : FVec F S2048 .f32 := Host.absf main_arg10
  let main_cst_18 : FVec F S_ .f32 := constant S_ .f32 0x7F800000#32
  let main_v50 : FVec F S2048 .f32 := broadcastInDim S2048 ![] bcast_S_S2048 main_cst_18
  fn_part3 (F := F) main_v48 main_v49 main_v50

def fn_part1 {F : FTy → Type} [FloatOps F] (main_arg4 : FVec F S2048 .f32) (main_arg5 : FVec F S2048x4096 .f32) (main_arg6 : FVec F S2048 .f32) (main_arg7 : FVec F S2048x4096 .f32) (main_arg8 : FVec F S2048 .f32) (main_arg9 : FVec F S2048x4096 .f32) (main_arg10 : FVec F S2048 .f32) (main_v13 : IVec S_ 1) (main_v16 : IVec S2048x4096 1) : IVec S_ 1 :=
  let main_c_5 : IVec S_ 1 := constantI S_ 1 1#1
  let main_v17 : IVec S_ 1 := (fun x v => Host.reduce IntOp.andi x v reducesTo_S2048x4096_S_d0_1 h_S_) main_v16 main_c_5
  let main_v18 : IVec S_ 1 := andi main_v13 main_v17
  let main_v19 : FVec F S2048 .f32 := Host.absf main_arg4
  let main_cst_6 : FVec F S_ .f32 := constant S_ .f32 0x7F800000#32
  let main_v20 : FVec F S2048 .f32 := broadcastInDim S2048 ![] bcast_S_S2048 main_cst_6
  let main_v21 : IVec S2048 1 := cmpf .olt main_v19 main_v20
  let main_c_7 : IVec S_ 1 := constantI S_ 1 1#1
  let main_v22 : IVec S_ 1 := (fun x v => Host.reduce IntOp.andi x v reducesTo_S2048_S_d0 h_S_) main_v21 main_c_7
  let main_v23 : IVec S_ 1 := andi main_v18 main_v22
  let main_v24 : FVec F S2048x4096 .f32 := Host.absf main_arg5
  let main_cst_8 : FVec F S_ .f32 := constant S_ .f32 0x7F800000#32
  let main_v25 : FVec F S2048x4096 .f32 := broadcastInDim S2048x4096 ![] bcast_S_S2048x4096 main_cst_8
  let main_v26 : IVec S2048x4096 1 := cmpf .olt main_v24 main_v25
  let main_c_9 : IVec S_ 1 := constantI S_ 1 1#1
  let main_v27 : IVec S_ 1 := (fun x v => Host.reduce IntOp.andi x v reducesTo_S2048x4096_S_d0_1 h_S_) main_v26 main_c_9
  let main_v28 : IVec S_ 1 := andi main_v23 main_v27
  let main_v29 : FVec F S2048 .f32 := Host.absf main_arg6
  let main_cst_10 : FVec F S_ .f32 := constant S_ .f32 0x7F800000#32
  let main_v30 : FVec F S2048 .f32 := broadcastInDim S2048 ![] bcast_S_S2048 main_cst_10
  let main_v31 : IVec S2048 1 := cmpf .olt main_v29 main_v30
  let main_c_11 : IVec S_ 1 := constantI S_ 1 1#1
  let main_v32 : IVec S_ 1 := (fun x v => Host.reduce IntOp.andi x v reducesTo_S2048_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S4096x2048 .f32) (main_arg1 : FVec F S4096x2048 .f32) (main_arg2 : FVec F S4096x2048 .f32) (main_arg3 : FVec F S2048x4096 .f32) (main_arg4 : FVec F S2048 .f32) (main_arg5 : FVec F S2048x4096 .f32) (main_arg6 : FVec F S2048 .f32) (main_arg7 : FVec F S2048x4096 .f32) (main_arg8 : FVec F S2048 .f32) (main_arg9 : FVec F S2048x4096 .f32) (main_arg10 : FVec F S2048 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S4096x2048 .f32 := Host.absf main_arg1
  let main_cst_0 : FVec F S_ .f32 := constant S_ .f32 0x7F800000#32
  let main_v5 : FVec F S4096x2048 .f32 := broadcastInDim S4096x2048 ![] bcast_S_S4096x2048 main_cst_0
  let main_v6 : IVec S4096x2048 1 := cmpf .olt main_v4 main_v5
  let main_c_1 : IVec S_ 1 := constantI S_ 1 1#1
  let main_v7 : IVec S_ 1 := (fun x v => Host.reduce IntOp.andi x v reducesTo_S4096x2048_S_d0_1 h_S_) main_v6 main_c_1
  let main_v8 : IVec S_ 1 := andi main_v3 main_v7
  let main_v9 : FVec F S4096x2048 .f32 := Host.absf main_arg2
  let main_cst_2 : FVec F S_ .f32 := constant S_ .f32 0x7F800000#32
  let main_v10 : FVec F S4096x2048 .f32 := broadcastInDim S4096x2048 ![] bcast_S_S4096x2048 main_cst_2
  let main_v11 : IVec S4096x2048 1 := cmpf .olt main_v9 main_v10
  let main_c_3 : IVec S_ 1 := constantI S_ 1 1#1
  let main_v12 : IVec S_ 1 := (fun x v => Host.reduce IntOp.andi x v reducesTo_S4096x2048_S_d0_1 h_S_) main_v11 main_c_3
  let main_v13 : IVec S_ 1 := andi main_v8 main_v12
  let main_v14 : FVec F S2048x4096 .f32 := Host.absf main_arg3
  let main_cst_4 : FVec F S_ .f32 := constant S_ .f32 0x7F800000#32
  let main_v15 : FVec F S2048x4096 .f32 := broadcastInDim S2048x4096 ![] bcast_S_S2048x4096 main_cst_4
  let main_v16 : IVec S2048x4096 1 := cmpf .olt main_v14 main_v15
  fn_part1 (F := F) main_arg4 main_arg5 main_arg6 main_arg7 main_arg8 main_arg9 main_arg10 main_v13 main_v16
-- ==== Kernel.lean ====
abbrev S4096x2048 : Shape := ⟨2, ![4096, 2048]⟩
abbrev S2048x4096 : Shape := ⟨2, ![2048, 4096]⟩
abbrev S2048 : Shape := ⟨1, ![2048]⟩
abbrev S8192x4096 : Shape := ⟨2, ![8192, 4096]⟩
abbrev S8192 : Shape := ⟨1, ![8192]⟩
abbrev S8192x2048 : Shape := ⟨2, ![8192, 2048]⟩
abbrev S2048x8192 : Shape := ⟨2, ![2048, 8192]⟩
abbrev S1x8192 : Shape := ⟨2, ![1, 8192]⟩
abbrev S4096x8192 : Shape := ⟨2, ![4096, 8192]⟩
abbrev S512x1024 : Shape := ⟨2, ![512, 1024]⟩
abbrev S1024x1024 : Shape := ⟨2, ![1024, 1024]⟩
abbrev S1x1024 : Shape := ⟨2, ![1, 1024]⟩
abbrev S128x8192 : Shape := ⟨2, ![128, 8192]⟩
abbrev S128x2048 : Shape := ⟨2, ![128, 2048]⟩

abbrev nBuf : Space → Nat
  | .hbm => 23
  | .vmem => 21
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S2048x4096, .f32⟩
  | .hbm, ⟨4, _⟩ => ⟨S2048, .f32⟩
  | .hbm, ⟨5, _⟩ => ⟨S2048x4096, .f32⟩
  | .hbm, ⟨6, _⟩ => ⟨S2048, .f32⟩
  | .hbm, ⟨7, _⟩ => ⟨S2048x4096, .f32⟩
  | .hbm, ⟨8, _⟩ => ⟨S2048, .f32⟩
  | .hbm, ⟨9, _⟩ => ⟨S2048x4096, .f32⟩
  | .hbm, ⟨10, _⟩ => ⟨S2048, .f32⟩
  | .hbm, ⟨11, _⟩ => ⟨S8192x4096, .f32⟩
  | .hbm, ⟨12, _⟩ => ⟨S8192, .f32⟩
  | .hbm, ⟨13, _⟩ => ⟨S8192x2048, .f32⟩
  | .hbm, ⟨14, _⟩ => ⟨S8192x2048, .f32⟩
  | .hbm, ⟨15, _⟩ => ⟨S2048x8192, .f32⟩
  | .hbm, ⟨16, _⟩ => ⟨S2048x8192, .bf16⟩
  | .hbm, ⟨17, _⟩ => ⟨S2048x8192, .f32⟩
  | .hbm, ⟨18, _⟩ => ⟨S2048x8192, .bf16⟩
  | .hbm, ⟨19, _⟩ => ⟨S1x8192, .f32⟩
  | .hbm, ⟨20, _⟩ => ⟨S4096x8192, .bf16⟩
  | .hbm, ⟨21, _⟩ => ⟨S4096x2048, .f32⟩
  | .hbm, ⟨22, _⟩ => ⟨S4096x2048, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1x1024, .f32⟩
  | .local _ .vmem, ⟨9, _⟩ => ⟨S1x1024, .f32⟩
  | .local _ .vmem, ⟨10, _⟩ => ⟨S512x1024, .bf16⟩
  | .local _ .vmem, ⟨11, _⟩ => ⟨S512x1024, .bf16⟩
  | .local _ .vmem, ⟨12, _⟩ => ⟨S512x1024, .f32⟩
  | .local _ .vmem, ⟨13, _⟩ => ⟨S128x8192, .bf16⟩
  | .local _ .vmem, ⟨14, _⟩ => ⟨S128x8192, .bf16⟩
  | .local _ .vmem, ⟨15, _⟩ => ⟨S128x2048, .f32⟩
  | .local _ .vmem, ⟨16, _⟩ => ⟨S128x2048, .f32⟩
  | .local _ .vmem, ⟨17, _⟩ => ⟨S128x2048, .f32⟩
  | .local _ .vmem, ⟨18, _⟩ => ⟨S128x2048, .f32⟩
  | .local _ .vmem, ⟨19, _⟩ => ⟨S128x2048, .f32⟩
  | .local _ .vmem, ⟨20, _⟩ => ⟨S128x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10_0 : Ref sig .tc := ⟨.hbm, 21, rfl⟩
abbrev main_v10_1 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg2_1 : Ref sig .tc := ⟨.vmem, 18, rfl⟩
abbrev cc1_stg3_0 : Ref sig .tc := ⟨.vmem, 19, rfl⟩
abbrev cc1_stg3_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19

abbrev nD : Nat := 1
abbrev τ : Topo := Topo.v7x

variable {F : FTy → Type} [FloatOps F]

abbrev grid0 : Pipeline.Grid := ⟨3, ![8, 8, 2], ![false, false, false]⟩

def k0_cond2 (i : grid0.Coords) : BitVec 1 :=
  let arg2 : BitVec 32 := BitVec.ofNat 32 (i 2).val
  let c1_i32 : BitVec 32 := 1#32
  let v23 : BitVec 1 := Scalar.cmpi .eq arg2 c1_i32
  let v24 : BitVec 32 := Scalar.extui v23
  let c0_i32_17 : BitVec 32 := 0#32
  let v25 : BitVec 1 := Scalar.cmpi .ne v24 c0_i32_17
  v25

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S128x8192 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S128x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S128x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S128x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  concatenates_S2048x4096_S2048x4096_S2048x4096_S2048x4096_S8192x4096_d0 : Shape.Concatenates [S2048x4096, S2048x4096, S2048x4096, S2048x4096] S8192x4096 0
  concatenates_S2048_S2048_S2048_S2048_S8192_d0 : Shape.Concatenates [S2048, S2048, S2048, S2048] S8192 0
  slices_S8192x4096_S8192x2048_0_0 : S8192x4096.Slices ![0, 0] S8192x2048
  slices_S8192x4096_S8192x2048_0_2048 : S8192x4096.Slices ![0, 2048] S8192x2048
  transposes_S8192x2048_S2048x8192_1_0 : S8192x2048.Transposes [1, 0] S2048x8192
  bitsLt_bf16_f32 : FTy.bits .bf16 < FTy.bits .f32
  shapeCasts_S8192_S1x8192 : S8192.ShapeCasts S1x8192
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  packedbf16_S512x1024_S512x1024_0_0 : (Rect.unit (s := S512x1024) ![0, 0] S512x1024.size inb_S512x1024_S512x1024_0_0).PackedRows (EltTy.packing .bf16)
  inb_S128x8192_S128x2048_0_0 : ∀ a, (![0, 0] : Fin 2 → Nat) a + S128x2048.size a ≤ S128x8192.size a
  h_S128x2048 : 0 < S128x2048.numel
  shapeCasts_S128x2048_S128x2048 : S128x2048.ShapeCasts S128x2048
  inb_S128x8192_S128x2048_0_2048 : ∀ a, (![0, 2048] : Fin 2 → Nat) a + S128x2048.size a ≤ S128x8192.size a
  inb_S128x8192_S128x2048_0_4096 : ∀ a, (![0, 4096] : Fin 2 → Nat) a + S128x2048.size a ≤ S128x8192.size a
  inb_S128x8192_S128x2048_0_6144 : ∀ a, (![0, 6144] : Fin 2 → Nat) a + S128x2048.size a ≤ S128x8192.size a
  inb_S128x2048_S128x2048_0_0 : ∀ a, (![0, 0] : Fin 2 → Nat) a + S128x2048.size a ≤ S128x2048.size a
  dot_S512x1024_S1024x1024_S512x1024_1_0_0_1_n_n_wf : DotDims.WF S512x1024 S1024x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S4096x2048.size a
  hwx0_0 : ∀ i : grid0.Coords, EltTy.bits .f32 = 32 ∨ (Rect.block (s := S4096x2048) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S4096x2048.size a
  hwx0_1 : ∀ i : grid0.Coords, EltTy.bits .f32 = 32 ∨ (Rect.block (s := S4096x2048) S512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S2048x8192.size a
  hwx0_2 : ∀ i : grid0.Coords, EltTy.bits .bf16 = 32 ∨ (Rect.block (s := S2048x8192) S1024x1024.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S2048x8192.size a
  hwx0_3 : ∀ i : grid0.Coords, EltTy.bits .bf16 = 32 ∨ (Rect.block (s := S2048x8192) S1024x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x8192.size a
  hwx0_4 : ∀ i : grid0.Coords, EltTy.bits .f32 = 32 ∨ (Rect.block (s := S1x8192) S1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x1024.size a ≤ S4096x8192.size a
  hwx0_5 : ∀ i : grid0.Coords, EltTy.bits .bf16 = 32 ∨ (Rect.block (s := S4096x8192) S512x1024.size (cc0_transform_5 i) (hinb0_5 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S128x8192.size a ≤ S4096x8192.size a
  hwx1_0 : ∀ i : grid1.Coords, EltTy.bits .bf16 = 32 ∨ (Rect.block (s := S4096x8192) S128x8192.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S128x2048.size a ≤ S4096x2048.size a
  hwx1_1 : ∀ i : grid1.Coords, EltTy.bits .f32 = 32 ∨ (Rect.block (s := S4096x2048) S128x2048.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S128x2048.size a ≤ S4096x2048.size a
  hwx1_2 : ∀ i : grid1.Coords, EltTy.bits .f32 = 32 ∨ (Rect.block (s := S4096x2048) S128x2048.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S128x2048.size a ≤ S4096x2048.size a
  hwx1_3 : ∀ i : grid1.Coords, EltTy.bits .f32 = 32 ∨ (Rect.block (s := S4096x2048) S128x2048.size (cc1_transform_3 i) (hinb1_3 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1024x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v7) S1024x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v8) S1x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v9) S512x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

abbrev win1_0 : Pipeline.Window sig grid1 :=
  Pipeline.Window.ofSpec (Memref.whole main_v9) S128x8192.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S128x2048.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v10_0) S128x2048.size cc1_transform_2 reads1_2 true false 2 stage1_2 sem1_2
    hrank1 hreads1_2 hinb1_2 nbuf1_2 (Memref.isWhole_whole _) hwx1_2 hstage1_2

abbrev win1_3 : Pipeline.Window sig grid1 :=
  Pipeline.Window.ofSpec (Memref.whole main_v10_1) S128x2048.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S4096x2048 : Shape := ⟨2, ![4096, 2048]⟩
abbrev S2048x4096 : Shape := ⟨2, ![2048, 4096]⟩
abbrev S2048 : Shape := ⟨1, ![2048]⟩
abbrev S4096x4096 : Shape := ⟨2, ![4096, 4096]⟩
abbrev S8192x4096 : Shape := ⟨2, ![8192, 4096]⟩
abbrev S8192 : Shape := ⟨1, ![8192]⟩
abbrev S4096x8192 : Shape := ⟨2, ![4096, 8192]⟩
abbrev S1x8192 : Shape := ⟨2, ![1, 8192]⟩
abbrev S_ : Shape := ⟨0, ![]⟩

abbrev nBuf : Space → Nat
  | .hbm => 53
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S2048x4096, .f32⟩
  | .hbm, ⟨4, _⟩ => ⟨S2048, .f32⟩
  | .hbm, ⟨5, _⟩ => ⟨S2048x4096, .f32⟩
  | .hbm, ⟨6, _⟩ => ⟨S2048, .f32⟩
  | .hbm, ⟨7, _⟩ => ⟨S2048x4096, .f32⟩
  | .hbm, ⟨8, _⟩ => ⟨S2048, .f32⟩
  | .hbm, ⟨9, _⟩ => ⟨S2048x4096, .f32⟩
  | .hbm, ⟨10, _⟩ => ⟨S2048, .f32⟩
  | .hbm, ⟨11, _⟩ => ⟨S4096x4096, .f32⟩
  | .hbm, ⟨12, _⟩ => ⟨S8192x4096, .f32⟩
  | .hbm, ⟨13, _⟩ => ⟨S8192, .f32⟩
  | .hbm, ⟨14, _⟩ => ⟨S4096x8192, .f32⟩
  | .hbm, ⟨15, _⟩ => ⟨S4096x8192, .f32⟩
  | .hbm, ⟨16, _⟩ => ⟨S1x8192, .f32⟩
  | .hbm, ⟨17, _⟩ => ⟨S4096x8192, .f32⟩
  | .hbm, ⟨18, _⟩ => ⟨S4096x8192, .f32⟩
  | .hbm, ⟨19, _⟩ => ⟨S4096x2048, .f32⟩
  | .hbm, ⟨20, _⟩ => ⟨S4096x2048, .f32⟩
  | .hbm, ⟨21, _⟩ => ⟨S4096x2048, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S_, .f32⟩
  | .hbm, ⟨26, _⟩ => ⟨S4096x2048, .f32⟩
  | .hbm, ⟨27, _⟩ => ⟨S4096x2048, .f32⟩
  | .hbm, ⟨28, _⟩ => ⟨S_, .f32⟩
  | .hbm, ⟨29, _⟩ => ⟨S4096x2048, .f32⟩
  | .hbm, ⟨30, _⟩ => ⟨S4096x2048, .f32⟩
  | .hbm, ⟨31, _⟩ => ⟨S4096x2048, .f32⟩
  | .hbm, ⟨32, _⟩ => ⟨S4096x2048, .f32⟩
  | .hbm, ⟨33, _⟩ => ⟨S_, .f32⟩
  | .hbm, ⟨34, _⟩ => ⟨S4096x2048, .f32⟩
  | .hbm, ⟨35, _⟩ => ⟨S4096x2048, .f32⟩
  | .hbm, ⟨36, _⟩ => ⟨S_, .f32⟩
  | .hbm, ⟨37, _⟩ => ⟨S4096x2048, .f32⟩
  | .hbm, ⟨38, _⟩ => ⟨S4096x2048, .f32⟩
  | .hbm, ⟨39, _⟩ => ⟨S4096x2048, .f32⟩
  | .hbm, ⟨40, _⟩ => ⟨S4096x2048, .f32⟩
  | .hbm, ⟨41, _⟩ => ⟨S_, .f32⟩
  | .hbm, ⟨42, _⟩ => ⟨S4096x2048, .f32⟩
  | .hbm, ⟨43, _⟩ => ⟨S4096x2048, .f32⟩
  | .hbm, ⟨44, _⟩ => ⟨S_, .f32⟩
  | .hbm, ⟨45, _⟩ => ⟨S4096x2048, .f32⟩
  | .hbm, ⟨46, _⟩ => ⟨S4096x2048, .f32⟩
  | .hbm, ⟨47, _⟩ => ⟨S4096x2048, .f32⟩
  | .hbm, ⟨48, _⟩ => ⟨S4096x2048, .f32⟩
  | .hbm, ⟨49, _⟩ => ⟨S4096x2048, .f32⟩
  | .hbm, ⟨50, _⟩ => ⟨S4096x2048, .f32⟩
  | .hbm, ⟨51, _⟩ => ⟨S4096x2048, .f32⟩
  | .hbm, ⟨52, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst : Ref sig .tc := ⟨.hbm, 25, rfl⟩
abbrev main_v14 : Ref sig .tc := ⟨.hbm, 26, rfl⟩
abbrev main_v15 : Ref sig .tc := ⟨.hbm, 27, rfl⟩
abbrev main_cst_0 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_1 : Ref sig .tc := ⟨.hbm, 33, rfl⟩
abbrev main_v20 : Ref sig .tc := ⟨.hbm, 34, rfl⟩
abbrev main_v21 : Ref sig .tc := ⟨.hbm, 35, rfl⟩
abbrev main_cst_2 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_3 : Ref sig .tc := ⟨.hbm, 41, rfl⟩
abbrev main_v26 : Ref sig .tc := ⟨.hbm, 42, rfl⟩
abbrev main_v27 : Ref sig .tc := ⟨.hbm, 43, rfl⟩
abbrev main_cst_4 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩

abbrev nD : Nat := 1
abbrev τ : Topo := Topo.v7x

variable {F : FTy → Type} [FloatOps F]

class Facts₀ : Prop where
  concatenates_S4096x2048_S4096x2048_S4096x4096_d1 : Shape.Concatenates [S4096x2048, S4096x2048] S4096x4096 1
  concatenates_S2048x4096_S2048x4096_S2048x4096_S2048x4096_S8192x4096_d0 : Shape.Concatenates [S2048x4096, S2048x4096, S2048x4096, S2048x4096] S8192x4096 0
  concatenates_S2048_S2048_S2048_S2048_S8192_d0 : Shape.Concatenates [S2048, S2048, S2048, S2048] S8192 0
  transposes_S8192x4096_S4096x8192_1_0 : S8192x4096.Transposes [1, 0] S4096x8192
  bcast_S8192_S1x8192_1 : S8192.BroadcastsInDim S1x8192 (![1] : Fin 1 → Fin S1x8192.rank)
  bcast_S1x8192_S4096x8192_0_1 : S1x8192.BroadcastsInDim S4096x8192 (![0, 1] : Fin 2 → Fin S4096x8192.rank)
  slices_S4096x8192_S4096x2048_0_0 : S4096x8192.Slices ![0, 0] S4096x2048
  slices_S4096x8192_S4096x2048_0_2048 : S4096x8192.Slices ![0, 2048] S4096x2048
  slices_S4096x8192_S4096x2048_0_4096 : S4096x8192.Slices ![0, 4096] S4096x2048
  slices_S4096x8192_S4096x2048_0_6144 : S4096x8192.Slices ![0, 6144] S4096x2048
  bcast_S_S4096x2048 : S_.BroadcastsInDim S4096x2048 (![] : Fin 0 → Fin S4096x2048.rank)
  dot_S4096x4096_S4096x8192_S4096x8192_1_0_0_1_n_n_wf : DotDims.WF S4096x4096 S4096x8192 S4096x8192 [1] [0] [0] [1] [] []

variable [Facts₀]

def dot_S4096x4096_S4096x8192_S4096x8192_1_0_0_1_n_n : DotDims S4096x4096 S4096x8192 S4096x8192 where
  lhsContracting := [1]
  rhsContracting := [0]
  lhsNonContracting := [0]
  rhsNonContracting := [1]
  lhsBatch := []
  rhsBatch := []
  wf := dot_S4096x4096_S4096x8192_S4096x8192_1_0_0_1_n_n_wf

class Facts : Prop extends Facts₀ where

variable [Facts]
-- ==== Proof.Kernel.Shared.lean ====
/-
  The two kernel regions' common vocabulary, each region stated at the contents `V` its arrays hold when it is
  entered.

  Region 0 is the blocked matrix product: the grid is 8 × 8 × 2, a point's last coordinate k is its position modulo
  2. A point with k = 0 zeroes the accumulator before adding the two partial products of its K-block; a point with
  k = 1 adds its two partial products to what the point before left, adds the bias row and stores the sum into the
  result block. So the result window is untouched (idle, not written back) at the even points and stored whole at the
  odd ones, and the accumulator is carried from each even point to the odd point after it.

  Region 1 is the gate combination, one row block of 128 rows per point, every window read or stored whole.

  Here: a window's block of its array at a point; that an input window's staging buffer holds that block whenever
  the body runs; the two branch conditions as facts about the point's position; where the result window is idle; the
  staging buffers by name; and the region invariant opened at the accumulator.
-/
import proofs.«120737_j82282983457013_1_alg».proof.Proof.Gen.Kernel.Launch
import proofs.«120737_j82282983457013_1_alg».proof.Proof.Gen.Kernel.Skeleton
import proofs.«120737_j82282983457013_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Region 0: the windows' blocks -/

/-- Window `w`'s block of its array at point `t`, the array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point, fetched there or not: where it is not fetched the
    block index has not moved since the last fetch, and the body leaves an input's buffer as it found it. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## Region 0: the body's two branches -/

/-- The accumulator is zeroed: the point's last coordinate is 0. -/
abbrev cond0_0 (i : grid0.Coords) : Prop := (Scalar.cmpi .ne (Scalar.extui (Scalar.cmpi .eq (BitVec.ofNat 32 (i 2).val) 0#32)) 0#32) = 1#1
theorem hcond0_0 : ∀ t : Fin cfg0.N, cond0_0 (grid0.coords t) ↔ t.val % 2 = 0 :=
  (by decide +kernel : ∀ t : Fin grid0.N, cond0_0 (grid0.coords t) ↔ t.val % 2 = 0)

/-- The result block is stored: the point's last coordinate is 1. -/
abbrev cond0_1 (i : grid0.Coords) : Prop := k0_cond2 i = 1#1
theorem hcond0_1 : ∀ t : Fin cfg0.N, cond0_1 (grid0.coords t) ↔ t.val % 2 = 1 :=
  (by decide +kernel : ∀ t : Fin grid0.N, cond0_1 (grid0.coords t) ↔ t.val % 2 = 1)

/-! ## Region 0: where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
/-- At an even point nothing is stored into the result window, and its block is not written back. -/
theorem idleAt0_5_A : ∀ t : Fin cfg0.N, cond0_0 (grid0.coords t) → ¬cond0_1 (grid0.coords t) → cfg0.idle 5 (grid0.coords t) = true := by decide +kernel
theorem noFlush0_5_A : ∀ t : Fin cfg0.N, cond0_0 (grid0.coords t) → ¬cond0_1 (grid0.coords t) → (cfg0.win 5).flush t = false := by decide +kernel
/-- At an odd point the result window is stored. -/
theorem liveAt0_5_B : ∀ t : Fin cfg0.N, ¬cond0_0 (grid0.coords t) → cond0_1 (grid0.coords t) → cfg0.idle 5 (grid0.coords t) = false := by decide +kernel

/-! ## Region 0: the staging buffers and the accumulator, by name -/

abbrev ms0_0 (t : Fin cfg0.N) : Memref sig .tc .vmem S512x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1024 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x1024 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1024 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x1024 .bf16 := win0_5.stage (cfg0.slots t 5)
abbrev hs0_5 (t : Fin cfg0.N) : (ms0_5 t).IsWhole := hstage0_5 ((cfg0.slots t 5).cast nbuf0_5)
/-- The accumulator: a scratch buffer of the kernel's own, carried from point to point. -/
abbrev scM0_0 : Memref sig .tc .vmem S512x1024 .f32 := Memref.whole cc0_scratch0
/-- One staging buffer of the result window, through which its contents are stated. -/
abbrev VO0_5 : View sig .tc .vmem S512x1024 .bf16 := (Memref.whole cc0_stg5_0 : Memref sig .tc .vmem S512x1024 .bf16).view
abbrev VS0_0 : View sig .tc .vmem S512x1024 .f32 := scM0_0.view

/-- The scoped buffers region 0 neither stages nor accumulates in (the other region's staging buffers), each at
    some contents. -/
def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f))

/-- The class invariant with the accumulator split off: the accumulator at some contents, the other scoped buffers,
    the generator register at some state. -/
theorem PhiA0_eq (c : Dev nD) :
    (Pipeline.ΦA spec0 c : sProp 𝕄)
      = iprop(iprop((∃ d, owns (c : Thread nD τ) scM0_0 fullShare d) ∗ rest0 (F := F) c) ∗ (∃ r, prngReg c r)) := by
  unfold Pipeline.ΦA rest0; rw [scopedRest0_eq]; simp only [scM0_0, owns_whole]; try rfl

/-! ## Region 1 -/

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

abbrev ms1_0 (t : Fin cfg1.N) : Memref sig .tc .vmem S128x8192 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S128x2048 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S128x2048 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S128x2048 .f32 := win1_3.stage (cfg1.slots t 3)
abbrev hs1_3 (t : Fin cfg1.N) : (ms1_3 t).IsWhole := hstage1_3 ((cfg1.slots t 3).cast nbuf1_3)

end Cert.Kernel.Frm

end
-- ==== Proof.Kernel.Run0A.lean ====
/-
  The matrix-product body at a point whose last coordinate is 0, run on any whole staging buffers.

  The accumulator is first stored whole with zeros, then twice loaded, increased by one partial product and stored
  back; nothing is stored into the result window, whose buffer comes back as it was handed in. What the accumulator
  ends with is recorded as the list of the stores into it, last first.
-/
import proofs.«120737_j82282983457013_1_alg».proof.Proof.Kernel.Shared

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- From the five input buffers at their contents, the result buffer at `y5` and the accumulator at anything, the body
    runs to its return with the inputs and the result buffer unchanged and the accumulator overwritten by its stores. -/
noncomputable def kernelRun0_A (c : Dev nD) (i : grid0.Coords) (arg3 : Memref sig .tc .vmem S512x1024 .f32) (harg3 : arg3.IsWhole) (arg4 : Memref sig .tc .vmem S512x1024 .f32) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S512x1024 .bf16) (harg8 : arg8.IsWhole) (arg9 : Memref sig .tc .vmem S512x1024 .f32) (harg9 : arg9.IsWhole) (hc0 : cond0_0 i) (hc1 : ¬cond0_1 i)
    (x0 : Vec F S512x1024 .f32) (x1 : Vec F S512x1024 .f32) (x2 : Vec F S1024x1024 .bf16) (x3 : Vec F S1024x1024 .bf16) (x4 : Vec F S1x1024 .f32) :
    { LS0 : List (View.Piece (Elt F) S512x1024 .f32) //
      ∀ (y5 : Vec F S512x1024 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare y5 ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare y5 ∗ (∃ f, arg9.view.loc (c : Thread nD τ) ↦[arg9.view.set]{fullShare} arg9.view.writes (Elt F) f LS0)) -∗ K ⟨⟩))
          ⊢ wp frame (wpE (defs₀ (F := F)) Variants.none c none) E (cc0__matmul_kernel i arg3 harg3 arg4 harg4 arg5 harg5 arg6 harg6 arg7 harg7 arg8 harg8 arg9 harg9) K } := by
  refine ⟨?_, fun y5 E K => ?run⟩
  case run =>
    simp only [cc0__matmul_kernel_eq_skeleton]; unfold cc0__matmul_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds, %fs, -, HS⟩, Hk⟩
    obtain rfl := harg3.eq_unread hf0; obtain rfl := harg4.eq_unread hf1; obtain rfl := harg5.eq_unread hf2
    obtain rfl := harg6.eq_unread hf3; obtain rfl := harg7.eq_unread hf4; obtain rfl := harg8.eq_unread hf5
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    iexists _; iexact HS

end Cert.Kernel.Frm

end
-- ==== Proof.Kernel.Run0B.lean ====
/-
  The matrix-product body at a point whose last coordinate is 1, run on any whole staging buffers.

  The accumulator comes in holding what the point before left; it is twice loaded, increased by one partial product
  and stored back, then loaded once more, the bias row added along the rows, and the sum stored whole into the result
  buffer. What the accumulator and the result buffer end with is recorded as the lists of the stores into them, last
  first.
-/
import proofs.«120737_j82282983457013_1_alg».proof.Proof.Kernel.Shared

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- From the five input buffers at their contents, the result buffer at anything and the accumulator at `xs0`, the body
    runs to its return with the inputs unchanged and the accumulator and the result buffer overwritten by their stores. -/
noncomputable def kernelRun0_B (c : Dev nD) (i : grid0.Coords) (arg3 : Memref sig .tc .vmem S512x1024 .f32) (harg3 : arg3.IsWhole) (arg4 : Memref sig .tc .vmem S512x1024 .f32) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S512x1024 .bf16) (harg8 : arg8.IsWhole) (arg9 : Memref sig .tc .vmem S512x1024 .f32) (harg9 : arg9.IsWhole) (hc0 : ¬cond0_0 i) (hc1 : cond0_1 i)
    (x0 : Vec F S512x1024 .f32) (x1 : Vec F S512x1024 .f32) (x2 : Vec F S1024x1024 .bf16) (x3 : Vec F S1024x1024 .bf16) (x4 : Vec F S1x1024 .f32) (xs0 : Vec F S512x1024 .f32) :
    Σ' (L5 : List (View.Piece (Elt F) S512x1024 .bf16)), { LS0 : List (View.Piece (Elt F) S512x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ owns (c : Thread nD τ) arg9 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f L5) ∗ (∃ f, arg9.view.loc (c : Thread nD τ) ↦[arg9.view.set]{fullShare} arg9.view.writes (Elt F) f LS0)) -∗ K ⟨⟩))
          ⊢ wp frame (wpE (defs₀ (F := F)) Variants.none c none) E (cc0__matmul_kernel i arg3 harg3 arg4 harg4 arg5 harg5 arg6 harg6 arg7 harg7 arg8 harg8 arg9 harg9) K } := by
  refine ⟨?_, ?_, fun E K => ?run⟩
  case run =>
    simp only [cc0__matmul_kernel_eq_skeleton]; unfold cc0__matmul_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs, %hfs, HS⟩, Hk⟩
    obtain rfl := harg3.eq_unread hf0; obtain rfl := harg4.eq_unread hf1; obtain rfl := harg5.eq_unread hf2
    obtain rfl := harg6.eq_unread hf3; obtain rfl := harg7.eq_unread hf4; obtain rfl := harg9.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]; · iexists _; iexact H5
    iexists _; iexact HS

end Cert.Kernel.Frm

end
-- ==== Proof.Kernel.Dat0.lean ====
/-
  Region 0's proof data and its body obligation, at the contents `V` the region's arrays hold on entry.

  The points come in pairs: an even point 2q zeroes the accumulator and adds the two partial products of the first
  K-block, the odd point 2q + 1 adds those of the second K-block to what 2q left and stores accumulator + bias into
  the result block, which is written back to the array there. So what the accumulator holds after a point is defined
  by recursion on the point: at an even point from the point's input blocks alone, at an odd point from them and what
  the point before left. The region's invariant before a point other than the first is the accumulator held at exactly
  that, beside the other scoped buffers and the generator register; before the first point the accumulator is at
  anything.
-/
import proofs.«120737_j82282983457013_1_alg».proof.Proof.Kernel.Run0A
import proofs.«120737_j82282983457013_1_alg».proof.Proof.Kernel.Run0B

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- An even point's stores into the accumulator tile it. -/
theorem scover0_A (c : Dev nD) (i : grid0.Coords) (arg3 : Memref sig .tc .vmem S512x1024 .f32) (harg3 : arg3.IsWhole) (arg4 : Memref sig .tc .vmem S512x1024 .f32) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S512x1024 .bf16) (harg8 : arg8.IsWhole) (arg9 : Memref sig .tc .vmem S512x1024 .f32) (harg9 : arg9.IsWhole) (hc0 : cond0_0 i) (hc1 : ¬cond0_1 i)
    (x0 : Vec F S512x1024 .f32) (x1 : Vec F S512x1024 .f32) (x2 : Vec F S1024x1024 .bf16) (x3 : Vec F S1024x1024 .bf16) (x4 : Vec F S1x1024 .f32) (y : S512x1024.Idx) :
    ∃ pc ∈ (kernelRun0_A c i arg3 harg3 arg4 harg4 arg5 harg5 arg6 harg6 arg7 harg7 arg8 harg8 arg9 harg9 hc0 hc1 x0 x1 x2 x3 x4).1, y ∈ pc.1.set :=
  View.cover_of_tiledL (kernelRun0_A c i arg3 harg3 arg4 harg4 arg5 harg5 arg6 harg6 arg7 harg7 arg8 harg8 arg9 harg9 hc0 hc1 x0 x1 x2 x3 x4).1 S512x1024.size (by sl_kernel_rfl) y

/-- What an even point leaves in the accumulator: its stores read back. -/
def sout0_A (c : Dev nD) (i : grid0.Coords) (arg3 : Memref sig .tc .vmem S512x1024 .f32) (harg3 : arg3.IsWhole) (arg4 : Memref sig .tc .vmem S512x1024 .f32) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S512x1024 .bf16) (harg8 : arg8.IsWhole) (arg9 : Memref sig .tc .vmem S512x1024 .f32) (harg9 : arg9.IsWhole) (hc0 : cond0_0 i) (hc1 : ¬cond0_1 i)
    (x0 : Vec F S512x1024 .f32) (x1 : Vec F S512x1024 .f32) (x2 : Vec F S1024x1024 .bf16) (x3 : Vec F S1024x1024 .bf16) (x4 : Vec F S1x1024 .f32) : Vec F S512x1024 .f32 :=
  VS0_0.read (Elt F) (VS0_0.writes (Elt F) VS0_0.junk (kernelRun0_A c i arg3 harg3 arg4 harg4 arg5 harg5 arg6 harg6 arg7 harg7 arg8 harg8 arg9 harg9 hc0 hc1 x0 x1 x2 x3 x4).1)

/-- An odd point's stores into the accumulator tile it. -/
theorem scover0_B (c : Dev nD) (i : grid0.Coords) (arg3 : Memref sig .tc .vmem S512x1024 .f32) (harg3 : arg3.IsWhole) (arg4 : Memref sig .tc .vmem S512x1024 .f32) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S512x1024 .bf16) (harg8 : arg8.IsWhole) (arg9 : Memref sig .tc .vmem S512x1024 .f32) (harg9 : arg9.IsWhole) (hc0 : ¬cond0_0 i) (hc1 : cond0_1 i)
    (x0 : Vec F S512x1024 .f32) (x1 : Vec F S512x1024 .f32) (x2 : Vec F S1024x1024 .bf16) (x3 : Vec F S1024x1024 .bf16) (x4 : Vec F S1x1024 .f32) (xs0 : Vec F S512x1024 .f32) (y : S512x1024.Idx) :
    ∃ pc ∈ (kernelRun0_B c i arg3 harg3 arg4 harg4 arg5 harg5 arg6 harg6 arg7 harg7 arg8 harg8 arg9 harg9 hc0 hc1 x0 x1 x2 x3 x4 xs0).2.1, y ∈ pc.1.set :=
  View.cover_of_tiledL (kernelRun0_B c i arg3 harg3 arg4 harg4 arg5 harg5 arg6 harg6 arg7 harg7 arg8 harg8 arg9 harg9 hc0 hc1 x0 x1 x2 x3 x4 xs0).2.1 S512x1024.size (by sl_kernel_rfl) y

/-- What an odd point leaves in the accumulator: its stores read back. -/
def sout0_B (c : Dev nD) (i : grid0.Coords) (arg3 : Memref sig .tc .vmem S512x1024 .f32) (harg3 : arg3.IsWhole) (arg4 : Memref sig .tc .vmem S512x1024 .f32) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S512x1024 .bf16) (harg8 : arg8.IsWhole) (arg9 : Memref sig .tc .vmem S512x1024 .f32) (harg9 : arg9.IsWhole) (hc0 : ¬cond0_0 i) (hc1 : cond0_1 i)
    (x0 : Vec F S512x1024 .f32) (x1 : Vec F S512x1024 .f32) (x2 : Vec F S1024x1024 .bf16) (x3 : Vec F S1024x1024 .bf16) (x4 : Vec F S1x1024 .f32) (xs0 : Vec F S512x1024 .f32) : Vec F S512x1024 .f32 :=
  VS0_0.read (Elt F) (VS0_0.writes (Elt F) VS0_0.junk (kernelRun0_B c i arg3 harg3 arg4 harg4 arg5 harg5 arg6 harg6 arg7 harg7 arg8 harg8 arg9 harg9 hc0 hc1 x0 x1 x2 x3 x4 xs0).2.1)

/-- An odd point's one store into the result buffer covers it. -/
theorem cover0_B_5 (c : Dev nD) (i : grid0.Coords) (arg3 : Memref sig .tc .vmem S512x1024 .f32) (harg3 : arg3.IsWhole) (arg4 : Memref sig .tc .vmem S512x1024 .f32) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S512x1024 .bf16) (harg8 : arg8.IsWhole) (arg9 : Memref sig .tc .vmem S512x1024 .f32) (harg9 : arg9.IsWhole) (hc0 : ¬cond0_0 i) (hc1 : cond0_1 i)
    (x0 : Vec F S512x1024 .f32) (x1 : Vec F S512x1024 .f32) (x2 : Vec F S1024x1024 .bf16) (x3 : Vec F S1024x1024 .bf16) (x4 : Vec F S1x1024 .f32) (xs0 : Vec F S512x1024 .f32) (y : S512x1024.Idx) :
    ∃ pc ∈ (kernelRun0_B c i arg3 harg3 arg4 harg4 arg5 harg5 arg6 harg6 arg7 harg7 arg8 harg8 arg9 harg9 hc0 hc1 x0 x1 x2 x3 x4 xs0).1, y ∈ pc.1.set :=
  View.cover_of_tiledL (kernelRun0_B c i arg3 harg3 arg4 harg4 arg5 harg5 arg6 harg6 arg7 harg7 arg8 harg8 arg9 harg9 hc0 hc1 x0 x1 x2 x3 x4 xs0).1 S512x1024.size (by sl_kernel_rfl) y

/-- What an odd point leaves in the result buffer: its store read back. -/
def out0_B_5 (c : Dev nD) (i : grid0.Coords) (arg3 : Memref sig .tc .vmem S512x1024 .f32) (harg3 : arg3.IsWhole) (arg4 : Memref sig .tc .vmem S512x1024 .f32) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S512x1024 .bf16) (harg8 : arg8.IsWhole) (arg9 : Memref sig .tc .vmem S512x1024 .f32) (harg9 : arg9.IsWhole) (hc0 : ¬cond0_0 i) (hc1 : cond0_1 i)
    (x0 : Vec F S512x1024 .f32) (x1 : Vec F S512x1024 .f32) (x2 : Vec F S1024x1024 .bf16) (x3 : Vec F S1024x1024 .bf16) (x4 : Vec F S1x1024 .f32) (xs0 : Vec F S512x1024 .f32) : Vec F S512x1024 .bf16 :=
  VO0_5.read (Elt F) (VO0_5.writes (Elt F) VO0_5.junk (kernelRun0_B c i arg3 harg3 arg4 harg4 arg5 harg5 arg6 harg6 arg7 harg7 arg8 harg8 arg9 harg9 hc0 hc1 x0 x1 x2 x3 x4 xs0).1)

/-! ## The same at a point of the grid, on the point's staging buffers and input blocks -/

theorem notOdd_of_even (t : Fin cfg0.N) (h0 : t.val % 2 = 0) : ¬cond0_1 (grid0.coords t) :=
  fun h => by have := (hcond0_1 t).mp h; omega
theorem notEven_of_odd (t : Fin cfg0.N) (h1 : t.val % 2 = 1) : ¬cond0_0 (grid0.coords t) :=
  fun h => by have := (hcond0_0 t).mp h; omega

/-- The accumulator after an even point `t`. -/
def accA (c : Dev nD) (t : Fin cfg0.N) (h0 : t.val % 2 = 0) : Vec F S512x1024 .f32 :=
  sout0_A c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (notOdd_of_even t h0) (iblk0 V c 0 t) (iblk0 V c 1 t) (iblk0 V c 2 t) (iblk0 V c 3 t) (iblk0 V c 4 t)

/-- The accumulator after an odd point `t` that found it at `xs0`. -/
def accB (c : Dev nD) (t : Fin cfg0.N) (h1 : t.val % 2 = 1) (xs0 : Vec F S512x1024 .f32) : Vec F S512x1024 .f32 :=
  sout0_B c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (notEven_of_odd t h1) ((hcond0_1 t).mpr h1) (iblk0 V c 0 t) (iblk0 V c 1 t) (iblk0 V c 2 t) (iblk0 V c 3 t) (iblk0 V c 4 t) xs0

/-- The result buffer after an odd point `t` that found the accumulator at `xs0`. -/
def outB (c : Dev nD) (t : Fin cfg0.N) (h1 : t.val % 2 = 1) (xs0 : Vec F S512x1024 .f32) : Vec F S512x1024 .bf16 :=
  out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (notEven_of_odd t h1) ((hcond0_1 t).mpr h1) (iblk0 V c 0 t) (iblk0 V c 1 t) (iblk0 V c 2 t) (iblk0 V c 3 t) (iblk0 V c 4 t) xs0

/-- Contents nothing consults: the result buffer's at an even point, where it is neither stored nor written back. -/
def idle5 : Vec F S512x1024 .bf16 := VO0_5.read (Elt F) VO0_5.junk

/-! ## The accumulation over the points -/

/-- What the result window's staging buffer and the accumulator hold after the body at position `n`. -/
def outsAt0 (c : Dev nD) : (n : ℕ) → n < cfg0.N → Vec F S512x1024 .bf16 × Vec F S512x1024 .f32
  | 0, hn => (idle5, accA V c ⟨0, hn⟩ (Nat.zero_mod _))
  | n + 1, hn =>
    if h0 : (n + 1) % 2 = 0 then (idle5, accA V c ⟨n + 1, hn⟩ h0)
    else (outB V c ⟨n + 1, hn⟩ (Nat.mod_two_ne_zero.mp h0) (outsAt0 c n (Nat.lt_of_succ_lt hn)).2,
          accB V c ⟨n + 1, hn⟩ (Nat.mod_two_ne_zero.mp h0) (outsAt0 c n (Nat.lt_of_succ_lt hn)).2)

/-- At an even point. -/
theorem outsAt0_A (c : Dev nD) (t : Fin cfg0.N) (h0 : t.val % 2 = 0) :
    outsAt0 V c t.val t.isLt = (idle5, accA V c t h0) := by
  obtain ⟨n, hn⟩ := t
  cases n with
  | zero => exact rfl
  | succ n => exact (dif_pos h0).trans rfl

/-- At an odd point, over what the point before left. -/
theorem outsAt0_B (c : Dev nD) (t : Fin cfg0.N) (h1 : t.val % 2 = 1) :
    outsAt0 V c t.val t.isLt
      = (outB V c t h1 (outsAt0 V c (t.val - 1) (Nat.lt_of_le_of_lt (Nat.sub_le _ _) t.isLt)).2,
         accB V c t h1 (outsAt0 V c (t.val - 1) (Nat.lt_of_le_of_lt (Nat.sub_le _ _) t.isLt)).2) := by
  obtain ⟨n, hn⟩ := t
  cases n with
  | zero => exact absurd h1 (show ¬ (0 % 2 = 1) by decide)
  | succ n => exact (dif_neg (by have h : (n + 1) % 2 = 1 := h1; omega)).trans rfl

/-! ## The region's invariant -/

/-- Before position `n`: before the first point the class invariant (the accumulator at anything); afterwards the
    accumulator at what the point before left, the other scoped buffers at anything, the generator register at some
    state. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ rest0 (F := F) c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0_0 fullShare ((outsAt0 V c n hn).2) ∗ rest0 (F := F) c) ∗ (∃ r, prngReg c r)) := rfl

theorem PhiS_pos (c : Dev nD) (n : ℕ) (h : n ≤ cfg0.N) (hz : n ≠ 0) :
    PhiS V c n h = iprop(iprop(owns (c : Thread nD τ) scM0_0 fullShare ((outsAt0 V c (n - 1) (by omega)).2) ∗ rest0 (F := F) c) ∗ (∃ r, prngReg c r)) := by
  cases n with
  | zero => exact absurd rfl hz
  | succ n => rfl

/-! ## The proof data -/

/-- Region 0's proof data on core `c`: the arrays as the region finds them; after the body at a point each input's
    buffer at its block and the result's at `outsAt0`'s first component; the invariant `PhiS`; nothing owed; full
    shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => (outsAt0 V c t.val t.isLt).1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t)

theorem leaves0_in (c : Dev nD) (t : Fin cfg0.N) :
    (dat0 V c).leavesExact 0 t = owns (c : Thread nD τ) (ms0_0 t) fullShare (iblk0 V c 0 t)
    ∧ (dat0 V c).leavesExact 1 t = owns (c : Thread nD τ) (ms0_1 t) fullShare (iblk0 V c 1 t)
    ∧ (dat0 V c).leavesExact 2 t = owns (c : Thread nD τ) (ms0_2 t) fullShare (iblk0 V c 2 t)
    ∧ (dat0 V c).leavesExact 3 t = owns (c : Thread nD τ) (ms0_3 t) fullShare (iblk0 V c 3 t)
    ∧ (dat0 V c).leavesExact 4 t = owns (c : Thread nD τ) (ms0_4 t) fullShare (iblk0 V c 4 t) := by
  refine ⟨?_, ?_, ?_, ?_, ?_⟩
  · unfold Dat.leavesExact; rw [liveAt0_0 t, after0_0]
  · unfold Dat.leavesExact; rw [liveAt0_1 t, after0_1]
  · unfold Dat.leavesExact; rw [liveAt0_2 t, after0_2]
  · unfold Dat.leavesExact; rw [liveAt0_3 t, after0_3]
  · unfold Dat.leavesExact; rw [liveAt0_4 t, after0_4]

set_option maxHeartbeats 4800000 in
/-- The body at any point. The inputs' buffers hold their blocks; the point's parity says which case it is in. The
    invariant hands the body the accumulator at what the point before left (at anything at the first point) and takes
    it back at this point's contents; at an even point the result buffer goes through untouched, at an odd one it
    comes back at the point's stored block. The core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  obtain ⟨hl0, hl1, hl2, hl3, hl4⟩ := leaves0_in V c t
  rw [hl0, hl1, hl2, hl3, hl4]
  rw [show (dat0 V c).owesAt () t.succ = (dat0 V c).owesAt () t.castSucc from rfl]
  rw [show (dat0 V c).Φ t.succ = PhiS V c (t.val + 1) t.isLt from rfl, PhiS_succ]
  have hN : t.val < 128 := lt_of_lt_of_eq t.isLt (show cfg0.N = 128 from N_0)
  by_cases h0 : t.val % 2 = 0
  · have hc0 : cond0_0 (grid0.coords t) := (hcond0_0 t).mpr h0
    have hc1 : ¬cond0_1 (grid0.coords t) := notOdd_of_even t h0
    rw [Dat.leavesExact_idle (dat0 V c) 5 t (idleAt0_5_A t hc0 hc1) (noFlush0_5_A t hc0 hc1)]
    rw [outsAt0_A V c t h0]
    unfold accA sout0_A; (try dsimp only)
    by_cases hz : t.val = 0
    · rw [PhiS_castSucc V c t, PhiS_zero V c _ _ hz, PhiA0_eq]
      iintro ⟨⟨⟨HS0, Hr⟩, Hg⟩, Ho, ⟨%d0, H0⟩, ⟨%d1, H1⟩, ⟨%d2, H2⟩, ⟨%d3, H3⟩, ⟨%d4, H4⟩, ⟨%d5, H5⟩⟩
      iapply ((kernelRun0_A c (grid0.coords t) _ _ _ _ _ _ _ _ _ _ _ _ _ _ hc0 hc1 (iblk0 V c 0 t) (iblk0 V c 1 t) (iblk0 V c 2 t) (iblk0 V c 3 t) (iblk0 V c 4 t)).2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      iintro ⟨H0, H1, H2, H3, H4, H5, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover0_A c _ _ _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
    · rw [PhiS_castSucc V c t, PhiS_pos V c _ _ hz]
      iintro ⟨⟨⟨HS0, Hr⟩, Hg⟩, Ho, ⟨%d0, H0⟩, ⟨%d1, H1⟩, ⟨%d2, H2⟩, ⟨%d3, H3⟩, ⟨%d4, H4⟩, ⟨%d5, H5⟩⟩
      iapply ((kernelRun0_A c (grid0.coords t) _ _ _ _ _ _ _ _ _ _ _ _ _ _ hc0 hc1 (iblk0 V c 0 t) (iblk0 V c 1 t) (iblk0 V c 2 t) (iblk0 V c 3 t) (iblk0 V c 4 t)).2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexists _; iexact HS0
      iintro ⟨H0, H1, H2, H3, H4, H5, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover0_A c _ _ _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
  · have h1 : t.val % 2 = 1 := by omega
    have hc0 : ¬cond0_0 (grid0.coords t) := notEven_of_odd t h1
    have hc1 : cond0_1 (grid0.coords t) := (hcond0_1 t).mpr h1
    rw [show (dat0 V c).leavesExact 5 t = owns (c : Thread nD τ) (ms0_5 t) fullShare ((dat0 V c).after 5 t) from by
      unfold Dat.leavesExact; rw [liveAt0_5_B t hc0 hc1], after0_5]
    rw [outsAt0_B V c t h1]
    unfold outB accB out0_B_5 sout0_B; (try dsimp only)
    have hz : t.val ≠ 0 := by omega
    rw [PhiS_castSucc V c t, PhiS_pos V c _ _ hz]
    iintro ⟨⟨⟨HS0, Hr⟩, Hg⟩, Ho, ⟨%d0, H0⟩, ⟨%d1, H1⟩, ⟨%d2, H2⟩, ⟨%d3, H3⟩, ⟨%d4, H4⟩, ⟨%d5, H5⟩⟩
    iapply ((kernelRun0_B c (grid0.coords t) _ _ _ _ _ _ _ _ _ _ _ _ _ _ hc0 hc1 (iblk0 V c 0 t) (iblk0 V c 1 t) (iblk0 V c 2 t) (iblk0 V c 3 t) (iblk0 V c 4 t) _).2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [HS0]; · iexact HS0
    iintro ⟨H0, H1, H2, H3, H4, ⟨%e5, H5⟩, ⟨%es0, HS0⟩⟩
    isplitl [HS0 Hr Hg]
    · isplitl [HS0 Hr]
      · isplitl [HS0]
        · unfold owns; iexists _; isplitr
          swap; · iexact HS0
          ipureintro; exact View.read_writes_of_cover _ _ _ _ _ (scover0_B c _ _ _ _ _ _ _ _ _ _ _ _ _ _ _ _ _ _ _ _ _ _ _)
        iexact Hr
      iexact Hg
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro; exact View.read_writes_of_cover _ _ _ _ _ (cover0_B_5 c _ _ _ _ _ _ _ _ _ _ _ _ _ _ _ _ _ _ _ _ _ _ _)

/-- The body obligation of region 0, at every point. -/
theorem body_obligation0 (c : Dev nD) : BodyObligation (dat0 (F := F) V c) (defs₀ (F := F)) Variants.none () Set.univ := fun t => by
  rw [bigSep_W0, bigSep_W0]
  exact sound_body0 V c t

/-- What a region is handed is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After the last point the invariant gives the class invariant back: the accumulator's contents are forgotten. -/
theorem hout0 (c : Dev nD) : (dat0 V c).Φ (Fin.last cfg0.N) ⊢ Pipeline.ΦA spec0 c := by
  have hne : (Fin.last cfg0.N).val ≠ 0 := by rw [Fin.val_last]; have : cfg0.N = 128 := N_0; omega
  rw [show (dat0 V c).Φ (Fin.last cfg0.N) = PhiS V c (Fin.last cfg0.N).val (Nat.le_of_lt_succ (Fin.last cfg0.N).isLt) from rfl,
    PhiS_pos V c _ _ hne, PhiA0_eq]
  iintro ⟨⟨HS0, Hr⟩, Hg⟩
  isplitl [HS0 Hr]
  · isplitl [HS0]
    · iexists _; iexact HS0
    iexact Hr
  iexact Hg

end Cert.Kernel.Frm

end
-- ==== Proof.Kernel.Run1.lean ====
/-
  The gate-combination body, run on any whole staging buffers.

  A block of 128 rows of z is read as four column slabs of width 2048 (the forget, input, output and candidate
  pre-activations, in that order), the matching block of c whole. The new cell block is
  sigmoid(z_f)·c + sigmoid(z_g)·tanh(z_i), the new hidden block sigmoid(z_o)·tanh(of that); each is stored whole
  into its own result buffer, so each buffer ends holding exactly its one store.
-/
import proofs.«120737_j82282983457013_1_alg».proof.Proof.Kernel.Shared

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's accesses -/

/-- The four column slabs of the z block. -/
abbrev r1_f : Rect S128x8192 := Rect.unit (s := S128x8192) ![0, 0] S128x2048.size inb_S128x8192_S128x2048_0_0
abbrev r1_g : Rect S128x8192 := Rect.unit (s := S128x8192) ![0, 2048] S128x2048.size inb_S128x8192_S128x2048_0_2048
abbrev r1_o : Rect S128x8192 := Rect.unit (s := S128x8192) ![0, 4096] S128x2048.size inb_S128x8192_S128x2048_0_4096
abbrev r1_i : Rect S128x8192 := Rect.unit (s := S128x8192) ![0, 6144] S128x2048.size inb_S128x8192_S128x2048_0_6144
/-- A whole block of 128 × 2048. -/
abbrev r1_w : Rect S128x2048 := Rect.unit (s := S128x2048) ![0, 0] S128x2048.size inb_S128x2048_S128x2048_0_0

/-! ## What the body leaves in each result buffer -/

/-- The new hidden block, from the z block and the c block. -/
def out1_2 (x0 : Vec F S128x8192 .bf16) (x1 : Vec F S128x2048 .f32) : Vec F S128x2048 .f32 :=
  View.canon [⟨r1_w, k1_pay2 (View.ld x0 r1_f) (View.ld x0 r1_g) (View.ld x0 r1_o) (View.ld x0 r1_i) (View.ld x1 r1_w)⟩]

/-- The new cell block, from the z block and the c block. -/
def out1_3 (x0 : Vec F S128x8192 .bf16) (x1 : Vec F S128x2048 .f32) : Vec F S128x2048 .f32 :=
  View.canon [⟨r1_w, k1_pay1 (View.ld x0 r1_f) (View.ld x0 r1_g) (View.ld x0 r1_i) (View.ld x1 r1_w)⟩]

/-- One whole store covers the buffer. -/
theorem cover1 (p0 : Vec F S128x2048 .f32) (y : S128x2048.Idx) :
    ∃ pc ∈ ([⟨r1_w, p0⟩] : List (View.Piece (Elt F) S128x2048 .f32)), y ∈ pc.1.set :=
  View.cover_of_tiled [⟨r1_w, p0⟩] S128x2048.size (by rfl) y

/-! ## The body's triple -/

set_option maxHeartbeats 1000000 in
/-- From the two input buffers at their contents and the two result buffers at anything, the body runs to its return
    with the inputs unchanged and the result buffers at the new hidden block and the new cell block. -/
theorem sound_kernel1 (c : Dev nD) (E : Set ℕ) (i : grid1.Coords) (arg1 : Memref sig .tc .vmem S128x8192 .bf16) (harg1 : arg1.IsWhole) (arg2 : Memref sig .tc .vmem S128x2048 .f32) (harg2 : arg2.IsWhole) (arg3 : Memref sig .tc .vmem S128x2048 .f32) (harg3 : arg3.IsWhole) (arg4 : Memref sig .tc .vmem S128x2048 .f32) (harg4 : arg4.IsWhole)
    (x0 : Vec F S128x8192 .bf16) (x1 : Vec F S128x2048 .f32) (K : PUnit → sProp 𝕄) :
    iprop(owns (c : Thread nD τ) arg1 fullShare x0 ∗ owns (c : Thread nD τ) arg2 fullShare x1 ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1 ∗ owns (c : Thread nD τ) arg3 fullShare (out1_2 x0 x1) ∗ owns (c : Thread nD τ) arg4 fullShare (out1_3 x0 x1)) -∗ K ⟨⟩))
      ⊢ wp frame (wpE (defs₀ (F := F)) Variants.none c none) E (cc1__combine_kernel i arg1 harg1 arg2 harg2 arg3 harg3 arg4 harg4) K := by
  simp only [cc1__combine_kernel_eq_skeleton]; unfold cc1__combine_kernel_skel
  unfold owns
  iintro ⟨⟨%f0, %hf0, H0⟩, ⟨%f1, %hf1, H1⟩, ⟨%d2, %f2, -, H2⟩, ⟨%d3, %f3, -, H3⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover1 _)
  iexists _; isplitr
  swap; · iexact H3
  ipureintro
  exact View.read_writes_eq_canon _ _ _ (cover1 _)

end Cert.Kernel.Frm

end
-- ==== Proof.Kernel.Dat1.lean ====
/-
  Region 1's proof data and its body obligation, at the contents `V` the region's arrays hold on entry.

  After the body at a point, each input window's staging buffer still holds its block and the two result windows'
  buffers hold the new hidden block and the new cell block of that point's rows. The region keeps nothing between
  points: its invariant is the scoped buffers it does not stage and the generator register, untouched.
-/
import proofs.«120737_j82282983457013_1_alg».proof.Proof.Kernel.Run1

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The proof data of region 1 on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
    | ⟨3, _⟩ => out1_3 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]
theorem after1_3 (c : Dev nD) (t : Fin cfg1.N) : (dat1 V c).after 3 t = out1_3 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' buffers hold their blocks, so the body's triple applies; the invariant and what
    the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ (grid1.coords t) _ _ _ _ _ _ _ _ (iblk1 V c 0 t) (iblk1 V c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of region 1, at every point. -/
theorem body_obligation1 (c : Dev nD) : BodyObligation (dat1 (F := F) V c) (defs₀ (F := F)) Variants.none () Set.univ := fun t => by
  rw [bigSep_W1, bigSep_W1]
  exact sound_body1 V c t

end Cert.Kernel.Frm

end
-- ==== Proof.Kernel.Regs.lean ====
/-
  The whole run of the program on one core: nine host operations (the four weight matrices and the four bias
  vectors concatenated, the two halves of the weight matrix cut out, transposed and narrowed, the bias laid out as
  a row), then the blocked matrix product, then the gate combination.

  The unscoped buffers' contents are followed from boundary to boundary: at launch; after the host operations; after
  region 0, where its result array holds what the pipeline's write-backs leave and everything else is as before;
  after region 1 likewise. Each region is entered by splitting its arrays out of the unscoped buffers and left by
  putting them back. The run ends with every unscoped buffer at the last boundary's contents; in particular no
  argument has been written: no host operation writes one and a region only reads it through an input window or
  passes it by.
-/
import proofs.«120737_j82282983457013_1_alg».proof.Proof.Kernel.Dat0
import proofs.«120737_j82282983457013_1_alg».proof.Proof.Kernel.Dat1
import proofs.«120737_j82282983457013_1_alg».proof.Proof.Gen.Kernel.Regions
import Idealize.ShloMosaic.Lib.Pipeline.RegionsLoop

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- At launch. -/
abbrev W0 : Dev nD → Valuation τ sig (Elt F) := Gen.V0 m
/-- After the host operations: region 0's entry. -/
abbrev W1 : Dev nD → Valuation τ sig (Elt F) := Gen.V1 m
abbrev E1 : (c : Dev nD) → (b : Ref sig .tc) → Buf (Elt F) ((c : Thread nD τ).loc b) := fun c b => W1 m c b
/-- After region 0: its arrays at what the pipeline leaves, every other buffer as entered. -/
def W2 (c : Dev nD) : Valuation τ sig (Elt F) :=
  Pipeline.withArrays spec0 c (W1 m c) fun w => (dat0 (E1 m) c).arrAt w cfg0.N
theorem W2_arr (c : Dev nD) (w : Fin cfg0.W) :
    W2 m c (Proc.devRef .tc (Pipeline.arrRef spec0 w)) = (dat0 (E1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev E2 : (c : Dev nD) → (b : Ref sig .tc) → Buf (Elt F) ((c : Thread nD τ).loc b) := fun c b => W2 m c b
theorem hF0 (c : Dev nD) (w : Fin cfg0.W) : (dat0 (E1 m) c).arrAt w cfg0.N = E2 m c (Pipeline.arrRef spec0 w) :=
  (W2_arr m c w).symm
theorem hrest0 (c : Dev nD) : ∀ b, b ∉ Finset.univ.image (Pipeline.arrRef spec0) → E2 m c b = E1 m c b :=
  fun b hb => W2_of_ne m c b fun w e => hb (Finset.mem_image.mpr ⟨w, Finset.mem_univ _, e⟩)
/-- After region 1: its arrays at what the pipeline leaves, every other buffer as entered. -/
def W3 (c : Dev nD) : Valuation τ sig (Elt F) :=
  Pipeline.withArrays spec1 c (W2 m c) fun w => (dat1 (E2 m) c).arrAt w cfg1.N
theorem W3_arr (c : Dev nD) (w : Fin cfg1.W) :
    W3 m c (Proc.devRef .tc (Pipeline.arrRef spec1 w)) = (dat1 (E2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev E3 : (c : Dev nD) → (b : Ref sig .tc) → Buf (Elt F) ((c : Thread nD τ).loc b) := fun c b => W3 m c b
theorem hF1 (c : Dev nD) (w : Fin cfg1.W) : (dat1 (E2 m) c).arrAt w cfg1.N = E3 m c (Pipeline.arrRef spec1 w) :=
  (W3_arr m c w).symm
theorem hrest1 (c : Dev nD) : ∀ b, b ∉ Finset.univ.image (Pipeline.arrRef spec1) → E3 m c b = E2 m c b :=
  fun b hb => W3_of_ne m c b fun w e => hb (Finset.mem_image.mpr ⟨w, Finset.mem_univ _, e⟩)

/-! ## The arguments end as launched -/

theorem W3_main_arg0 (c : Dev nD) : W3 m c (Proc.devRef .tc main_arg0) = m ((c : Thread nD τ).loc main_arg0) :=
  calc W3 m c (Proc.devRef .tc main_arg0)
    _ = W2 m c (Proc.devRef .tc main_arg0) := W3_of_ne m c main_arg0 (by decide)
    _ = W1 m c (Proc.devRef .tc main_arg0) := (W2_arr m c 0).trans (((dat0 (E1 m) c).arrAt_in 0 rfl _).trans (A_eq0 (E1 m) c 0))
    _ = W0 m c (Proc.devRef .tc main_arg0) := Gen.V1_of m c main_arg0 (by decide)
    _ = m ((c : Thread nD τ).loc main_arg0) := rfl
theorem W3_main_arg1 (c : Dev nD) : W3 m c (Proc.devRef .tc main_arg1) = m ((c : Thread nD τ).loc main_arg1) :=
  calc W3 m c (Proc.devRef .tc main_arg1)
    _ = W2 m c (Proc.devRef .tc main_arg1) := W3_of_ne m c main_arg1 (by decide)
    _ = W1 m c (Proc.devRef .tc main_arg1) := (W2_arr m c 1).trans (((dat0 (E1 m) c).arrAt_in 1 rfl _).trans (A_eq0 (E1 m) c 1))
    _ = W0 m c (Proc.devRef .tc main_arg1) := Gen.V1_of m c main_arg1 (by decide)
    _ = m ((c : Thread nD τ).loc main_arg1) := rfl
theorem W3_main_arg2 (c : Dev nD) : W3 m c (Proc.devRef .tc main_arg2) = m ((c : Thread nD τ).loc main_arg2) :=
  calc W3 m c (Proc.devRef .tc main_arg2)
    _ = W2 m c (Proc.devRef .tc main_arg2) := (W3_arr m c 1).trans (((dat1 (E2 m) c).arrAt_in 1 rfl _).trans (A_eq1 (E2 m) c 1))
    _ = W1 m c (Proc.devRef .tc main_arg2) := W2_of_ne m c main_arg2 (by decide)
    _ = W0 m c (Proc.devRef .tc main_arg2) := Gen.V1_of m c main_arg2 (by decide)
    _ = m ((c : Thread nD τ).loc main_arg2) := rfl
theorem W3_main_arg3 (c : Dev nD) : W3 m c (Proc.devRef .tc main_arg3) = m ((c : Thread nD τ).loc main_arg3) :=
  calc W3 m c (Proc.devRef .tc main_arg3)
    _ = W2 m c (Proc.devRef .tc main_arg3) := W3_of_ne m c main_arg3 (by decide)
    _ = W1 m c (Proc.devRef .tc main_arg3) := W2_of_ne m c main_arg3 (by decide)
    _ = W0 m c (Proc.devRef .tc main_arg3) := Gen.V1_of m c main_arg3 (by decide)
    _ = m ((c : Thread nD τ).loc main_arg3) := rfl
theorem W3_main_arg4 (c : Dev nD) : W3 m c (Proc.devRef .tc main_arg4) = m ((c : Thread nD τ).loc main_arg4) :=
  calc W3 m c (Proc.devRef .tc main_arg4)
    _ = W2 m c (Proc.devRef .tc main_arg4) := W3_of_ne m c main_arg4 (by decide)
    _ = W1 m c (Proc.devRef .tc main_arg4) := W2_of_ne m c main_arg4 (by decide)
    _ = W0 m c (Proc.devRef .tc main_arg4) := Gen.V1_of m c main_arg4 (by decide)
    _ = m ((c : Thread nD τ).loc main_arg4) := rfl
theorem W3_main_arg5 (c : Dev nD) : W3 m c (Proc.devRef .tc main_arg5) = m ((c : Thread nD τ).loc main_arg5) :=
  calc W3 m c (Proc.devRef .tc main_arg5)
    _ = W2 m c (Proc.devRef .tc main_arg5) := W3_of_ne m c main_arg5 (by decide)
    _ = W1 m c (Proc.devRef .tc main_arg5) := W2_of_ne m c main_arg5 (by decide)
    _ = W0 m c (Proc.devRef .tc main_arg5) := Gen.V1_of m c main_arg5 (by decide)
    _ = m ((c : Thread nD τ).loc main_arg5) := rfl
theorem W3_main_arg6 (c : Dev nD) : W3 m c (Proc.devRef .tc main_arg6) = m ((c : Thread nD τ).loc main_arg6) :=
  calc W3 m c (Proc.devRef .tc main_arg6)
    _ = W2 m c (Proc.devRef .tc main_arg6) := W3_of_ne m c main_arg6 (by decide)
    _ = W1 m c (Proc.devRef .tc main_arg6) := W2_of_ne m c main_arg6 (by decide)
    _ = W0 m c (Proc.devRef .tc main_arg6) := Gen.V1_of m c main_arg6 (by decide)
    _ = m ((c : Thread nD τ).loc main_arg6) := rfl
theorem W3_main_arg7 (c : Dev nD) : W3 m c (Proc.devRef .tc main_arg7) = m ((c : Thread nD τ).loc main_arg7) :=
  calc W3 m c (Proc.devRef .tc main_arg7)
    _ = W2 m c (Proc.devRef .tc main_arg7) := W3_of_ne m c main_arg7 (by decide)
    _ = W1 m c (Proc.devRef .tc main_arg7) := W2_of_ne m c main_arg7 (by decide)
    _ = W0 m c (Proc.devRef .tc main_arg7) := Gen.V1_of m c main_arg7 (by decide)
    _ = m ((c : Thread nD τ).loc main_arg7) := rfl
theorem W3_main_arg8 (c : Dev nD) : W3 m c (Proc.devRef .tc main_arg8) = m ((c : Thread nD τ).loc main_arg8) :=
  calc W3 m c (Proc.devRef .tc main_arg8)
    _ = W2 m c (Proc.devRef .tc main_arg8) := W3_of_ne m c main_arg8 (by decide)
    _ = W1 m c (Proc.devRef .tc main_arg8) := W2_of_ne m c main_arg8 (by decide)
    _ = W0 m c (Proc.devRef .tc main_arg8) := Gen.V1_of m c main_arg8 (by decide)
    _ = m ((c : Thread nD τ).loc main_arg8) := rfl
theorem W3_main_arg9 (c : Dev nD) : W3 m c (Proc.devRef .tc main_arg9) = m ((c : Thread nD τ).loc main_arg9) :=
  calc W3 m c (Proc.devRef .tc main_arg9)
    _ = W2 m c (Proc.devRef .tc main_arg9) := W3_of_ne m c main_arg9 (by decide)
    _ = W1 m c (Proc.devRef .tc main_arg9) := W2_of_ne m c main_arg9 (by decide)
    _ = W0 m c (Proc.devRef .tc main_arg9) := Gen.V1_of m c main_arg9 (by decide)
    _ = m ((c : Thread nD τ).loc main_arg9) := rfl
theorem W3_main_arg10 (c : Dev nD) : W3 m c (Proc.devRef .tc main_arg10) = m ((c : Thread nD τ).loc main_arg10) :=
  calc W3 m c (Proc.devRef .tc main_arg10)
    _ = W2 m c (Proc.devRef .tc main_arg10) := W3_of_ne m c main_arg10 (by decide)
    _ = W1 m c (Proc.devRef .tc main_arg10) := W2_of_ne m c main_arg10 (by decide)
    _ = W0 m c (Proc.devRef .tc main_arg10) := Gen.V1_of m c main_arg10 (by decide)
    _ = m ((c : Thread nD τ).loc main_arg10) := rfl

/-! ## The proof data family and the thread state -/

abbrev adm : (p : Fin 2) → (pcfgs (F := F) p).Adm := fun p => (cfgs p).toPCfg_adm
/-- Each region's proof data at its entry contents. -/
def pdats : (p : Fin 2) → (c : Dev nD) → Dat τ (Elt F) Unit ℕ (UR sig nD τ) ℕ (Pipeline.pin (pcfgs (F := F)) adm p) c
  | ⟨0, _⟩ => fun c => dat0 (E1 m) c
  | ⟨1, _⟩ => fun c => dat1 (E2 m) c
abbrev 𝒱₀ : Variants := Variants.none
abbrev L : GSem nD τ sig → Finset Unit := fun _ => ∅
abbrev lv : GSem nD τ sig → Unit → ℕ := fun _ _ => 0
/-- What rides beside the buffers through every segment: the generator register at some state, and the core owing
    nothing. -/
abbrev R (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what the core owes. -/
abbrev Tₙ (c : Dev nD) : sProp 𝕄 := iprop(StableHlo.held (c : Thread nD τ) (Pipeline.ucRefs τ sig) (W3 m c) ∗ ∃ r, prngReg c r)

/-! ## The regions as segments -/

set_option backward.isDefEq.respectTransparency.types false in
/-- Region 0 over the thread state: entered with every unscoped buffer at the contents before it, left with them at the
    contents after it. Its arrays are split out of the unscoped buffers on entry and put back, at what the pipeline
    leaves in them, on exit; the generator register goes into the region's invariant and comes back; nothing is owed;
    the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : (iprop(Pipeline.scopedRest spec0 c ∗ ∃ r, prngReg c r) : sProp 𝕄) ⊢ (pdats m 0 c).Φ 0 := by
      have := hin0 (E1 m) c; unfold Pipeline.ΦA at this; exact this
    iintro ⟨Hp, -, Hr⟩
    iapply h
    isplitl [Hr]; · iexact Hr
    iexact Hp
  hout c := by
    rw [Pipeline.ownSems0_none]
    have h : (pdats m 0 c).Φ (Fin.last (Pipeline.pin (pcfgs (F := F)) adm 0).N) ⊢ (iprop(Pipeline.scopedRest spec0 c ∗ ∃ r, prngReg c r) : sProp 𝕄) := by
      have := hout0 (E1 m) c; unfold Pipeline.ΦA at this; exact this
    iintro H
    ihave H' := h $$ H
    icases H' with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E1 m c) (E2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at the contents before it, left with them at the
    contents after it. Its arrays are split out of the unscoped buffers on entry and put back, at what the pipeline
    leaves in them, on exit; the generator register goes into the region's invariant and comes back; nothing is owed;
    the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E2 m c) (E3 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

/-- The host operations as a segment from the launch contents, `R` riding along. -/
abbrev hseg0 : Pipeline.HostSeg (Name := ℕ) (U := UR sig nD τ) (pcfgs (F := F)) defs₀ 𝒱₀ L lv :=
  Gen.seg0 m 𝒱₀ L lv (fun _ => R)

abbrev segs : List (Pipeline.Seg (pcfgs (F := F)) adm (pdats m) () defs₀ 𝒱₀ L lv) :=
  [ .host (hseg0 m), .region (reg0 m), .region (reg1 m) ]

theorem main_run (c : Dev nD) : main (F := F) c = Pipeline.Seg.run (segs m) := (main_chain c).trans (by chain_rfl)

set_option backward.isDefEq.respectTransparency.types false in
/-- From any memory with zero counters, every weakly fair execution of the program terminates, nothing faulting, and
    every final state has every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c => h c)

/-- The frame: every argument ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨(h c _ (mem_uc main_arg0 (by decide))).trans (W3_main_arg0 m c),
    (h c _ (mem_uc main_arg1 (by decide))).trans (W3_main_arg1 m c),
    (h c _ (mem_uc main_arg2 (by decide))).trans (W3_main_arg2 m c),
    (h c _ (mem_uc main_arg3 (by decide))).trans (W3_main_arg3 m c),
    (h c _ (mem_uc main_arg4 (by decide))).trans (W3_main_arg4 m c),
    (h c _ (mem_uc main_arg5 (by decide))).trans (W3_main_arg5 m c),
    (h c _ (mem_uc main_arg6 (by decide))).trans (W3_main_arg6 m c),
    (h c _ (mem_uc main_arg7 (by decide))).trans (W3_main_arg7 m c),
    (h c _ (mem_uc main_arg8 (by decide))).trans (W3_main_arg8 m c),
    (h c _ (mem_uc main_arg9 (by decide))).trans (W3_main_arg9 m c),
    (h c _ (mem_uc main_arg10 (by decide))).trans (W3_main_arg10 m c)⟩) (run_all m ρ)

end Cert.Kernel.Frm

end
-- ==== Proof.KernelIdeal.Shared.lean ====
/-
  The two kernel regions' common vocabulary, each region stated at the contents `V` its arrays hold when it is
  entered.

  Region 0 is the blocked matrix product: the grid is 8 × 8 × 2, a point's last coordinate k is its position modulo
  2. A point with k = 0 zeroes the accumulator before adding the two partial products of its K-block; a point with
  k = 1 adds its two partial products to what the point before left, adds the bias row and stores the sum into the
  result block. So the result window is untouched (idle, not written back) at the even points and stored whole at the
  odd ones, and the accumulator is carried from each even point to the odd point after it.

  Region 1 is the gate combination, one row block of 128 rows per point, every window read or stored whole.

  Here: a window's block of its array at a point; that an input window's staging buffer holds that block whenever
  the body runs; the two branch conditions as facts about the point's position; where the result window is idle; the
  staging buffers by name; and the region invariant opened at the accumulator.
-/
import proofs.«120737_j82282983457013_1_alg».proof.Proof.Gen.KernelIdeal.Launch
import proofs.«120737_j82282983457013_1_alg».proof.Proof.Gen.KernelIdeal.Skeleton
import proofs.«120737_j82282983457013_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Region 0: the windows' blocks -/

/-- Window `w`'s block of its array at point `t`, the array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point, fetched there or not: where it is not fetched the
    block index has not moved since the last fetch, and the body leaves an input's buffer as it found it. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## Region 0: the body's two branches -/

/-- The accumulator is zeroed: the point's last coordinate is 0. -/
abbrev cond0_0 (i : grid0.Coords) : Prop := (Scalar.cmpi .ne (Scalar.extui (Scalar.cmpi .eq (BitVec.ofNat 32 (i 2).val) 0#32)) 0#32) = 1#1
theorem hcond0_0 : ∀ t : Fin cfg0.N, cond0_0 (grid0.coords t) ↔ t.val % 2 = 0 :=
  (by decide +kernel : ∀ t : Fin grid0.N, cond0_0 (grid0.coords t) ↔ t.val % 2 = 0)

/-- The result block is stored: the point's last coordinate is 1. -/
abbrev cond0_1 (i : grid0.Coords) : Prop := k0_cond2 i = 1#1
theorem hcond0_1 : ∀ t : Fin cfg0.N, cond0_1 (grid0.coords t) ↔ t.val % 2 = 1 :=
  (by decide +kernel : ∀ t : Fin grid0.N, cond0_1 (grid0.coords t) ↔ t.val % 2 = 1)

/-! ## Region 0: where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
/-- At an even point nothing is stored into the result window, and its block is not written back. -/
theorem idleAt0_5_A : ∀ t : Fin cfg0.N, cond0_0 (grid0.coords t) → ¬cond0_1 (grid0.coords t) → cfg0.idle 5 (grid0.coords t) = true := by decide +kernel
theorem noFlush0_5_A : ∀ t : Fin cfg0.N, cond0_0 (grid0.coords t) → ¬cond0_1 (grid0.coords t) → (cfg0.win 5).flush t = false := by decide +kernel
/-- At an odd point the result window is stored. -/
theorem liveAt0_5_B : ∀ t : Fin cfg0.N, ¬cond0_0 (grid0.coords t) → cond0_1 (grid0.coords t) → cfg0.idle 5 (grid0.coords t) = false := by decide +kernel

/-! ## Region 0: the staging buffers and the accumulator, by name -/

abbrev ms0_0 (t : Fin cfg0.N) : Memref sig .tc .vmem S512x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1024 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x1024 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1024 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x1024 .bf16 := win0_5.stage (cfg0.slots t 5)
abbrev hs0_5 (t : Fin cfg0.N) : (ms0_5 t).IsWhole := hstage0_5 ((cfg0.slots t 5).cast nbuf0_5)
/-- The accumulator: a scratch buffer of the kernel's own, carried from point to point. -/
abbrev scM0_0 : Memref sig .tc .vmem S512x1024 .f32 := Memref.whole cc0_scratch0
/-- One staging buffer of the result window, through which its contents are stated. -/
abbrev VO0_5 : View sig .tc .vmem S512x1024 .bf16 := (Memref.whole cc0_stg5_0 : Memref sig .tc .vmem S512x1024 .bf16).view
abbrev VS0_0 : View sig .tc .vmem S512x1024 .f32 := scM0_0.view

/-- The scoped buffers region 0 neither stages nor accumulates in (the other region's staging buffers), each at
    some contents. -/
def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f))

/-- The class invariant with the accumulator split off: the accumulator at some contents, the other scoped buffers,
    the generator register at some state. -/
theorem PhiA0_eq (c : Dev nD) :
    (Pipeline.ΦA spec0 c : sProp 𝕄)
      = iprop(iprop((∃ d, owns (c : Thread nD τ) scM0_0 fullShare d) ∗ rest0 (F := F) c) ∗ (∃ r, prngReg c r)) := by
  unfold Pipeline.ΦA rest0; rw [scopedRest0_eq]; simp only [scM0_0, owns_whole]; try rfl

/-! ## Region 1 -/

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

abbrev ms1_0 (t : Fin cfg1.N) : Memref sig .tc .vmem S128x8192 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S128x2048 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S128x2048 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S128x2048 .f32 := win1_3.stage (cfg1.slots t 3)
abbrev hs1_3 (t : Fin cfg1.N) : (ms1_3 t).IsWhole := hstage1_3 ((cfg1.slots t 3).cast nbuf1_3)

end Cert.KernelIdeal.Frm

end
-- ==== Proof.KernelIdeal.Run0A.lean ====
/-
  The matrix-product body at a point whose last coordinate is 0, run on any whole staging buffers.

  The accumulator is first stored whole with zeros, then twice loaded, increased by one partial product and stored
  back; nothing is stored into the result window, whose buffer comes back as it was handed in. What the accumulator
  ends with is recorded as the list of the stores into it, last first.
-/
import proofs.«120737_j82282983457013_1_alg».proof.Proof.KernelIdeal.Shared

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- From the five input buffers at their contents, the result buffer at `y5` and the accumulator at anything, the body
    runs to its return with the inputs and the result buffer unchanged and the accumulator overwritten by its stores. -/
noncomputable def kernelRun0_A (c : Dev nD) (i : grid0.Coords) (arg3 : Memref sig .tc .vmem S512x1024 .f32) (harg3 : arg3.IsWhole) (arg4 : Memref sig .tc .vmem S512x1024 .f32) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S512x1024 .bf16) (harg8 : arg8.IsWhole) (arg9 : Memref sig .tc .vmem S512x1024 .f32) (harg9 : arg9.IsWhole) (hc0 : cond0_0 i) (hc1 : ¬cond0_1 i)
    (x0 : Vec F S512x1024 .f32) (x1 : Vec F S512x1024 .f32) (x2 : Vec F S1024x1024 .bf16) (x3 : Vec F S1024x1024 .bf16) (x4 : Vec F S1x1024 .f32) :
    { LS0 : List (View.Piece (Elt F) S512x1024 .f32) //
      ∀ (y5 : Vec F S512x1024 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare y5 ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare y5 ∗ (∃ f, arg9.view.loc (c : Thread nD τ) ↦[arg9.view.set]{fullShare} arg9.view.writes (Elt F) f LS0)) -∗ K ⟨⟩))
          ⊢ wp frame (wpE (defs₀ (F := F)) Variants.none c none) E (cc0__matmul_kernel i arg3 harg3 arg4 harg4 arg5 harg5 arg6 harg6 arg7 harg7 arg8 harg8 arg9 harg9) K } := by
  refine ⟨?_, fun y5 E K => ?run⟩
  case run =>
    simp only [cc0__matmul_kernel_eq_skeleton]; unfold cc0__matmul_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds, %fs, -, HS⟩, Hk⟩
    obtain rfl := harg3.eq_unread hf0; obtain rfl := harg4.eq_unread hf1; obtain rfl := harg5.eq_unread hf2
    obtain rfl := harg6.eq_unread hf3; obtain rfl := harg7.eq_unread hf4; obtain rfl := harg8.eq_unread hf5
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    iexists _; iexact HS

end Cert.KernelIdeal.Frm

end
-- ==== Proof.KernelIdeal.Run0B.lean ====
/-
  The matrix-product body at a point whose last coordinate is 1, run on any whole staging buffers.

  The accumulator comes in holding what the point before left; it is twice loaded, increased by one partial product
  and stored back, then loaded once more, the bias row added along the rows, and the sum stored whole into the result
  buffer. What the accumulator and the result buffer end with is recorded as the lists of the stores into them, last
  first.
-/
import proofs.«120737_j82282983457013_1_alg».proof.Proof.KernelIdeal.Shared

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- From the five input buffers at their contents, the result buffer at anything and the accumulator at `xs0`, the body
    runs to its return with the inputs unchanged and the accumulator and the result buffer overwritten by their stores. -/
noncomputable def kernelRun0_B (c : Dev nD) (i : grid0.Coords) (arg3 : Memref sig .tc .vmem S512x1024 .f32) (harg3 : arg3.IsWhole) (arg4 : Memref sig .tc .vmem S512x1024 .f32) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S512x1024 .bf16) (harg8 : arg8.IsWhole) (arg9 : Memref sig .tc .vmem S512x1024 .f32) (harg9 : arg9.IsWhole) (hc0 : ¬cond0_0 i) (hc1 : cond0_1 i)
    (x0 : Vec F S512x1024 .f32) (x1 : Vec F S512x1024 .f32) (x2 : Vec F S1024x1024 .bf16) (x3 : Vec F S1024x1024 .bf16) (x4 : Vec F S1x1024 .f32) (xs0 : Vec F S512x1024 .f32) :
    Σ' (L5 : List (View.Piece (Elt F) S512x1024 .bf16)), { LS0 : List (View.Piece (Elt F) S512x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ owns (c : Thread nD τ) arg9 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f L5) ∗ (∃ f, arg9.view.loc (c : Thread nD τ) ↦[arg9.view.set]{fullShare} arg9.view.writes (Elt F) f LS0)) -∗ K ⟨⟩))
          ⊢ wp frame (wpE (defs₀ (F := F)) Variants.none c none) E (cc0__matmul_kernel i arg3 harg3 arg4 harg4 arg5 harg5 arg6 harg6 arg7 harg7 arg8 harg8 arg9 harg9) K } := by
  refine ⟨?_, ?_, fun E K => ?run⟩
  case run =>
    simp only [cc0__matmul_kernel_eq_skeleton]; unfold cc0__matmul_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs, %hfs, HS⟩, Hk⟩
    obtain rfl := harg3.eq_unread hf0; obtain rfl := harg4.eq_unread hf1; obtain rfl := harg5.eq_unread hf2
    obtain rfl := harg6.eq_unread hf3; obtain rfl := harg7.eq_unread hf4; obtain rfl := harg9.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]; · iexists _; iexact H5
    iexists _; iexact HS

end Cert.KernelIdeal.Frm

end
-- ==== Proof.KernelIdeal.Dat0.lean ====
/-
  Region 0's proof data and its body obligation, at the contents `V` the region's arrays hold on entry.

  The points come in pairs: an even point 2q zeroes the accumulator and adds the two partial products of the first
  K-block, the odd point 2q + 1 adds those of the second K-block to what 2q left and stores accumulator + bias into
  the result block, which is written back to the array there. So what the accumulator holds after a point is defined
  by recursion on the point: at an even point from the point's input blocks alone, at an odd point from them and what
  the point before left. The region's invariant before a point other than the first is the accumulator held at exactly
  that, beside the other scoped buffers and the generator register; before the first point the accumulator is at
  anything.
-/
import proofs.«120737_j82282983457013_1_alg».proof.Proof.KernelIdeal.Run0A
import proofs.«120737_j82282983457013_1_alg».proof.Proof.KernelIdeal.Run0B

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- An even point's stores into the accumulator tile it. -/
theorem scover0_A (c : Dev nD) (i : grid0.Coords) (arg3 : Memref sig .tc .vmem S512x1024 .f32) (harg3 : arg3.IsWhole) (arg4 : Memref sig .tc .vmem S512x1024 .f32) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S512x1024 .bf16) (harg8 : arg8.IsWhole) (arg9 : Memref sig .tc .vmem S512x1024 .f32) (harg9 : arg9.IsWhole) (hc0 : cond0_0 i) (hc1 : ¬cond0_1 i)
    (x0 : Vec F S512x1024 .f32) (x1 : Vec F S512x1024 .f32) (x2 : Vec F S1024x1024 .bf16) (x3 : Vec F S1024x1024 .bf16) (x4 : Vec F S1x1024 .f32) (y : S512x1024.Idx) :
    ∃ pc ∈ (kernelRun0_A c i arg3 harg3 arg4 harg4 arg5 harg5 arg6 harg6 arg7 harg7 arg8 harg8 arg9 harg9 hc0 hc1 x0 x1 x2 x3 x4).1, y ∈ pc.1.set :=
  View.cover_of_tiledL (kernelRun0_A c i arg3 harg3 arg4 harg4 arg5 harg5 arg6 harg6 arg7 harg7 arg8 harg8 arg9 harg9 hc0 hc1 x0 x1 x2 x3 x4).1 S512x1024.size (by sl_kernel_rfl) y

/-- What an even point leaves in the accumulator: its stores read back. -/
def sout0_A (c : Dev nD) (i : grid0.Coords) (arg3 : Memref sig .tc .vmem S512x1024 .f32) (harg3 : arg3.IsWhole) (arg4 : Memref sig .tc .vmem S512x1024 .f32) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S512x1024 .bf16) (harg8 : arg8.IsWhole) (arg9 : Memref sig .tc .vmem S512x1024 .f32) (harg9 : arg9.IsWhole) (hc0 : cond0_0 i) (hc1 : ¬cond0_1 i)
    (x0 : Vec F S512x1024 .f32) (x1 : Vec F S512x1024 .f32) (x2 : Vec F S1024x1024 .bf16) (x3 : Vec F S1024x1024 .bf16) (x4 : Vec F S1x1024 .f32) : Vec F S512x1024 .f32 :=
  VS0_0.read (Elt F) (VS0_0.writes (Elt F) VS0_0.junk (kernelRun0_A c i arg3 harg3 arg4 harg4 arg5 harg5 arg6 harg6 arg7 harg7 arg8 harg8 arg9 harg9 hc0 hc1 x0 x1 x2 x3 x4).1)

/-- An odd point's stores into the accumulator tile it. -/
theorem scover0_B (c : Dev nD) (i : grid0.Coords) (arg3 : Memref sig .tc .vmem S512x1024 .f32) (harg3 : arg3.IsWhole) (arg4 : Memref sig .tc .vmem S512x1024 .f32) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S512x1024 .bf16) (harg8 : arg8.IsWhole) (arg9 : Memref sig .tc .vmem S512x1024 .f32) (harg9 : arg9.IsWhole) (hc0 : ¬cond0_0 i) (hc1 : cond0_1 i)
    (x0 : Vec F S512x1024 .f32) (x1 : Vec F S512x1024 .f32) (x2 : Vec F S1024x1024 .bf16) (x3 : Vec F S1024x1024 .bf16) (x4 : Vec F S1x1024 .f32) (xs0 : Vec F S512x1024 .f32) (y : S512x1024.Idx) :
    ∃ pc ∈ (kernelRun0_B c i arg3 harg3 arg4 harg4 arg5 harg5 arg6 harg6 arg7 harg7 arg8 harg8 arg9 harg9 hc0 hc1 x0 x1 x2 x3 x4 xs0).2.1, y ∈ pc.1.set :=
  View.cover_of_tiledL (kernelRun0_B c i arg3 harg3 arg4 harg4 arg5 harg5 arg6 harg6 arg7 harg7 arg8 harg8 arg9 harg9 hc0 hc1 x0 x1 x2 x3 x4 xs0).2.1 S512x1024.size (by sl_kernel_rfl) y

/-- What an odd point leaves in the accumulator: its stores read back. -/
def sout0_B (c : Dev nD) (i : grid0.Coords) (arg3 : Memref sig .tc .vmem S512x1024 .f32) (harg3 : arg3.IsWhole) (arg4 : Memref sig .tc .vmem S512x1024 .f32) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S512x1024 .bf16) (harg8 : arg8.IsWhole) (arg9 : Memref sig .tc .vmem S512x1024 .f32) (harg9 : arg9.IsWhole) (hc0 : ¬cond0_0 i) (hc1 : cond0_1 i)
    (x0 : Vec F S512x1024 .f32) (x1 : Vec F S512x1024 .f32) (x2 : Vec F S1024x1024 .bf16) (x3 : Vec F S1024x1024 .bf16) (x4 : Vec F S1x1024 .f32) (xs0 : Vec F S512x1024 .f32) : Vec F S512x1024 .f32 :=
  VS0_0.read (Elt F) (VS0_0.writes (Elt F) VS0_0.junk (kernelRun0_B c i arg3 harg3 arg4 harg4 arg5 harg5 arg6 harg6 arg7 harg7 arg8 harg8 arg9 harg9 hc0 hc1 x0 x1 x2 x3 x4 xs0).2.1)

/-- An odd point's one store into the result buffer covers it. -/
theorem cover0_B_5 (c : Dev nD) (i : grid0.Coords) (arg3 : Memref sig .tc .vmem S512x1024 .f32) (harg3 : arg3.IsWhole) (arg4 : Memref sig .tc .vmem S512x1024 .f32) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S512x1024 .bf16) (harg8 : arg8.IsWhole) (arg9 : Memref sig .tc .vmem S512x1024 .f32) (harg9 : arg9.IsWhole) (hc0 : ¬cond0_0 i) (hc1 : cond0_1 i)
    (x0 : Vec F S512x1024 .f32) (x1 : Vec F S512x1024 .f32) (x2 : Vec F S1024x1024 .bf16) (x3 : Vec F S1024x1024 .bf16) (x4 : Vec F S1x1024 .f32) (xs0 : Vec F S512x1024 .f32) (y : S512x1024.Idx) :
    ∃ pc ∈ (kernelRun0_B c i arg3 harg3 arg4 harg4 arg5 harg5 arg6 harg6 arg7 harg7 arg8 harg8 arg9 harg9 hc0 hc1 x0 x1 x2 x3 x4 xs0).1, y ∈ pc.1.set :=
  View.cover_of_tiledL (kernelRun0_B c i arg3 harg3 arg4 harg4 arg5 harg5 arg6 harg6 arg7 harg7 arg8 harg8 arg9 harg9 hc0 hc1 x0 x1 x2 x3 x4 xs0).1 S512x1024.size (by sl_kernel_rfl) y

/-- What an odd point leaves in the result buffer: its store read back. -/
def out0_B_5 (c : Dev nD) (i : grid0.Coords) (arg3 : Memref sig .tc .vmem S512x1024 .f32) (harg3 : arg3.IsWhole) (arg4 : Memref sig .tc .vmem S512x1024 .f32) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S512x1024 .bf16) (harg8 : arg8.IsWhole) (arg9 : Memref sig .tc .vmem S512x1024 .f32) (harg9 : arg9.IsWhole) (hc0 : ¬cond0_0 i) (hc1 : cond0_1 i)
    (x0 : Vec F S512x1024 .f32) (x1 : Vec F S512x1024 .f32) (x2 : Vec F S1024x1024 .bf16) (x3 : Vec F S1024x1024 .bf16) (x4 : Vec F S1x1024 .f32) (xs0 : Vec F S512x1024 .f32) : Vec F S512x1024 .bf16 :=
  VO0_5.read (Elt F) (VO0_5.writes (Elt F) VO0_5.junk (kernelRun0_B c i arg3 harg3 arg4 harg4 arg5 harg5 arg6 harg6 arg7 harg7 arg8 harg8 arg9 harg9 hc0 hc1 x0 x1 x2 x3 x4 xs0).1)

/-! ## The same at a point of the grid, on the point's staging buffers and input blocks -/

theorem notOdd_of_even (t : Fin cfg0.N) (h0 : t.val % 2 = 0) : ¬cond0_1 (grid0.coords t) :=
  fun h => by have := (hcond0_1 t).mp h; omega
theorem notEven_of_odd (t : Fin cfg0.N) (h1 : t.val % 2 = 1) : ¬cond0_0 (grid0.coords t) :=
  fun h => by have := (hcond0_0 t).mp h; omega

/-- The accumulator after an even point `t`. -/
def accA (c : Dev nD) (t : Fin cfg0.N) (h0 : t.val % 2 = 0) : Vec F S512x1024 .f32 :=
  sout0_A c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (notOdd_of_even t h0) (iblk0 V c 0 t) (iblk0 V c 1 t) (iblk0 V c 2 t) (iblk0 V c 3 t) (iblk0 V c 4 t)

/-- The accumulator after an odd point `t` that found it at `xs0`. -/
def accB (c : Dev nD) (t : Fin cfg0.N) (h1 : t.val % 2 = 1) (xs0 : Vec F S512x1024 .f32) : Vec F S512x1024 .f32 :=
  sout0_B c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (notEven_of_odd t h1) ((hcond0_1 t).mpr h1) (iblk0 V c 0 t) (iblk0 V c 1 t) (iblk0 V c 2 t) (iblk0 V c 3 t) (iblk0 V c 4 t) xs0

/-- The result buffer after an odd point `t` that found the accumulator at `xs0`. -/
def outB (c : Dev nD) (t : Fin cfg0.N) (h1 : t.val % 2 = 1) (xs0 : Vec F S512x1024 .f32) : Vec F S512x1024 .bf16 :=
  out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (notEven_of_odd t h1) ((hcond0_1 t).mpr h1) (iblk0 V c 0 t) (iblk0 V c 1 t) (iblk0 V c 2 t) (iblk0 V c 3 t) (iblk0 V c 4 t) xs0

/-- Contents nothing consults: the result buffer's at an even point, where it is neither stored nor written back. -/
def idle5 : Vec F S512x1024 .bf16 := VO0_5.read (Elt F) VO0_5.junk

/-! ## The accumulation over the points -/

/-- What the result window's staging buffer and the accumulator hold after the body at position `n`. -/
def outsAt0 (c : Dev nD) : (n : ℕ) → n < cfg0.N → Vec F S512x1024 .bf16 × Vec F S512x1024 .f32
  | 0, hn => (idle5, accA V c ⟨0, hn⟩ (Nat.zero_mod _))
  | n + 1, hn =>
    if h0 : (n + 1) % 2 = 0 then (idle5, accA V c ⟨n + 1, hn⟩ h0)
    else (outB V c ⟨n + 1, hn⟩ (Nat.mod_two_ne_zero.mp h0) (outsAt0 c n (Nat.lt_of_succ_lt hn)).2,
          accB V c ⟨n + 1, hn⟩ (Nat.mod_two_ne_zero.mp h0) (outsAt0 c n (Nat.lt_of_succ_lt hn)).2)

/-- At an even point. -/
theorem outsAt0_A (c : Dev nD) (t : Fin cfg0.N) (h0 : t.val % 2 = 0) :
    outsAt0 V c t.val t.isLt = (idle5, accA V c t h0) := by
  obtain ⟨n, hn⟩ := t
  cases n with
  | zero => exact rfl
  | succ n => exact (dif_pos h0).trans rfl

/-- At an odd point, over what the point before left. -/
theorem outsAt0_B (c : Dev nD) (t : Fin cfg0.N) (h1 : t.val % 2 = 1) :
    outsAt0 V c t.val t.isLt
      = (outB V c t h1 (outsAt0 V c (t.val - 1) (Nat.lt_of_le_of_lt (Nat.sub_le _ _) t.isLt)).2,
         accB V c t h1 (outsAt0 V c (t.val - 1) (Nat.lt_of_le_of_lt (Nat.sub_le _ _) t.isLt)).2) := by
  obtain ⟨n, hn⟩ := t
  cases n with
  | zero => exact absurd h1 (show ¬ (0 % 2 = 1) by decide)
  | succ n => exact (dif_neg (by have h : (n + 1) % 2 = 1 := h1; omega)).trans rfl

/-! ## The region's invariant -/

/-- Before position `n`: before the first point the class invariant (the accumulator at anything); afterwards the
    accumulator at what the point before left, the other scoped buffers at anything, the generator register at some
    state. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ rest0 (F := F) c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0_0 fullShare ((outsAt0 V c n hn).2) ∗ rest0 (F := F) c) ∗ (∃ r, prngReg c r)) := rfl

theorem PhiS_pos (c : Dev nD) (n : ℕ) (h : n ≤ cfg0.N) (hz : n ≠ 0) :
    PhiS V c n h = iprop(iprop(owns (c : Thread nD τ) scM0_0 fullShare ((outsAt0 V c (n - 1) (by omega)).2) ∗ rest0 (F := F) c) ∗ (∃ r, prngReg c r)) := by
  cases n with
  | zero => exact absurd rfl hz
  | succ n => rfl

/-! ## The proof data -/

/-- Region 0's proof data on core `c`: the arrays as the region finds them; after the body at a point each input's
    buffer at its block and the result's at `outsAt0`'s first component; the invariant `PhiS`; nothing owed; full
    shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => (outsAt0 V c t.val t.isLt).1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t)

theorem leaves0_in (c : Dev nD) (t : Fin cfg0.N) :
    (dat0 V c).leavesExact 0 t = owns (c : Thread nD τ) (ms0_0 t) fullShare (iblk0 V c 0 t)
    ∧ (dat0 V c).leavesExact 1 t = owns (c : Thread nD τ) (ms0_1 t) fullShare (iblk0 V c 1 t)
    ∧ (dat0 V c).leavesExact 2 t = owns (c : Thread nD τ) (ms0_2 t) fullShare (iblk0 V c 2 t)
    ∧ (dat0 V c).leavesExact 3 t = owns (c : Thread nD τ) (ms0_3 t) fullShare (iblk0 V c 3 t)
    ∧ (dat0 V c).leavesExact 4 t = owns (c : Thread nD τ) (ms0_4 t) fullShare (iblk0 V c 4 t) := by
  refine ⟨?_, ?_, ?_, ?_, ?_⟩
  · unfold Dat.leavesExact; rw [liveAt0_0 t, after0_0]
  · unfold Dat.leavesExact; rw [liveAt0_1 t, after0_1]
  · unfold Dat.leavesExact; rw [liveAt0_2 t, after0_2]
  · unfold Dat.leavesExact; rw [liveAt0_3 t, after0_3]
  · unfold Dat.leavesExact; rw [liveAt0_4 t, after0_4]

set_option maxHeartbeats 4800000 in
/-- The body at any point. The inputs' buffers hold their blocks; the point's parity says which case it is in. The
    invariant hands the body the accumulator at what the point before left (at anything at the first point) and takes
    it back at this point's contents; at an even point the result buffer goes through untouched, at an odd one it
    comes back at the point's stored block. The core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  obtain ⟨hl0, hl1, hl2, hl3, hl4⟩ := leaves0_in V c t
  rw [hl0, hl1, hl2, hl3, hl4]
  rw [show (dat0 V c).owesAt () t.succ = (dat0 V c).owesAt () t.castSucc from rfl]
  rw [show (dat0 V c).Φ t.succ = PhiS V c (t.val + 1) t.isLt from rfl, PhiS_succ]
  have hN : t.val < 128 := lt_of_lt_of_eq t.isLt (show cfg0.N = 128 from N_0)
  by_cases h0 : t.val % 2 = 0
  · have hc0 : cond0_0 (grid0.coords t) := (hcond0_0 t).mpr h0
    have hc1 : ¬cond0_1 (grid0.coords t) := notOdd_of_even t h0
    rw [Dat.leavesExact_idle (dat0 V c) 5 t (idleAt0_5_A t hc0 hc1) (noFlush0_5_A t hc0 hc1)]
    rw [outsAt0_A V c t h0]
    unfold accA sout0_A; (try dsimp only)
    by_cases hz : t.val = 0
    · rw [PhiS_castSucc V c t, PhiS_zero V c _ _ hz, PhiA0_eq]
      iintro ⟨⟨⟨HS0, Hr⟩, Hg⟩, Ho, ⟨%d0, H0⟩, ⟨%d1, H1⟩, ⟨%d2, H2⟩, ⟨%d3, H3⟩, ⟨%d4, H4⟩, ⟨%d5, H5⟩⟩
      iapply ((kernelRun0_A c (grid0.coords t) _ _ _ _ _ _ _ _ _ _ _ _ _ _ hc0 hc1 (iblk0 V c 0 t) (iblk0 V c 1 t) (iblk0 V c 2 t) (iblk0 V c 3 t) (iblk0 V c 4 t)).2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      iintro ⟨H0, H1, H2, H3, H4, H5, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover0_A c _ _ _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
    · rw [PhiS_castSucc V c t, PhiS_pos V c _ _ hz]
      iintro ⟨⟨⟨HS0, Hr⟩, Hg⟩, Ho, ⟨%d0, H0⟩, ⟨%d1, H1⟩, ⟨%d2, H2⟩, ⟨%d3, H3⟩, ⟨%d4, H4⟩, ⟨%d5, H5⟩⟩
      iapply ((kernelRun0_A c (grid0.coords t) _ _ _ _ _ _ _ _ _ _ _ _ _ _ hc0 hc1 (iblk0 V c 0 t) (iblk0 V c 1 t) (iblk0 V c 2 t) (iblk0 V c 3 t) (iblk0 V c 4 t)).2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexists _; iexact HS0
      iintro ⟨H0, H1, H2, H3, H4, H5, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover0_A c _ _ _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
  · have h1 : t.val % 2 = 1 := by omega
    have hc0 : ¬cond0_0 (grid0.coords t) := notEven_of_odd t h1
    have hc1 : cond0_1 (grid0.coords t) := (hcond0_1 t).mpr h1
    rw [show (dat0 V c).leavesExact 5 t = owns (c : Thread nD τ) (ms0_5 t) fullShare ((dat0 V c).after 5 t) from by
      unfold Dat.leavesExact; rw [liveAt0_5_B t hc0 hc1], after0_5]
    rw [outsAt0_B V c t h1]
    unfold outB accB out0_B_5 sout0_B; (try dsimp only)
    have hz : t.val ≠ 0 := by omega
    rw [PhiS_castSucc V c t, PhiS_pos V c _ _ hz]
    iintro ⟨⟨⟨HS0, Hr⟩, Hg⟩, Ho, ⟨%d0, H0⟩, ⟨%d1, H1⟩, ⟨%d2, H2⟩, ⟨%d3, H3⟩, ⟨%d4, H4⟩, ⟨%d5, H5⟩⟩
    iapply ((kernelRun0_B c (grid0.coords t) _ _ _ _ _ _ _ _ _ _ _ _ _ _ hc0 hc1 (iblk0 V c 0 t) (iblk0 V c 1 t) (iblk0 V c 2 t) (iblk0 V c 3 t) (iblk0 V c 4 t) _).2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [HS0]; · iexact HS0
    iintro ⟨H0, H1, H2, H3, H4, ⟨%e5, H5⟩, ⟨%es0, HS0⟩⟩
    isplitl [HS0 Hr Hg]
    · isplitl [HS0 Hr]
      · isplitl [HS0]
        · unfold owns; iexists _; isplitr
          swap; · iexact HS0
          ipureintro; exact View.read_writes_of_cover _ _ _ _ _ (scover0_B c _ _ _ _ _ _ _ _ _ _ _ _ _ _ _ _ _ _ _ _ _ _ _)
        iexact Hr
      iexact Hg
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro; exact View.read_writes_of_cover _ _ _ _ _ (cover0_B_5 c _ _ _ _ _ _ _ _ _ _ _ _ _ _ _ _ _ _ _ _ _ _ _)

/-- The body obligation of region 0, at every point. -/
theorem body_obligation0 (c : Dev nD) : BodyObligation (dat0 (F := F) V c) (defs₀ (F := F)) Variants.none () Set.univ := fun t => by
  rw [bigSep_W0, bigSep_W0]
  exact sound_body0 V c t

/-- What a region is handed is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After the last point the invariant gives the class invariant back: the accumulator's contents are forgotten. -/
theorem hout0 (c : Dev nD) : (dat0 V c).Φ (Fin.last cfg0.N) ⊢ Pipeline.ΦA spec0 c := by
  have hne : (Fin.last cfg0.N).val ≠ 0 := by rw [Fin.val_last]; have : cfg0.N = 128 := N_0; omega
  rw [show (dat0 V c).Φ (Fin.last cfg0.N) = PhiS V c (Fin.last cfg0.N).val (Nat.le_of_lt_succ (Fin.last cfg0.N).isLt) from rfl,
    PhiS_pos V c _ _ hne, PhiA0_eq]
  iintro ⟨⟨HS0, Hr⟩, Hg⟩
  isplitl [HS0 Hr]
  · isplitl [HS0]
    · iexists _; iexact HS0
    iexact Hr
  iexact Hg

end Cert.KernelIdeal.Frm

end
-- ==== Proof.KernelIdeal.Run1.lean ====
/-
  The gate-combination body, run on any whole staging buffers.

  A block of 128 rows of z is read as four column slabs of width 2048 (the forget, input, output and candidate
  pre-activations, in that order), the matching block of c whole. The new cell block is
  sigmoid(z_f)·c + sigmoid(z_g)·tanh(z_i), the new hidden block sigmoid(z_o)·tanh(of that); each is stored whole
  into its own result buffer, so each buffer ends holding exactly its one store.
-/
import proofs.«120737_j82282983457013_1_alg».proof.Proof.KernelIdeal.Shared

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's accesses -/

/-- The four column slabs of the z block. -/
abbrev r1_f : Rect S128x8192 := Rect.unit (s := S128x8192) ![0, 0] S128x2048.size inb_S128x8192_S128x2048_0_0
abbrev r1_g : Rect S128x8192 := Rect.unit (s := S128x8192) ![0, 2048] S128x2048.size inb_S128x8192_S128x2048_0_2048
abbrev r1_o : Rect S128x8192 := Rect.unit (s := S128x8192) ![0, 4096] S128x2048.size inb_S128x8192_S128x2048_0_4096
abbrev r1_i : Rect S128x8192 := Rect.unit (s := S128x8192) ![0, 6144] S128x2048.size inb_S128x8192_S128x2048_0_6144
/-- A whole block of 128 × 2048. -/
abbrev r1_w : Rect S128x2048 := Rect.unit (s := S128x2048) ![0, 0] S128x2048.size inb_S128x2048_S128x2048_0_0

/-! ## What the body leaves in each result buffer -/

/-- The new hidden block, from the z block and the c block. -/
def out1_2 (x0 : Vec F S128x8192 .bf16) (x1 : Vec F S128x2048 .f32) : Vec F S128x2048 .f32 :=
  View.canon [⟨r1_w, k1_pay2 (View.ld x0 r1_f) (View.ld x0 r1_g) (View.ld x0 r1_o) (View.ld x0 r1_i) (View.ld x1 r1_w)⟩]

/-- The new cell block, from the z block and the c block. -/
def out1_3 (x0 : Vec F S128x8192 .bf16) (x1 : Vec F S128x2048 .f32) : Vec F S128x2048 .f32 :=
  View.canon [⟨r1_w, k1_pay1 (View.ld x0 r1_f) (View.ld x0 r1_g) (View.ld x0 r1_i) (View.ld x1 r1_w)⟩]

/-- One whole store covers the buffer. -/
theorem cover1 (p0 : Vec F S128x2048 .f32) (y : S128x2048.Idx) :
    ∃ pc ∈ ([⟨r1_w, p0⟩] : List (View.Piece (Elt F) S128x2048 .f32)), y ∈ pc.1.set :=
  View.cover_of_tiled [⟨r1_w, p0⟩] S128x2048.size (by rfl) y

/-! ## The body's triple -/

set_option maxHeartbeats 1000000 in
/-- From the two input buffers at their contents and the two result buffers at anything, the body runs to its return
    with the inputs unchanged and the result buffers at the new hidden block and the new cell block. -/
theorem sound_kernel1 (c : Dev nD) (E : Set ℕ) (i : grid1.Coords) (arg1 : Memref sig .tc .vmem S128x8192 .bf16) (harg1 : arg1.IsWhole) (arg2 : Memref sig .tc .vmem S128x2048 .f32) (harg2 : arg2.IsWhole) (arg3 : Memref sig .tc .vmem S128x2048 .f32) (harg3 : arg3.IsWhole) (arg4 : Memref sig .tc .vmem S128x2048 .f32) (harg4 : arg4.IsWhole)
    (x0 : Vec F S128x8192 .bf16) (x1 : Vec F S128x2048 .f32) (K : PUnit → sProp 𝕄) :
    iprop(owns (c : Thread nD τ) arg1 fullShare x0 ∗ owns (c : Thread nD τ) arg2 fullShare x1 ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1 ∗ owns (c : Thread nD τ) arg3 fullShare (out1_2 x0 x1) ∗ owns (c : Thread nD τ) arg4 fullShare (out1_3 x0 x1)) -∗ K ⟨⟩))
      ⊢ wp frame (wpE (defs₀ (F := F)) Variants.none c none) E (cc1__combine_kernel i arg1 harg1 arg2 harg2 arg3 harg3 arg4 harg4) K := by
  simp only [cc1__combine_kernel_eq_skeleton]; unfold cc1__combine_kernel_skel
  unfold owns
  iintro ⟨⟨%f0, %hf0, H0⟩, ⟨%f1, %hf1, H1⟩, ⟨%d2, %f2, -, H2⟩, ⟨%d3, %f3, -, H3⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover1 _)
  iexists _; isplitr
  swap; · iexact H3
  ipureintro
  exact View.read_writes_eq_canon _ _ _ (cover1 _)

end Cert.KernelIdeal.Frm

end
-- ==== Proof.KernelIdeal.Dat1.lean ====
/-
  Region 1's proof data and its body obligation, at the contents `V` the region's arrays hold on entry.

  After the body at a point, each input window's staging buffer still holds its block and the two result windows'
  buffers hold the new hidden block and the new cell block of that point's rows. The region keeps nothing between
  points: its invariant is the scoped buffers it does not stage and the generator register, untouched.
-/
import proofs.«120737_j82282983457013_1_alg».proof.Proof.KernelIdeal.Run1

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The proof data of region 1 on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
    | ⟨3, _⟩ => out1_3 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]
theorem after1_3 (c : Dev nD) (t : Fin cfg1.N) : (dat1 V c).after 3 t = out1_3 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' buffers hold their blocks, so the body's triple applies; the invariant and what
    the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ (grid1.coords t) _ _ _ _ _ _ _ _ (iblk1 V c 0 t) (iblk1 V c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of region 1, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Frm

end
-- ==== Proof.KernelIdeal.Regs.lean ====
/-
  The whole run of the program on one core: nine host operations (the four weight matrices and the four bias
  vectors concatenated, the two halves of the weight matrix cut out, transposed and narrowed, the bias laid out as
  a row), then the blocked matrix product, then the gate combination.

  The unscoped buffers' contents are followed from boundary to boundary: at launch; after the host operations; after
  region 0, where its result array holds what the pipeline's write-backs leave and everything else is as before;
  after region 1 likewise. Each region is entered by splitting its arrays out of the unscoped buffers and left by
  putting them back. The run ends with every unscoped buffer at the last boundary's contents; in particular no
  argument has been written: no host operation writes one and a region only reads it through an input window or
  passes it by.
-/
import proofs.«120737_j82282983457013_1_alg».proof.Proof.KernelIdeal.Dat0
import proofs.«120737_j82282983457013_1_alg».proof.Proof.KernelIdeal.Dat1
import proofs.«120737_j82282983457013_1_alg».proof.Proof.Gen.KernelIdeal.Regions
import Idealize.ShloMosaic.Lib.Pipeline.RegionsLoop

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- At launch. -/
abbrev W0 : Dev nD → Valuation τ sig (Elt F) := Gen.V0 m
/-- After the host operations: region 0's entry. -/
abbrev W1 : Dev nD → Valuation τ sig (Elt F) := Gen.V1 m
abbrev E1 : (c : Dev nD) → (b : Ref sig .tc) → Buf (Elt F) ((c : Thread nD τ).loc b) := fun c b => W1 m c b
/-- After region 0: its arrays at what the pipeline leaves, every other buffer as entered. -/
def W2 (c : Dev nD) : Valuation τ sig (Elt F) :=
  Pipeline.withArrays spec0 c (W1 m c) fun w => (dat0 (E1 m) c).arrAt w cfg0.N
theorem W2_arr (c : Dev nD) (w : Fin cfg0.W) :
    W2 m c (Proc.devRef .tc (Pipeline.arrRef spec0 w)) = (dat0 (E1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev E2 : (c : Dev nD) → (b : Ref sig .tc) → Buf (Elt F) ((c : Thread nD τ).loc b) := fun c b => W2 m c b
theorem hF0 (c : Dev nD) (w : Fin cfg0.W) : (dat0 (E1 m) c).arrAt w cfg0.N = E2 m c (Pipeline.arrRef spec0 w) :=
  (W2_arr m c w).symm
theorem hrest0 (c : Dev nD) : ∀ b, b ∉ Finset.univ.image (Pipeline.arrRef spec0) → E2 m c b = E1 m c b :=
  fun b hb => W2_of_ne m c b fun w e => hb (Finset.mem_image.mpr ⟨w, Finset.mem_univ _, e⟩)
/-- After region 1: its arrays at what the pipeline leaves, every other buffer as entered. -/
def W3 (c : Dev nD) : Valuation τ sig (Elt F) :=
  Pipeline.withArrays spec1 c (W2 m c) fun w => (dat1 (E2 m) c).arrAt w cfg1.N
theorem W3_arr (c : Dev nD) (w : Fin cfg1.W) :
    W3 m c (Proc.devRef .tc (Pipeline.arrRef spec1 w)) = (dat1 (E2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev E3 : (c : Dev nD) → (b : Ref sig .tc) → Buf (Elt F) ((c : Thread nD τ).loc b) := fun c b => W3 m c b
theorem hF1 (c : Dev nD) (w : Fin cfg1.W) : (dat1 (E2 m) c).arrAt w cfg1.N = E3 m c (Pipeline.arrRef spec1 w) :=
  (W3_arr m c w).symm
theorem hrest1 (c : Dev nD) : ∀ b, b ∉ Finset.univ.image (Pipeline.arrRef spec1) → E3 m c b = E2 m c b :=
  fun b hb => W3_of_ne m c b fun w e => hb (Finset.mem_image.mpr ⟨w, Finset.mem_univ _, e⟩)

/-! ## The arguments end as launched -/

theorem W3_main_arg0 (c : Dev nD) : W3 m c (Proc.devRef .tc main_arg0) = m ((c : Thread nD τ).loc main_arg0) :=
  calc W3 m c (Proc.devRef .tc main_arg0)
    _ = W2 m c (Proc.devRef .tc main_arg0) := W3_of_ne m c main_arg0 (by decide)
    _ = W1 m c (Proc.devRef .tc main_arg0) := (W2_arr m c 0).trans (((dat0 (E1 m) c).arrAt_in 0 rfl _).trans (A_eq0 (E1 m) c 0))
    _ = W0 m c (Proc.devRef .tc main_arg0) := Gen.V1_of m c main_arg0 (by decide)
    _ = m ((c : Thread nD τ).loc main_arg0) := rfl
theorem W3_main_arg1 (c : Dev nD) : W3 m c (Proc.devRef .tc main_arg1) = m ((c : Thread nD τ).loc main_arg1) :=
  calc W3 m c (Proc.devRef .tc main_arg1)
    _ = W2 m c (Proc.devRef .tc main_arg1) := W3_of_ne m c main_arg1 (by decide)
    _ = W1 m c (Proc.devRef .tc main_arg1) := (W2_arr m c 1).trans (((dat0 (E1 m) c).arrAt_in 1 rfl _).trans (A_eq0 (E1 m) c 1))
    _ = W0 m c (Proc.devRef .tc main_arg1) := Gen.V1_of m c main_arg1 (by decide)
    _ = m ((c : Thread nD τ).loc main_arg1) := rfl
theorem W3_main_arg2 (c : Dev nD) : W3 m c (Proc.devRef .tc main_arg2) = m ((c : Thread nD τ).loc main_arg2) :=
  calc W3 m c (Proc.devRef .tc main_arg2)
    _ = W2 m c (Proc.devRef .tc main_arg2) := (W3_arr m c 1).trans (((dat1 (E2 m) c).arrAt_in 1 rfl _).trans (A_eq1 (E2 m) c 1))
    _ = W1 m c (Proc.devRef .tc main_arg2) := W2_of_ne m c main_arg2 (by decide)
    _ = W0 m c (Proc.devRef .tc main_arg2) := Gen.V1_of m c main_arg2 (by decide)
    _ = m ((c : Thread nD τ).loc main_arg2) := rfl
theorem W3_main_arg3 (c : Dev nD) : W3 m c (Proc.devRef .tc main_arg3) = m ((c : Thread nD τ).loc main_arg3) :=
  calc W3 m c (Proc.devRef .tc main_arg3)
    _ = W2 m c (Proc.devRef .tc main_arg3) := W3_of_ne m c main_arg3 (by decide)
    _ = W1 m c (Proc.devRef .tc main_arg3) := W2_of_ne m c main_arg3 (by decide)
    _ = W0 m c (Proc.devRef .tc main_arg3) := Gen.V1_of m c main_arg3 (by decide)
    _ = m ((c : Thread nD τ).loc main_arg3) := rfl
theorem W3_main_arg4 (c : Dev nD) : W3 m c (Proc.devRef .tc main_arg4) = m ((c : Thread nD τ).loc main_arg4) :=
  calc W3 m c (Proc.devRef .tc main_arg4)
    _ = W2 m c (Proc.devRef .tc main_arg4) := W3_of_ne m c main_arg4 (by decide)
    _ = W1 m c (Proc.devRef .tc main_arg4) := W2_of_ne m c main_arg4 (by decide)
    _ = W0 m c (Proc.devRef .tc main_arg4) := Gen.V1_of m c main_arg4 (by decide)
    _ = m ((c : Thread nD τ).loc main_arg4) := rfl
theorem W3_main_arg5 (c : Dev nD) : W3 m c (Proc.devRef .tc main_arg5) = m ((c : Thread nD τ).loc main_arg5) :=
  calc W3 m c (Proc.devRef .tc main_arg5)
    _ = W2 m c (Proc.devRef .tc main_arg5) := W3_of_ne m c main_arg5 (by decide)
    _ = W1 m c (Proc.devRef .tc main_arg5) := W2_of_ne m c main_arg5 (by decide)
    _ = W0 m c (Proc.devRef .tc main_arg5) := Gen.V1_of m c main_arg5 (by decide)
    _ = m ((c : Thread nD τ).loc main_arg5) := rfl
theorem W3_main_arg6 (c : Dev nD) : W3 m c (Proc.devRef .tc main_arg6) = m ((c : Thread nD τ).loc main_arg6) :=
  calc W3 m c (Proc.devRef .tc main_arg6)
    _ = W2 m c (Proc.devRef .tc main_arg6) := W3_of_ne m c main_arg6 (by decide)
    _ = W1 m c (Proc.devRef .tc main_arg6) := W2_of_ne m c main_arg6 (by decide)
    _ = W0 m c (Proc.devRef .tc main_arg6) := Gen.V1_of m c main_arg6 (by decide)
    _ = m ((c : Thread nD τ).loc main_arg6) := rfl
theorem W3_main_arg7 (c : Dev nD) : W3 m c (Proc.devRef .tc main_arg7) = m ((c : Thread nD τ).loc main_arg7) :=
  calc W3 m c (Proc.devRef .tc main_arg7)
    _ = W2 m c (Proc.devRef .tc main_arg7) := W3_of_ne m c main_arg7 (by decide)
    _ = W1 m c (Proc.devRef .tc main_arg7) := W2_of_ne m c main_arg7 (by decide)
    _ = W0 m c (Proc.devRef .tc main_arg7) := Gen.V1_of m c main_arg7 (by decide)
    _ = m ((c : Thread nD τ).loc main_arg7) := rfl
theorem W3_main_arg8 (c : Dev nD) : W3 m c (Proc.devRef .tc main_arg8) = m ((c : Thread nD τ).loc main_arg8) :=
  calc W3 m c (Proc.devRef .tc main_arg8)
    _ = W2 m c (Proc.devRef .tc main_arg8) := W3_of_ne m c main_arg8 (by decide)
    _ = W1 m c (Proc.devRef .tc main_arg8) := W2_of_ne m c main_arg8 (by decide)
    _ = W0 m c (Proc.devRef .tc main_arg8) := Gen.V1_of m c main_arg8 (by decide)
    _ = m ((c : Thread nD τ).loc main_arg8) := rfl
theorem W3_main_arg9 (c : Dev nD) : W3 m c (Proc.devRef .tc main_arg9) = m ((c : Thread nD τ).loc main_arg9) :=
  calc W3 m c (Proc.devRef .tc main_arg9)
    _ = W2 m c (Proc.devRef .tc main_arg9) := W3_of_ne m c main_arg9 (by decide)
    _ = W1 m c (Proc.devRef .tc main_arg9) := W2_of_ne m c main_arg9 (by decide)
    _ = W0 m c (Proc.devRef .tc main_arg9) := Gen.V1_of m c main_arg9 (by decide)
    _ = m ((c : Thread nD τ).loc main_arg9) := rfl
theorem W3_main_arg10 (c : Dev nD) : W3 m c (Proc.devRef .tc main_arg10) = m ((c : Thread nD τ).loc main_arg10) :=
  calc W3 m c (Proc.devRef .tc main_arg10)
    _ = W2 m c (Proc.devRef .tc main_arg10) := W3_of_ne m c main_arg10 (by decide)
    _ = W1 m c (Proc.devRef .tc main_arg10) := W2_of_ne m c main_arg10 (by decide)
    _ = W0 m c (Proc.devRef .tc main_arg10) := Gen.V1_of m c main_arg10 (by decide)
    _ = m ((c : Thread nD τ).loc main_arg10) := rfl

/-! ## The proof data family and the thread state -/

abbrev adm : (p : Fin 2) → (pcfgs (F := F) p).Adm := fun p => (cfgs p).toPCfg_adm
/-- Each region's proof data at its entry contents. -/
def pdats : (p : Fin 2) → (c : Dev nD) → Dat τ (Elt F) Unit ℕ (UR sig nD τ) ℕ (Pipeline.pin (pcfgs (F := F)) adm p) c
  | ⟨0, _⟩ => fun c => dat0 (E1 m) c
  | ⟨1, _⟩ => fun c => dat1 (E2 m) c
abbrev 𝒱₀ : Variants := Variants.none
abbrev L : GSem nD τ sig → Finset Unit := fun _ => ∅
abbrev lv : GSem nD τ sig → Unit → ℕ := fun _ _ => 0
/-- What rides beside the buffers through every segment: the generator register at some state, and the core owing
    nothing. -/
abbrev R (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what the core owes. -/
abbrev Tₙ (c : Dev nD) : sProp 𝕄 := iprop(StableHlo.held (c : Thread nD τ) (Pipeline.ucRefs τ sig) (W3 m c) ∗ ∃ r, prngReg c r)

/-! ## The regions as segments -/

set_option backward.isDefEq.respectTransparency.types false in
/-- Region 0 over the thread state: entered with every unscoped buffer at the contents before it, left with them at the
    contents after it. Its arrays are split out of the unscoped buffers on entry and put back, at what the pipeline
    leaves in them, on exit; the generator register goes into the region's invariant and comes back; nothing is owed;
    the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : (iprop(Pipeline.scopedRest spec0 c ∗ ∃ r, prngReg c r) : sProp 𝕄) ⊢ (pdats m 0 c).Φ 0 := by
      have := hin0 (E1 m) c; unfold Pipeline.ΦA at this; exact this
    iintro ⟨Hp, -, Hr⟩
    iapply h
    isplitl [Hr]; · iexact Hr
    iexact Hp
  hout c := by
    rw [Pipeline.ownSems0_none]
    have h : (pdats m 0 c).Φ (Fin.last (Pipeline.pin (pcfgs (F := F)) adm 0).N) ⊢ (iprop(Pipeline.scopedRest spec0 c ∗ ∃ r, prngReg c r) : sProp 𝕄) := by
      have := hout0 (E1 m) c; unfold Pipeline.ΦA at this; exact this
    iintro H
    ihave H' := h $$ H
    icases H' with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E1 m c) (E2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at the contents before it, left with them at the
    contents after it. Its arrays are split out of the unscoped buffers on entry and put back, at what the pipeline
    leaves in them, on exit; the generator register goes into the region's invariant and comes back; nothing is owed;
    the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E2 m c) (E3 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

/-- The host operations as a segment from the launch contents, `R` riding along. -/
abbrev hseg0 : Pipeline.HostSeg (Name := ℕ) (U := UR sig nD τ) (pcfgs (F := F)) defs₀ 𝒱₀ L lv :=
  Gen.seg0 m 𝒱₀ L lv (fun _ => R)

abbrev segs : List (Pipeline.Seg (pcfgs (F := F)) adm (pdats m) () defs₀ 𝒱₀ L lv) :=
  [ .host (hseg0 m), .region (reg0 m), .region (reg1 m) ]

theorem main_run (c : Dev nD) : main (F := F) c = Pipeline.Seg.run (segs m) := (main_chain c).trans (by chain_rfl)

set_option backward.isDefEq.respectTransparency.types false in
/-- From any memory with zero counters, every weakly fair execution of the program terminates, nothing faulting, and
    every final state has every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c => h c)

/-- The frame: every argument ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨(h c _ (mem_uc main_arg0 (by decide))).trans (W3_main_arg0 m c),
    (h c _ (mem_uc main_arg1 (by decide))).trans (W3_main_arg1 m c),
    (h c _ (mem_uc main_arg2 (by decide))).trans (W3_main_arg2 m c),
    (h c _ (mem_uc main_arg3 (by decide))).trans (W3_main_arg3 m c),
    (h c _ (mem_uc main_arg4 (by decide))).trans (W3_main_arg4 m c),
    (h c _ (mem_uc main_arg5 (by decide))).trans (W3_main_arg5 m c),
    (h c _ (mem_uc main_arg6 (by decide))).trans (W3_main_arg6 m c),
    (h c _ (mem_uc main_arg7 (by decide))).trans (W3_main_arg7 m c),
    (h c _ (mem_uc main_arg8 (by decide))).trans (W3_main_arg8 m c),
    (h c _ (mem_uc main_arg9 (by decide))).trans (W3_main_arg9 m c),
    (h c _ (mem_uc main_arg10 (by decide))).trans (W3_main_arg10 m c)⟩) (run_all m ρ)

end Cert.KernelIdeal.Frm

end
-- ==== Proof.LibWholeStore.lean ====
/-
  A buffer stored whole, then read whole.

  When the last of a list of stores into a buffer was through the rectangle that is the whole buffer (zero offsets,
  the buffer's own extents), what the buffer then holds is that store's value whatever the earlier stores were; so a
  load through the same whole-buffer rectangle of what the list left reads exactly that value. This is how an
  accumulator that is loaded, updated and stored back whole several times in one run is read: each load sees the
  latest store.
-/
import Idealize.ShloMosaic.Lib.Pipeline.Value

noncomputable section

namespace Cert.WholeStore

open Idealize.ShloMosaic

variable {Val : EltTy → Type} {S : Shape} {e : EltTy}

/-- A whole-buffer load of what a list of stores left, the last store having been whole, reads that store's value. -/
theorem readCov_cons_unit_zero [∀ e, Nonempty (Val e)] {sig : RefSig} {κ : Kind} {sp : Space}
    (v : View sig κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  rw [View.readCov_eq_canon_ld _ _ _ (fun y => ⟨_, List.mem_cons_self, View.mem_set_unit_zero h inb y⟩),
    View.canon_cons_unit_zero h, View.ld_unit_zero h]

/-- The offsets of a rank-2 whole-buffer rectangle, however the two zeros are spelt. -/
theorem zero2 : (![0, 0] : Fin 2 → ℕ) = fun _ => 0 := by
  funext a; fin_cases a <;> rfl

end Cert.WholeStore

end
-- ==== Proof.KernelIdeal.Pieces0.lean ====
/-
  What the matrix-product body leaves, as the body's own arithmetic of what it loaded.

  Every load and store of the body is through a whole buffer. So a load of an input buffer reads the block it holds;
  a load of the accumulator reads the value last stored into it in the same run (or, before any store, what the
  accumulator came in with); and what a buffer ends with is the value of the last store into it. Reading the
  recorded stores back in this way:

    after an even point   acc  = (0 + X·Wx) + h·Wh                       over the point's blocks,
    after an odd point    acc' = (acc + X·Wx) + h·Wh,   result = acc' + bias row,

  where each product is the kernel's matrix product into a zero accumulator and the sums are entrywise.
-/
import proofs.«120737_j82282983457013_1_alg».proof.Proof.KernelIdeal.Dat0
import proofs.«120737_j82282983457013_1_alg».proof.Proof.LibWholeStore

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.WholeStore

/-- An even point: the accumulator ends at the second update of the first update of zero. -/
theorem sout0_A_eq (c : Dev nD) (i : grid0.Coords) (arg3 : Memref sig .tc .vmem S512x1024 .f32) (harg3 : arg3.IsWhole) (arg4 : Memref sig .tc .vmem S512x1024 .f32) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S512x1024 .bf16) (harg8 : arg8.IsWhole) (arg9 : Memref sig .tc .vmem S512x1024 .f32) (harg9 : arg9.IsWhole) (hc0 : cond0_0 i) (hc1 : ¬cond0_1 i) (x0 : Vec F S512x1024 .f32) (x1 : Vec F S512x1024 .f32) (x2 : Vec F S1024x1024 .bf16) (x3 : Vec F S1024x1024 .bf16) (x4 : Vec F S1x1024 .f32) :
    sout0_A c i arg3 harg3 arg4 harg4 arg5 harg5 arg6 harg6 arg7 harg7 arg8 harg8 arg9 harg9 hc0 hc1 x0 x1 x2 x3 x4 = k0_pay3 x1 (k0_pay2 x0 (k0_pay1 (F := F)) x2) x3 := by
  unfold sout0_A
  rw [View.read_writes_eq_canon _ _ _ (scover0_A c i arg3 harg3 arg4 harg4 arg5 harg5 arg6 harg6 arg7 harg7 arg8 harg8 arg9 harg9 hc0 hc1 x0 x1 x2 x3 x4)]
  unfold kernelRun0_A
  dsimp only
  sl_unfold_words
  rw [View.canon_cons_unit_zero (S := S512x1024) zero2]
  simp only [View.readAt_eq_ld, harg3.read_unread, harg4.read_unread, harg5.read_unread, harg6.read_unread, harg7.read_unread, harg9.read_unread,
    View.ld_unit_zero (S := S512x1024) zero2, View.ld_unit_zero (S := S1024x1024) zero2, View.ld_unit_zero (S := S1x1024) zero2,
    readCov_cons_unit_zero (S := S512x1024) _ zero2, View.readCov_unit_zero (S := S512x1024) _ zero2]

/-- An odd point: the accumulator ends at the second update of the first update of what it came in with. -/
theorem sout0_B_eq (c : Dev nD) (i : grid0.Coords) (arg3 : Memref sig .tc .vmem S512x1024 .f32) (harg3 : arg3.IsWhole) (arg4 : Memref sig .tc .vmem S512x1024 .f32) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S512x1024 .bf16) (harg8 : arg8.IsWhole) (arg9 : Memref sig .tc .vmem S512x1024 .f32) (harg9 : arg9.IsWhole) (hc0 : ¬cond0_0 i) (hc1 : cond0_1 i) (x0 : Vec F S512x1024 .f32) (x1 : Vec F S512x1024 .f32) (x2 : Vec F S1024x1024 .bf16) (x3 : Vec F S1024x1024 .bf16) (x4 : Vec F S1x1024 .f32) (xs0 : Vec F S512x1024 .f32) :
    sout0_B c i arg3 harg3 arg4 harg4 arg5 harg5 arg6 harg6 arg7 harg7 arg8 harg8 arg9 harg9 hc0 hc1 x0 x1 x2 x3 x4 xs0 = k0_pay3 x1 (k0_pay2 x0 xs0 x2) x3 := by
  unfold sout0_B
  rw [View.read_writes_eq_canon _ _ _ (scover0_B c i arg3 harg3 arg4 harg4 arg5 harg5 arg6 harg6 arg7 harg7 arg8 harg8 arg9 harg9 hc0 hc1 x0 x1 x2 x3 x4 xs0)]
  unfold kernelRun0_B
  dsimp only
  sl_unfold_words
  rw [View.canon_cons_unit_zero (S := S512x1024) zero2]
  simp only [View.readAt_eq_ld, harg3.read_unread, harg4.read_unread, harg5.read_unread, harg6.read_unread, harg7.read_unread, harg9.read_unread,
    View.ld_unit_zero (S := S512x1024) zero2, View.ld_unit_zero (S := S1024x1024) zero2, View.ld_unit_zero (S := S1x1024) zero2,
    readCov_cons_unit_zero (S := S512x1024) _ zero2, View.readCov_unit_zero (S := S512x1024) _ zero2]

/-- An odd point: the result buffer ends at that accumulator plus the bias row. -/
theorem out0_B_5_eq (c : Dev nD) (i : grid0.Coords) (arg3 : Memref sig .tc .vmem S512x1024 .f32) (harg3 : arg3.IsWhole) (arg4 : Memref sig .tc .vmem S512x1024 .f32) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S512x1024 .bf16) (harg8 : arg8.IsWhole) (arg9 : Memref sig .tc .vmem S512x1024 .f32) (harg9 : arg9.IsWhole) (hc0 : ¬cond0_0 i) (hc1 : cond0_1 i) (x0 : Vec F S512x1024 .f32) (x1 : Vec F S512x1024 .f32) (x2 : Vec F S1024x1024 .bf16) (x3 : Vec F S1024x1024 .bf16) (x4 : Vec F S1x1024 .f32) (xs0 : Vec F S512x1024 .f32) :
    out0_B_5 c i arg3 harg3 arg4 harg4 arg5 harg5 arg6 harg6 arg7 harg7 arg8 harg8 arg9 harg9 hc0 hc1 x0 x1 x2 x3 x4 xs0 = k0_pay4 (k0_pay3 x1 (k0_pay2 x0 xs0 x2) x3) x4 := by
  unfold out0_B_5
  rw [View.read_writes_eq_canon _ _ _ (cover0_B_5 c i arg3 harg3 arg4 harg4 arg5 harg5 arg6 harg6 arg7 harg7 arg8 harg8 arg9 harg9 hc0 hc1 x0 x1 x2 x3 x4 xs0)]
  unfold kernelRun0_B
  dsimp only
  sl_unfold_words
  rw [View.canon_unit_zero (S := S512x1024) zero2]
  simp only [View.readAt_eq_ld, harg3.read_unread, harg4.read_unread, harg5.read_unread, harg6.read_unread, harg7.read_unread, harg9.read_unread,
    View.ld_unit_zero (S := S512x1024) zero2, View.ld_unit_zero (S := S1024x1024) zero2, View.ld_unit_zero (S := S1x1024) zero2,
    readCov_cons_unit_zero (S := S512x1024) _ zero2, View.readCov_unit_zero (S := S512x1024) _ zero2]

/-! ## At a point of the grid -/

variable (V : (c : Dev nD) → (b : Ref sig .tc) → Buf (Elt F) ((c : Thread nD τ).loc b))

/-- The point's five input blocks, typed as the vectors the body loads. -/
abbrev xb (c : Dev nD) (t : Fin cfg0.N) : Vec F S512x1024 .f32 := iblk0 V c 0 t
abbrev hb (c : Dev nD) (t : Fin cfg0.N) : Vec F S512x1024 .f32 := iblk0 V c 1 t
abbrev wxb (c : Dev nD) (t : Fin cfg0.N) : Vec F S1024x1024 .bf16 := iblk0 V c 2 t
abbrev whb (c : Dev nD) (t : Fin cfg0.N) : Vec F S1024x1024 .bf16 := iblk0 V c 3 t
abbrev bb (c : Dev nD) (t : Fin cfg0.N) : Vec F S1x1024 .f32 := iblk0 V c 4 t

theorem accA_eq (c : Dev nD) (t : Fin cfg0.N) (h0 : t.val % 2 = 0) :
    accA V c t h0 = k0_pay3 (hb V c t) (k0_pay2 (xb V c t) (k0_pay1 (F := F)) (wxb V c t)) (whb V c t) := by
  unfold accA; exact sout0_A_eq c _ _ _ _ _ _ _ _ _ _ _ _ _ _ _ _ _ _ _ _ _ _

theorem accB_eq (c : Dev nD) (t : Fin cfg0.N) (h1 : t.val % 2 = 1) (xs0 : Vec F S512x1024 .f32) :
    accB V c t h1 xs0 = k0_pay3 (hb V c t) (k0_pay2 (xb V c t) xs0 (wxb V c t)) (whb V c t) := by
  unfold accB; exact sout0_B_eq c _ _ _ _ _ _ _ _ _ _ _ _ _ _ _ _ _ _ _ _ _ _ _

theorem outB_eq (c : Dev nD) (t : Fin cfg0.N) (h1 : t.val % 2 = 1) (xs0 : Vec F S512x1024 .f32) :
    outB V c t h1 xs0 = k0_pay4 (k0_pay3 (hb V c t) (k0_pay2 (xb V c t) xs0 (wxb V c t)) (whb V c t)) (bb V c t) := by
  unfold outB; exact out0_B_5_eq c _ _ _ _ _ _ _ _ _ _ _ _ _ _ _ _ _ _ _ _ _ _ _

/-- The point before an odd point. -/
def prevPt (t : Fin cfg0.N) : Fin cfg0.N := ⟨t.val - 1, Nat.lt_of_le_of_lt (Nat.sub_le _ _) t.isLt⟩

/-- At an odd point, over what the point before it left. -/
theorem outsAt0_B' (c : Dev nD) (t : Fin cfg0.N) (h1 : t.val % 2 = 1) :
    outsAt0 V c t.val t.isLt
      = (outB V c t h1 (outsAt0 V c (prevPt t).val (prevPt t).isLt).2,
         accB V c t h1 (outsAt0 V c (prevPt t).val (prevPt t).isLt).2) :=
  outsAt0_B V c t h1

/-- What an odd point writes back: from its own blocks and those of the even point before it. -/
theorem flushed5_eq (c : Dev nD) (t : Fin cfg0.N) (h1 : t.val % 2 = 1) :
    (dat0 V c).after 5 t
      = k0_pay4 (k0_pay3 (hb V c t) (k0_pay2 (xb V c t)
          (k0_pay3 (hb V c (prevPt t)) (k0_pay2 (xb V c (prevPt t)) (k0_pay1 (F := F)) (wxb V c (prevPt t))) (whb V c (prevPt t)))
          (wxb V c t)) (whb V c t)) (bb V c t) := by
  have h0 : (prevPt t).val % 2 = 0 := by show (t.val - 1) % 2 = 0; omega
  rw [after0_5, outsAt0_B' V c t h1]
  dsimp only
  rw [outsAt0_A V c (prevPt t) h0]
  dsimp only
  rw [outB_eq, accA_eq]

end Cert.KernelIdeal.Frm

end
-- ==== Proof.LibPlainDot.lean ====
/-
  A plain matrix product [a, k] · [k, b] → [a, b]: no batch axis, one contracted axis of extent k (axis 1 of the left
  operand, axis 0 of the right), the rows from the left operand, the columns from the right.

  The dimension numbers place the coordinates: the left operand is read at (row of the result, contraction
  position), the right at (contraction position, column of the result). So at the ideal values, where both the
  kernel's product into a zero accumulator and the host's product are the exact sum over the contraction index,
  the entry (p, q) of either is  ∑ κ < k, l (p, κ) · r (κ, q).
-/
import Idealize.ShloMosaic.Lib.ValueIdx
import Idealize.ShloMosaic.PureOps.Ideal.Laws

namespace Cert.PlainDot

open Idealize.ShloMosaic Idealize.ShloMosaic.ValueIdx

variable {a k b : ℕ} (d : DotDims ⟨2, ![a, k]⟩ ⟨2, ![k, b]⟩ ⟨2, ![a, b]⟩)

/-- The dimension numbers of a plain matrix product. -/
structure Plain : Prop where
  lhsBatch : d.lhsBatch = []
  lhsNon : d.lhsNonContracting = [0]
  lhsContr : d.lhsContracting = [1]
  rhsBatch : d.rhsBatch = []
  rhsNon : d.rhsNonContracting = [1]
  rhsContr : d.rhsContracting = [0]

variable {d}

/-- The left operand's row is the result's row. -/
theorem lhs_row (h : Plain d) (j : (⟨2, ![a, b]⟩ : Shape).Idx) (q : d.contr.Idx) : (d.lhsIdx j q 0).val = (j 0).val := by
  unfold DotDims.lhsIdx
  rw [dif_neg (by rw [h.lhsBatch]; exact List.not_mem_nil), dif_pos (by rw [h.lhsNon]; exact List.mem_singleton.mpr rfl)]
  simp only [Fin.val_cast]
  have key : ∀ (p : Nat) (hp : p < 2), p = 0 → (j ⟨p, hp⟩).val = (j 0).val := fun p hp e => by subst e; rfl
  exact key _ _ (by simp [h.lhsBatch, h.lhsNon])

/-- The right operand's column is the result's column. -/
theorem rhs_col (h : Plain d) (j : (⟨2, ![a, b]⟩ : Shape).Idx) (q : d.contr.Idx) : (d.rhsIdx j q 1).val = (j 1).val := by
  unfold DotDims.rhsIdx
  rw [dif_neg (by rw [h.rhsBatch]; exact List.not_mem_nil), dif_pos (by rw [h.rhsNon]; exact List.mem_singleton.mpr rfl)]
  simp only [Fin.val_cast]
  have key : ∀ (p : Nat) (hp : p < 2), p = 1 → (j ⟨p, hp⟩).val = (j 1).val := fun p hp e => by subst e; rfl
  exact key _ _ (by simp [h.lhsBatch, h.lhsNon, h.rhsNon])

/-- The contraction over the record's own index type, re-indexed to κ < k. -/
theorem sum_contr (h : Plain d) (hr : d.contr.rank = 1) (hs : d.contr.size ⟨0, by omega⟩ = k)
    (l : (⟨2, ![a, k]⟩ : Shape).Idx → EReal) (r : (⟨2, ![k, b]⟩ : Shape).Idx → EReal) (p : Fin a) (q : Fin b) :
    ∑ κ : d.contr.Idx, l (d.lhsIdx (ix2 p q) κ) * r (d.rhsIdx (ix2 p q) κ) = ∑ κ : Fin k, l (ix2 p κ) * r (ix2 κ q) := by
  rw [← Equiv.sum_comp (contrEquiv1 d k hr hs).symm]
  refine Finset.sum_congr rfl fun κ _ => ?_
  have hk := contrEquiv1_symm_val d k hr hs κ
  have el : d.lhsIdx (ix2 p q) ((contrEquiv1 d k hr hs).symm κ) = ix2 p κ := funext fun x => Fin.ext (by
    match x with
    | ⟨0, _⟩ => exact lhs_row h _ _
    | ⟨1, _⟩ => exact (d.lhsIdx_val_of_single h.lhsContr _ _).trans hk)
  have er : d.rhsIdx (ix2 p q) ((contrEquiv1 d k hr hs).symm κ) = ix2 κ q := funext fun x => Fin.ext (by
    match x with
    | ⟨0, _⟩ => exact (d.rhsIdx_val_of_single h.rhsContr _ _).trans hk
    | ⟨1, _⟩ => exact rhs_col h _ _)
  rw [el, er]

/-- The kernel's matrix product into a zero accumulator, at an entry. -/
theorem matmul_zero_apply {φ₁ φ₂ : FTy} (h : Plain d) (hr : d.contr.rank = 1) (hs : d.contr.size ⟨0, by omega⟩ = k)
    (prec : Option ContractPrecision) (l : FVec Ideal ⟨2, ![a, k]⟩ φ₁) (r : FVec Ideal ⟨2, ![k, b]⟩ φ₂) (p : Fin a) (q : Fin b) :
    matmul d prec l r (constant ⟨2, ![a, b]⟩ .f32 0x00000000#32) (ix2 p q) = ∑ κ : Fin k, l (ix2 p κ) * r (ix2 κ q) :=
  (Ideal.matmul_constant_zero_apply d prec l r (ix2 p q)).trans (sum_contr h hr hs l r p q)

/-- The host's matrix product, at an entry. -/
theorem dotGeneral_apply {φ₁ φ₂ : FTy} (h : Plain d) (hr : d.contr.rank = 1) (hs : d.contr.size ⟨0, by omega⟩ = k)
    (prec : Option ContractPrecision) (l : FVec Ideal ⟨2, ![a, k]⟩ φ₁) (r : FVec Ideal ⟨2, ![k, b]⟩ φ₂) (p : Fin a) (q : Fin b) :
    Host.dotGeneral d prec l r (ix2 p q) = ∑ κ : Fin k, l (ix2 p κ) * r (ix2 κ q) := by
  simp only [Host.dotGeneral]
  exact (Ideal.dotGeneral_apply d prec _ l r (ix2 p q)).trans (sum_contr h hr hs l r p q)

end Cert.PlainDot
-- ==== Proof.LibBlockSum.lean ====
/-
  A sum over the positions below n·b, taken block by block.

  Position b·s + r (r < b) is offset r of block s. Every position below n·b is such a pair exactly once, so in a
  commutative additive monoid the sum of the n block sums is the sum over all positions: no term is compared,
  cancelled or distributed, only regrouped, so this holds on the extended reals as on any such monoid.
-/
import Mathlib.Algebra.BigOperators.Fin
import Mathlib.Logic.Equiv.Fin.Basic

namespace Cert.BlockSum

/-- The n block sums of b consecutive terms add up to the one sum over the n·b positions. -/
theorem sum_blocks {β : Type*} [AddCommMonoid β] (n b : ℕ) (f : ℕ → β) :
    ∑ s ∈ Finset.range n, ∑ r : Fin b, f (b * s + r.val) = ∑ κ : Fin (n * b), f κ.val := by
  rw [Finset.sum_range, ← Equiv.sum_comp (finProdFinEquiv (m := n) (n := b)) (fun κ => f κ.val),
    Fintype.sum_prod_type]
  refine Finset.sum_congr rfl fun s _ => Finset.sum_congr rfl fun r _ => ?_
  show f (b * s.val + r.val) = f (r.val + b * s.val)
  rw [Nat.add_comm]

/-- Sixteen blocks of 256 make up the 4096 positions of the contracted axis. -/
theorem sum_16_blocks_of_256 {β : Type*} [AddCommMonoid β] (f : ℕ → β) :
    ∑ s ∈ Finset.range 16, ∑ r : Fin 256, f (256 * s + r.val) = ∑ κ : Fin 4096, f κ.val :=
  sum_blocks 16 256 f

end Cert.BlockSum
-- ==== Proof.Spec.lean ====
/-
  The two programs' mathematics, stated over plain arrays of extended reals, and the law that joins them.

  An LSTM cell. With xh = [X | h] (4096 rows of 4096), W the four weight matrices stacked by rows in the order
  forget, input, output, candidate (8192 rows of 4096) and b the four bias vectors stacked likewise,

      z = xh · Wᵀ + b,      c' = σ(z_f) · c + σ(z_g) · tanh(z_i),      h' = σ(z_o) · tanh(c'),

  where z_f, z_g, z_o, z_i are the four column slabs of z of width 2048 and σ is the logistic function.

  One program forms z entry by entry as ONE sum over the 4096 positions of a row of xh. The other cuts the X half and
  the h half of that row each into two runs of 1024, and adds to zero, in this order: the first run of X, the first
  run of h, the second run of X, the second run of h; it reads W through its two transposed halves. The four runs
  are the four consecutive quarters of the 4096 positions, each taken once, so the two sums have the same terms; on
  the extended reals addition is commutative and associative, so they are equal, whatever the entries are. No
  term is cancelled and nothing is distributed, so no finiteness is needed.
-/
import Idealize.ShloMosaic.Lib.ValueIdx
import Idealize.ShloMosaic.PureOps.Ideal.Laws
import proofs.«120737_j82282983457013_1_alg».proof.Proof.LibBlockSum

noncomputable section

namespace Cert.Spec

open Idealize.ShloMosaic Idealize.ShloMosaic.ValueIdx

/-- X, h, c and the two results: 4096 × 2048. -/
abbrev Sx : Shape := ⟨2, ![4096, 2048]⟩
/-- A transposed half of the stacked weights: 2048 × 8192. -/
abbrev Sw : Shape := ⟨2, ![2048, 8192]⟩
/-- z: 4096 × 8192. -/
abbrev Sz : Shape := ⟨2, ![4096, 8192]⟩
/-- The bias as a row: 1 × 8192. -/
abbrev Sb : Shape := ⟨2, ![1, 8192]⟩
/-- The stacked weights: 8192 × 4096. -/
abbrev SW : Shape := ⟨2, ![8192, 4096]⟩
/-- The stacked bias: 8192. -/
abbrev Sbc : Shape := ⟨1, ![8192]⟩

/-! ## z, the blocked way -/

/-- Run `k` (of width 1024) of the product of row `b` of `A` with column `n` of `B`. -/
def part (A : Sx.Idx → EReal) (B : Sw.Idx → EReal) (k : Fin 2) (b : Fin 4096) (n : Fin 8192) : EReal :=
  ∑ κ : Fin 1024, A (ix2 b ⟨1024 * k.val + κ.val, by have := k.isLt; have := κ.isLt; omega⟩)
    * B (ix2 ⟨1024 * k.val + κ.val, by have := k.isLt; have := κ.isLt; omega⟩ n)

/-- z as the blocked program forms it. -/
def zK (X h : Sx.Idx → EReal) (Wx Wh : Sw.Idx → EReal) (bias : Sb.Idx → EReal) (b : Fin 4096) (n : Fin 8192) : EReal :=
  ((((0 + part X Wx 0 b n) + part h Wh 0 b n) + part X Wx 1 b n) + part h Wh 1 b n) + bias (ix2 0 n)

/-! ## z, the plain way -/

/-- Entry `κ` of row `b` of [X | h]. -/
def xh (X h : Sx.Idx → EReal) (b : Fin 4096) (κ : ℕ) : EReal :=
  if hκ : κ < 2048 then X (ix2 b ⟨κ, hκ⟩) else if hκ' : κ - 2048 < 2048 then h (ix2 b ⟨κ - 2048, hκ'⟩) else 0

/-- Entry `κ` of row `n` of the stacked weights. -/
def wrow (W : SW.Idx → EReal) (n : Fin 8192) (κ : ℕ) : EReal :=
  if hκ : κ < 4096 then W (ix2 n ⟨κ, hκ⟩) else 0

/-- z as the plain program forms it. -/
def zR (X h : Sx.Idx → EReal) (W : SW.Idx → EReal) (bc : Sbc.Idx → EReal) (b : Fin 4096) (n : Fin 8192) : EReal :=
  (∑ κ : Fin 4096, xh X h b κ.val * wrow W n κ.val) + bc (ix1 n)

/-! ## The law -/

/-- The X half of the stacked weights, transposed: entry (κ, n) is entry (n, κ) of W. -/
def WxOf (W : SW.Idx → EReal) : Sw.Idx → EReal :=
  fun i => W (ix2 (i 1) ⟨(i 0).val, by have := idx2_lt0 i; omega⟩)
/-- The h half, transposed: entry (κ, n) is entry (n, 2048 + κ) of W. -/
def WhOf (W : SW.Idx → EReal) : Sw.Idx → EReal :=
  fun i => W (ix2 (i 1) ⟨2048 + (i 0).val, by have := idx2_lt0 i; omega⟩)
/-- The stacked bias as a row. -/
def rowOf (bc : Sbc.Idx → EReal) : Sb.Idx → EReal := fun i => bc (ix1 (i 1))

theorem part_X (X h : Sx.Idx → EReal) (W : SW.Idx → EReal) (k : Fin 2) (b : Fin 4096) (n : Fin 8192) :
    part X (WxOf W) k b n = ∑ r : Fin 1024, xh X h b (1024 * k.val + r.val) * wrow W n (1024 * k.val + r.val) := by
  unfold part
  refine Finset.sum_congr rfl fun r _ => ?_
  have hk := k.isLt; have hr := r.isLt
  have h1 : 1024 * k.val + r.val < 2048 := by omega
  have h2 : 1024 * k.val + r.val < 4096 := by omega
  simp only [xh, wrow, WxOf, dif_pos h1, dif_pos h2]

theorem part_h (X h : Sx.Idx → EReal) (W : SW.Idx → EReal) (k : Fin 2) (b : Fin 4096) (n : Fin 8192) :
    part h (WhOf W) k b n = ∑ r : Fin 1024, xh X h b (1024 * (2 + k.val) + r.val) * wrow W n (1024 * (2 + k.val) + r.val) := by
  unfold part
  refine Finset.sum_congr rfl fun r _ => ?_
  have hk := k.isLt; have hr := r.isLt
  have h1 : ¬ 1024 * (2 + k.val) + r.val < 2048 := by omega
  have h1' : 1024 * (2 + k.val) + r.val - 2048 < 2048 := by omega
  have h2 : 1024 * (2 + k.val) + r.val < 4096 := by omega
  have e : 1024 * (2 + k.val) + r.val - 2048 = 1024 * k.val + r.val := by omega
  have e' : 2048 + (1024 * k.val + r.val) = 1024 * (2 + k.val) + r.val := by omega
  simp only [xh, wrow, WhOf, dif_neg h1, dif_pos h1', dif_pos h2]
  congr 2
  · exact congrArg _ (Fin.ext e.symm)
  · exact congrArg _ (Fin.ext e')

/-- The blocked z, read through the transposed halves of the stacked weights and the bias row, is the plain z. -/
theorem zK_eq_zR (X h : Sx.Idx → EReal) (W : SW.Idx → EReal) (bc : Sbc.Idx → EReal) (b : Fin 4096) (n : Fin 8192) :
    zK X h (WxOf W) (WhOf W) (rowOf bc) b n = zR X h W bc b n := by
  unfold zK zR
  rw [part_X X h W 0, part_X X h W 1, part_h X h W 0, part_h X h W 1, zero_add]
  have hs := Cert.BlockSum.sum_blocks 4 1024 (fun κ => xh X h b κ * wrow W n κ)
  rw [show (4 * 1024 : ℕ) = 4096 from rfl] at hs
  rw [← hs]
  simp only [Finset.sum_range_succ, Finset.sum_range_zero, zero_add, rowOf]
  show _ = _
  norm_num only [Fin.val_zero, Fin.val_one]
  abel

/-! ## The gates -/

/-- The new cell entry from the forget, input and candidate pre-activations and the old cell entry. -/
def cellF (zf zg zi cc : EReal) : EReal := Ideal.logistic zf * cc + Ideal.logistic zg * Ideal.tanh zi
/-- The new hidden entry from the output pre-activation and the new cell entry. -/
def hidF (zo cn : EReal) : EReal := Ideal.logistic zo * Ideal.tanh cn

/-- The new cell array from z (as a function of row and column) and c. -/
def cNew (z : Fin 4096 → Fin 8192 → EReal) (cc : Sx.Idx → EReal) (b : Fin 4096) (n : Fin 2048) : EReal :=
  cellF (z b ⟨n.val, by have := n.isLt; omega⟩) (z b ⟨2048 + n.val, by have := n.isLt; omega⟩)
    (z b ⟨6144 + n.val, by have := n.isLt; omega⟩) (cc (ix2 b n))
/-- The new hidden array. -/
def hNew (z : Fin 4096 → Fin 8192 → EReal) (cc : Sx.Idx → EReal) (b : Fin 4096) (n : Fin 2048) : EReal :=
  hidF (z b ⟨4096 + n.val, by have := n.isLt; omega⟩) (cNew z cc b n)

end Cert.Spec

end
-- ==== Proof.KernelIdeal.Val0.lean ====
/-
  What region 0 leaves in its result array, at the ideal values: the blocked z of the arrays it reads.

  Entry (p, q) of the block an odd point writes back is, reading the body's arithmetic at that entry,

      ((((0 + Σ X·Wx) + Σ h·Wh) + Σ X'·Wx') + Σ h'·Wh') + bias(q),

  each Σ over the 1024 positions of a K-block: the unprimed blocks are those of the even point before, the primed ones
  the odd point's own. The index maps say where those blocks sit in their arrays: with (I, J) the result block's
  position, X and h blocks are at (I, 0) then (I, 1), the weight blocks at (0, J) then (1, J), the bias block at
  (0, J). So that entry is entry (512·I + p, 1024·J + q) of the blocked z of the whole arrays. The odd points' result
  blocks are the 8 × 8 blocks of the array, each written once, so the array ends holding the blocked z.
-/
import proofs.«120737_j82282983457013_1_alg».proof.Proof.KernelIdeal.Pieces0
import proofs.«120737_j82282983457013_1_alg».proof.Proof.LibPlainDot
import proofs.«120737_j82282983457013_1_alg».proof.Proof.Spec

set_option maxRecDepth 16384

noncomputable section

namespace Cert.KernelIdeal.Frm

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat Cfg Window)
open Cert.Spec

variable (V : (c : Dev nD) → (b : Ref sig .tc) → Buf (Elt Ideal) ((c : Thread nD τ).loc b))

/-! ## The body's arithmetic at an entry -/

theorem dot_plain : Cert.PlainDot.Plain dot_S512x1024_S1024x1024_S512x1024_1_0_0_1_n_n := ⟨rfl, rfl, rfl, rfl, rfl, rfl⟩

theorem pay1_apply (p : Fin 512) (q : Fin 1024) : k0_pay1 (F := Ideal) (ix2 p q) = 0 := by
  unfold k0_pay1
  rw [shapeCast_self]
  exact Ideal.ofBits_zero_f32

theorem pay2_apply (x acc : Vec Ideal S512x1024 .f32) (w : Vec Ideal S1024x1024 .bf16) (p : Fin 512) (q : Fin 1024) :
    k0_pay2 x acc w (ix2 p q) = acc (ix2 p q) + ∑ κ : Fin 1024, x (ix2 p κ) * w (ix2 κ q) := by
  unfold k0_pay2
  rw [shapeCast_self, shapeCast_self]
  refine (addf_apply _ _ _).trans (congrArg (acc (ix2 p q) + ·) ?_)
  exact Cert.PlainDot.matmul_zero_apply dot_plain rfl rfl none _ _ p q

theorem pay3_apply (x acc : Vec Ideal S512x1024 .f32) (w : Vec Ideal S1024x1024 .bf16) (p : Fin 512) (q : Fin 1024) :
    k0_pay3 x acc w (ix2 p q) = acc (ix2 p q) + ∑ κ : Fin 1024, x (ix2 p κ) * w (ix2 κ q) := by
  unfold k0_pay3
  rw [shapeCast_self, shapeCast_self]
  refine (addf_apply _ _ _).trans (congrArg (acc (ix2 p q) + ·) ?_)
  exact Cert.PlainDot.matmul_zero_apply dot_plain rfl rfl none _ _ p q

theorem pay4_apply (acc : Vec Ideal S512x1024 .f32) (b : Vec Ideal S1x1024 .f32) (p : Fin 512) (q : Fin 1024) :
    k0_pay4 acc b (ix2 p q) = acc (ix2 p q) + b (ix2 0 q) := by
  unfold k0_pay4
  rw [shapeCast_self]
  refine (addf_apply _ _ _).trans (congrArg (acc (ix2 p q) + ·) ?_)
  exact broadcastTo_apply _ _ (ix2 p q) (ix2 0 q) (fun a => by
    match a with
    | ⟨0, _⟩ => exact (if_pos rfl).symm
    | ⟨1, _⟩ => exact (if_neg (by show ¬ ((1024 : ℕ) = 1); decide)).symm)

/-- What an odd point writes back, at an entry. -/
theorem flushed5_apply (c : Dev nD) (t : Fin cfg0.N) (h1 : t.val % 2 = 1) (p : Fin 512) (q : Fin 1024) :
    (dat0 V c).after 5 t (ix2 p q)
      = ((((0 + ∑ κ : Fin 1024, xb V c (prevPt t) (ix2 p κ) * wxb V c (prevPt t) (ix2 κ q))
            + ∑ κ : Fin 1024, hb V c (prevPt t) (ix2 p κ) * whb V c (prevPt t) (ix2 κ q))
          + ∑ κ : Fin 1024, xb V c t (ix2 p κ) * wxb V c t (ix2 κ q))
        + ∑ κ : Fin 1024, hb V c t (ix2 p κ) * whb V c t (ix2 κ q))
      + bb V c t (ix2 0 q) := by
  rw [flushed5_eq V c t h1, pay4_apply, pay3_apply, pay2_apply, pay3_apply, pay2_apply, pay1_apply]

/-! ## Where the blocks sit in their arrays -/

theorem xb_apply (c : Dev nD) (t : Fin cfg0.N) (p : Fin 512) (q : Fin 1024) (i : S4096x2048.Idx)
    (h0 : (i 0).val = win0_0.index t 0 * 512 + p.val) (h1 : (i 1).val = win0_0.index t 1 * 1024 + q.val) :
    xb V c t (ix2 p q) = V c main_arg0 i := by
  show V c main_arg0 (((cfg0.win 0).blk t).view.emb (ix2 p q)) = V c main_arg0 i
  refine congrArg _ (funext fun a => Fin.ext ?_)
  match a with
  | ⟨0, _⟩ => show win0_0.index t (0 : Fin 2) * 512 + 1 * p.val = (i 0).val; omega
  | ⟨1, _⟩ => show win0_0.index t (1 : Fin 2) * 1024 + 1 * q.val = (i 1).val; omega

theorem hb_apply (c : Dev nD) (t : Fin cfg0.N) (p : Fin 512) (q : Fin 1024) (i : S4096x2048.Idx)
    (h0 : (i 0).val = win0_1.index t 0 * 512 + p.val) (h1 : (i 1).val = win0_1.index t 1 * 1024 + q.val) :
    hb V c t (ix2 p q) = V c main_arg1 i := by
  show V c main_arg1 (((cfg0.win 1).blk t).view.emb (ix2 p q)) = V c main_arg1 i
  refine congrArg _ (funext fun a => Fin.ext ?_)
  match a with
  | ⟨0, _⟩ => show win0_1.index t (0 : Fin 2) * 512 + 1 * p.val = (i 0).val; omega
  | ⟨1, _⟩ => show win0_1.index t (1 : Fin 2) * 1024 + 1 * q.val = (i 1).val; omega

theorem wxb_apply (c : Dev nD) (t : Fin cfg0.N) (p : Fin 1024) (q : Fin 1024) (i : S2048x8192.Idx)
    (h0 : (i 0).val = win0_2.index t 0 * 1024 + p.val) (h1 : (i 1).val = win0_2.index t 1 * 1024 + q.val) :
    wxb V c t (ix2 p q) = V c main_v5 i := by
  show V c main_v5 (((cfg0.win 2).blk t).view.emb (ix2 p q)) = V c main_v5 i
  refine congrArg _ (funext fun a => Fin.ext ?_)
  match a with
  | ⟨0, _⟩ => show win0_2.index t (0 : Fin 2) * 1024 + 1 * p.val = (i 0).val; omega
  | ⟨1, _⟩ => show win0_2.index t (1 : Fin 2) * 1024 + 1 * q.val = (i 1).val; omega

theorem whb_apply (c : Dev nD) (t : Fin cfg0.N) (p : Fin 1024) (q : Fin 1024) (i : S2048x8192.Idx)
    (h0 : (i 0).val = win0_3.index t 0 * 1024 + p.val) (h1 : (i 1).val = win0_3.index t 1 * 1024 + q.val) :
    whb V c t (ix2 p q) = V c main_v7 i := by
  show V c main_v7 (((cfg0.win 3).blk t).view.emb (ix2 p q)) = V c main_v7 i
  refine congrArg _ (funext fun a => Fin.ext ?_)
  match a with
  | ⟨0, _⟩ => show win0_3.index t (0 : Fin 2) * 1024 + 1 * p.val = (i 0).val; omega
  | ⟨1, _⟩ => show win0_3.index t (1 : Fin 2) * 1024 + 1 * q.val = (i 1).val; omega

theorem bb_apply (c : Dev nD) (t : Fin cfg0.N) (p : Fin 1) (q : Fin 1024) (i : S1x8192.Idx)
    (h0 : (i 0).val = win0_4.index t 0 * 1 + p.val) (h1 : (i 1).val = win0_4.index t 1 * 1024 + q.val) :
    bb V c t (ix2 p q) = V c main_v8 i := by
  show V c main_v8 (((cfg0.win 4).blk t).view.emb (ix2 p q)) = V c main_v8 i
  refine congrArg _ (funext fun a => Fin.ext ?_)
  match a with
  | ⟨0, _⟩ => show win0_4.index t (0 : Fin 2) * 1 + 1 * p.val = (i 0).val; omega
  | ⟨1, _⟩ => show win0_4.index t (1 : Fin 2) * 1024 + 1 * q.val = (i 1).val; omega

/-- The index maps at an odd point and at the even point before it, decided over the grid: with (I, J) the result
    block's position, the X and h blocks are at (I, 0) then (I, 1), the weight blocks at (0, J) then (1, J), the bias
    block at (0, J); and I, J ≤ 7. -/
theorem idx_facts0 : ∀ t : Fin cfg0.N, t.val % 2 = 1 →
    (win0_0.index (prevPt t) (0 : Fin 2) = win0_5.index t (0 : Fin 2) ∧ win0_0.index (prevPt t) (1 : Fin 2) = 0
      ∧ win0_0.index t (0 : Fin 2) = win0_5.index t (0 : Fin 2) ∧ win0_0.index t (1 : Fin 2) = 1)
    ∧ (win0_1.index (prevPt t) (0 : Fin 2) = win0_5.index t (0 : Fin 2) ∧ win0_1.index (prevPt t) (1 : Fin 2) = 0
      ∧ win0_1.index t (0 : Fin 2) = win0_5.index t (0 : Fin 2) ∧ win0_1.index t (1 : Fin 2) = 1)
    ∧ (win0_2.index (prevPt t) (0 : Fin 2) = 0 ∧ win0_2.index (prevPt t) (1 : Fin 2) = win0_5.index t (1 : Fin 2)
      ∧ win0_2.index t (0 : Fin 2) = 1 ∧ win0_2.index t (1 : Fin 2) = win0_5.index t (1 : Fin 2))
    ∧ (win0_3.index (prevPt t) (0 : Fin 2) = 0 ∧ win0_3.index (prevPt t) (1 : Fin 2) = win0_5.index t (1 : Fin 2)
      ∧ win0_3.index t (0 : Fin 2) = 1 ∧ win0_3.index t (1 : Fin 2) = win0_5.index t (1 : Fin 2))
    ∧ (win0_4.index t (0 : Fin 2) = 0 ∧ win0_4.index t (1 : Fin 2) = win0_5.index t (1 : Fin 2))
    ∧ (win0_5.index t (0 : Fin 2) ≤ 7 ∧ win0_5.index t (1 : Fin 2) ≤ 7) :=
  (by decide +kernel : ∀ t : Fin grid0.N, t.val % 2 = 1 → _)

/-- Every one of the 8 × 8 result blocks is some odd point's. -/
theorem idx_onto0 : ∀ (q0 : Fin 8) (q1 : Fin 8), ∃ t : Fin cfg0.N, t.val % 2 = 1 ∧ win0_5.index t = ![q0.val, q1.val] :=
  (by decide +kernel : ∀ (q0 : Fin 8) (q1 : Fin 8), ∃ t : Fin grid0.N, t.val % 2 = 1 ∧ win0_5.index t = ![q0.val, q1.val])

/-! ## The result array -/

/-- The blocked z of the arrays region 0 reads, as the contents of its result array. -/
def Gz (c : Dev nD) : S4096x8192.Idx → EReal :=
  fun i => zK (V c main_arg0) (V c main_arg1) (V c main_v5) (V c main_v7) (V c main_v8) (i 0) (i 1)

/-- Entry (p, q) of what an odd point writes back is the blocked z at the array index that entry lands on. -/
theorem after5_eq_Gz (c : Dev nD) (t : Fin cfg0.N) (h1 : t.val % 2 = 1) (p : Fin 512) (q : Fin 1024) (i : S4096x8192.Idx)
    (hi0 : (i 0).val = win0_5.index t (0 : Fin 2) * 512 + p.val) (hi1 : (i 1).val = win0_5.index t (1 : Fin 2) * 1024 + q.val) :
    (dat0 V c).after 5 t (ix2 p q) = Gz V c i := by
  obtain ⟨⟨a1, a2, a3, a4⟩, ⟨b1, b2, b3, b4⟩, ⟨c1, c2, c3, c4⟩, ⟨d1, d2, d3, d4⟩, ⟨e1, e2⟩, ⟨g1, g2⟩⟩ := idx_facts0 t h1
  rw [flushed5_apply V c t h1 p q]
  have hp := p.isLt; have hq := q.isLt
  unfold Gz zK part
  refine congrArg₂ (· + ·) (congrArg₂ (· + ·) (congrArg₂ (· + ·) (congrArg₂ (· + ·) (congrArg₂ (· + ·) rfl ?_) ?_) ?_) ?_) ?_
  · refine Finset.sum_congr rfl fun κ _ => ?_
    have hκ := κ.isLt
    exact congrArg₂ (· * ·)
      (xb_apply V c (prevPt t) p κ _ (by show (i 0).val = _; omega) (by show 1024 * 0 + κ.val = _; omega))
      (wxb_apply V c (prevPt t) κ q _ (by show 1024 * 0 + κ.val = _; omega) (by show (i 1).val = _; omega))
  · refine Finset.sum_congr rfl fun κ _ => ?_
    have hκ := κ.isLt
    exact congrArg₂ (· * ·)
      (hb_apply V c (prevPt t) p κ _ (by show (i 0).val = _; omega) (by show 1024 * 0 + κ.val = _; omega))
      (whb_apply V c (prevPt t) κ q _ (by show 1024 * 0 + κ.val = _; omega) (by show (i 1).val = _; omega))
  · refine Finset.sum_congr rfl fun κ _ => ?_
    have hκ := κ.isLt
    exact congrArg₂ (· * ·)
      (xb_apply V c t p κ _ (by show (i 0).val = _; omega) (by show 1024 * 1 + κ.val = _; omega))
      (wxb_apply V c t κ q _ (by show 1024 * 1 + κ.val = _; omega) (by show (i 1).val = _; omega))
  · refine Finset.sum_congr rfl fun κ _ => ?_
    have hκ := κ.isLt
    exact congrArg₂ (· * ·)
      (hb_apply V c t p κ _ (by show (i 0).val = _; omega) (by show 1024 * 1 + κ.val = _; omega))
      (whb_apply V c t κ q _ (by show 1024 * 1 + κ.val = _; omega) (by show (i 1).val = _; omega))
  · exact bb_apply V c t 0 q _ (by show 0 = _; omega) (by show (i 1).val = _; omega)

/-- What an odd point writes back is its block of the blocked z. -/
theorem flushed5_read (c : Dev nD) (t : Fin cfg0.N) (hf : (cfg0.win 5).flush t = true) :
    (dat0 V c).flushed 5 t = ((cfg0.win 5).blk t).view.read (Elt Ideal) (Gz V c) := by
  have h1 : t.val % 2 = 1 := (flush0_5 t).mp hf
  funext y
  obtain ⟨p, q, rfl⟩ : ∃ (p : Fin 512) (q : Fin 1024), y = ix2 p q := ⟨y 0, y 1, eq_ix2 y⟩
  show (dat0 V c).after 5 t (ix2 p q) = Gz V c (((cfg0.win 5).blk t).view.emb (ix2 p q))
  exact after5_eq_Gz V c t h1 p q _
    (by show win0_5.index t (0 : Fin 2) * 512 + 1 * p.val = _; omega)
    (by show win0_5.index t (1 : Fin 2) * 1024 + 1 * q.val = _; omega)

/-- An index of the result array is in a point's block iff each coordinate is in the block's range on its axis. -/
theorem mem_blk5 (t : Fin cfg0.N) (i : S4096x8192.Idx) :
    i ∈ ((cfg0.win 5).blk t).view.set ↔ ∀ a : Fin 2, win0_5.index t a * S512x1024.size a ≤ (i a).val ∧ (i a).val < win0_5.index t a * S512x1024.size a + S512x1024.size a := by
  show i ∈ ((View.whole main_v9).slice (win0_5.rect t)).set ↔ _
  rw [View.set_slice_whole, Rect.mem_set_unit]
  exact Iff.rfl

/-- The result blocks written back cover the array. -/
theorem cover5 (i : S4096x8192.Idx) : ∃ t : Fin cfg0.N, (cfg0.win 5).flush t = true ∧ i ∈ ((cfg0.win 5).blk t).view.set := by
  have hi0 : (i 0).val < 4096 := (i 0).isLt
  have hi1 : (i 1).val < 8192 := (i 1).isLt
  obtain ⟨t, ht1, ht⟩ := idx_onto0 ⟨(i 0).val / 512, by omega⟩ ⟨(i 1).val / 1024, by omega⟩
  have q0 : win0_5.index t (0 : Fin 2) = (i 0).val / 512 := congrFun ht 0
  have q1 : win0_5.index t (1 : Fin 2) = (i 1).val / 1024 := congrFun ht 1
  refine ⟨t, (flush0_5 t).mpr ht1, ?_⟩
  rw [mem_blk5]
  intro a
  match a with
  | ⟨0, _⟩ => show win0_5.index t (0 : Fin 2) * 512 ≤ (i 0).val ∧ (i 0).val < win0_5.index t (0 : Fin 2) * 512 + 512; omega
  | ⟨1, _⟩ => show win0_5.index t (1 : Fin 2) * 1024 ≤ (i 1).val ∧ (i 1).val < win0_5.index t (1 : Fin 2) * 1024 + 1024; omega

/-- Region 0's result array after the run is the blocked z of the arrays it reads. -/
theorem final5 (c : Dev nD) : (dat0 V c).arrAt 5 cfg0.N = Gz V c :=
  (dat0 V c).arrAt_eq_of_cover 5 (Gz V c) (fun t hf => flushed5_read V c t hf) cover5

end Cert.KernelIdeal.Frm

end
-- ==== Proof.KernelIdeal.Val1.lean ====
/-
  What region 1 leaves in its two result arrays, at the ideal values: the new hidden and the new cell arrays of z and c.

  At a point the body reads rows 128·t … 128·t + 127 of z (all 8192 columns) and of c, and stores into each result
  window the gate combination of that row block, entry by entry: entry (p, n) of the new cell block comes from entries
  (p, n), (p, 2048 + n), (p, 6144 + n) of the z block and entry (p, n) of the c block, the new hidden one from entry
  (p, 4096 + n) of the z block and that new cell entry. The 32 row blocks tile each result array, each written once.
-/
import proofs.«120737_j82282983457013_1_alg».proof.Proof.KernelIdeal.Dat1
import proofs.«120737_j82282983457013_1_alg».proof.Proof.LibWholeStore
import proofs.«120737_j82282983457013_1_alg».proof.Proof.Spec

set_option maxRecDepth 16384

noncomputable section

namespace Cert.KernelIdeal.Frm

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat Cfg Window)
open Cert.Spec

open Cert.WholeStore

variable (V : (c : Dev nD) → (b : Ref sig .tc) → Buf (Elt Ideal) ((c : Thread nD τ).loc b))

/-! ## The body's arithmetic at an entry -/

theorem k1_pay1_apply (v0 v3 v9 : Vec Ideal S128x2048 .bf16) (v17 : Vec Ideal S128x2048 .f32) (j : S128x2048.Idx) :
    k1_pay1 v0 v3 v9 v17 j = cellF (v0 j) (v3 j) (v9 j) (v17 j) := by
  unfold k1_pay1 cellF
  simp only [shapeCast_self]
  rfl

theorem k1_pay2_apply (v0 v3 v6 v9 : Vec Ideal S128x2048 .bf16) (v17 : Vec Ideal S128x2048 .f32) (j : S128x2048.Idx) :
    k1_pay2 v0 v3 v6 v9 v17 j = hidF (v6 j) (cellF (v0 j) (v3 j) (v9 j) (v17 j)) := by
  unfold k1_pay2 hidF
  simp only [shapeCast_self]
  show _ * Ideal.tanh (k1_pay1 v0 v3 v9 v17 j) = _
  rw [k1_pay1_apply]
  rfl

/-- A column slab of the z block, read at an entry: the slab at column offset `o` holds column `o + n` at `n`. -/
theorem slab_f (x0 : Vec Ideal S128x8192 .bf16) (p : Fin 128) (n : Fin 2048) :
    View.ld x0 r1_f (ix2 p n) = x0 (ix2 p ⟨n.val, by have := n.isLt; omega⟩) := by
  show x0 (r1_f.emb (ix2 p n)) = _
  refine congrArg _ (funext fun a => Fin.ext ?_)
  match a with
  | ⟨0, _⟩ => show 0 + 1 * p.val = p.val; omega
  | ⟨1, _⟩ => show 0 + 1 * n.val = n.val; omega
theorem slab_g (x0 : Vec Ideal S128x8192 .bf16) (p : Fin 128) (n : Fin 2048) :
    View.ld x0 r1_g (ix2 p n) = x0 (ix2 p ⟨2048 + n.val, by have := n.isLt; omega⟩) := by
  show x0 (r1_g.emb (ix2 p n)) = _
  refine congrArg _ (funext fun a => Fin.ext ?_)
  match a with
  | ⟨0, _⟩ => show 0 + 1 * p.val = p.val; omega
  | ⟨1, _⟩ => show 2048 + 1 * n.val = 2048 + n.val; omega
theorem slab_o (x0 : Vec Ideal S128x8192 .bf16) (p : Fin 128) (n : Fin 2048) :
    View.ld x0 r1_o (ix2 p n) = x0 (ix2 p ⟨4096 + n.val, by have := n.isLt; omega⟩) := by
  show x0 (r1_o.emb (ix2 p n)) = _
  refine congrArg _ (funext fun a => Fin.ext ?_)
  match a with
  | ⟨0, _⟩ => show 0 + 1 * p.val = p.val; omega
  | ⟨1, _⟩ => show 4096 + 1 * n.val = 4096 + n.val; omega
theorem slab_i (x0 : Vec Ideal S128x8192 .bf16) (p : Fin 128) (n : Fin 2048) :
    View.ld x0 r1_i (ix2 p n) = x0 (ix2 p ⟨6144 + n.val, by have := n.isLt; omega⟩) := by
  show x0 (r1_i.emb (ix2 p n)) = _
  refine congrArg _ (funext fun a => Fin.ext ?_)
  match a with
  | ⟨0, _⟩ => show 0 + 1 * p.val = p.val; omega
  | ⟨1, _⟩ => show 6144 + 1 * n.val = 6144 + n.val; omega

/-- The new cell block at an entry. -/
theorem out1_3_apply (x0 : Vec Ideal S128x8192 .bf16) (x1 : Vec Ideal S128x2048 .f32) (p : Fin 128) (n : Fin 2048) :
    out1_3 x0 x1 (ix2 p n)
      = cellF (x0 (ix2 p ⟨n.val, by have := n.isLt; omega⟩)) (x0 (ix2 p ⟨2048 + n.val, by have := n.isLt; omega⟩))
          (x0 (ix2 p ⟨6144 + n.val, by have := n.isLt; omega⟩)) (x1 (ix2 p n)) := by
  unfold out1_3
  rw [View.canon_unit_zero (S := S128x2048) zero2, k1_pay1_apply, slab_f, slab_g, slab_i, View.ld_unit_zero (S := S128x2048) zero2]

/-- The new hidden block at an entry. -/
theorem out1_2_apply (x0 : Vec Ideal S128x8192 .bf16) (x1 : Vec Ideal S128x2048 .f32) (p : Fin 128) (n : Fin 2048) :
    out1_2 x0 x1 (ix2 p n)
      = hidF (x0 (ix2 p ⟨4096 + n.val, by have := n.isLt; omega⟩))
          (cellF (x0 (ix2 p ⟨n.val, by have := n.isLt; omega⟩)) (x0 (ix2 p ⟨2048 + n.val, by have := n.isLt; omega⟩))
            (x0 (ix2 p ⟨6144 + n.val, by have := n.isLt; omega⟩)) (x1 (ix2 p n))) := by
  unfold out1_2
  rw [View.canon_unit_zero (S := S128x2048) zero2, k1_pay2_apply, slab_f, slab_g, slab_o, slab_i, View.ld_unit_zero (S := S128x2048) zero2]

/-! ## Where the blocks sit in their arrays -/

/-- The z block and the c block of a point, typed as the vectors the body loads. -/
abbrev zb (c : Dev nD) (t : Fin cfg1.N) : Vec Ideal S128x8192 .bf16 := iblk1 V c 0 t
abbrev cb (c : Dev nD) (t : Fin cfg1.N) : Vec Ideal S128x2048 .f32 := iblk1 V c 1 t

theorem zb_apply (c : Dev nD) (t : Fin cfg1.N) (p : Fin 128) (q : Fin 8192) (i : S4096x8192.Idx)
    (h0 : (i 0).val = win1_0.index t 0 * 128 + p.val) (h1 : (i 1).val = win1_0.index t 1 * 8192 + q.val) :
    zb V c t (ix2 p q) = V c main_v9 i := by
  show V c main_v9 (((cfg1.win 0).blk t).view.emb (ix2 p q)) = V c main_v9 i
  refine congrArg _ (funext fun a => Fin.ext ?_)
  match a with
  | ⟨0, _⟩ => show win1_0.index t (0 : Fin 2) * 128 + 1 * p.val = (i 0).val; omega
  | ⟨1, _⟩ => show win1_0.index t (1 : Fin 2) * 8192 + 1 * q.val = (i 1).val; omega

theorem cb_apply (c : Dev nD) (t : Fin cfg1.N) (p : Fin 128) (q : Fin 2048) (i : S4096x2048.Idx)
    (h0 : (i 0).val = win1_1.index t 0 * 128 + p.val) (h1 : (i 1).val = win1_1.index t 1 * 2048 + q.val) :
    cb V c t (ix2 p q) = V c main_arg2 i := by
  show V c main_arg2 (((cfg1.win 1).blk t).view.emb (ix2 p q)) = V c main_arg2 i
  refine congrArg _ (funext fun a => Fin.ext ?_)
  match a with
  | ⟨0, _⟩ => show win1_1.index t (0 : Fin 2) * 128 + 1 * p.val = (i 0).val; omega
  | ⟨1, _⟩ => show win1_1.index t (1 : Fin 2) * 2048 + 1 * q.val = (i 1).val; omega

/-- The index maps, decided over the grid: every window is at row block t, column block 0. -/
theorem idx_facts1 : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = t.val ∧ win1_2.index t (1 : Fin 2) = 0)
    ∧ (win1_3.index t (0 : Fin 2) = t.val ∧ win1_3.index t (1 : Fin 2) = 0) :=
  (by decide +kernel : ∀ t : Fin grid1.N, _)

/-! ## The result arrays -/

/-- z as the region finds it, by row and column. -/
def zOf (c : Dev nD) : Fin 4096 → Fin 8192 → EReal := fun b n => V c main_v9 (ix2 b n)

/-- The new cell array. -/
def Gc (c : Dev nD) : S4096x2048.Idx → EReal := fun i => cNew (zOf V c) (V c main_arg2) (i 0) (i 1)
/-- The new hidden array. -/
def Gh (c : Dev nD) : S4096x2048.Idx → EReal := fun i => hNew (zOf V c) (V c main_arg2) (i 0) (i 1)

/-- Entry (p, n) of the new cell block a point writes back is the new cell array at the index that entry lands on. -/
theorem after3_eq_Gc (c : Dev nD) (t : Fin cfg1.N) (p : Fin 128) (n : Fin 2048) (i : S4096x2048.Idx)
    (hi0 : (i 0).val = win1_3.index t (0 : Fin 2) * 128 + p.val) (hi1 : (i 1).val = win1_3.index t (1 : Fin 2) * 2048 + n.val) :
    (dat1 V c).after 3 t (ix2 p n) = Gc V c i := by
  obtain ⟨⟨a0, a1⟩, ⟨b0, b1⟩, ⟨c0, c1⟩, ⟨d0, d1⟩⟩ := idx_facts1 t
  rw [after1_3, out1_3_apply]
  have hp := p.isLt; have hn := n.isLt
  unfold Gc cNew zOf
  exact congr (congr (congr (congrArg cellF
    (zb_apply V c t p _ _ (by show (i 0).val = _; omega) (by show (i 1).val = _ + (n.val); omega)))
    (zb_apply V c t p _ _ (by show (i 0).val = _; omega) (by show 2048 + (i 1).val = _ + (2048 + n.val); omega)))
    (zb_apply V c t p _ _ (by show (i 0).val = _; omega) (by show 6144 + (i 1).val = _ + (6144 + n.val); omega)))
    (cb_apply V c t p n _ (by show (i 0).val = _; omega) (by show (i 1).val = _; omega))

/-- Entry (p, n) of the new hidden block a point writes back is the new hidden array at the index that entry lands on. -/
theorem after2_eq_Gh (c : Dev nD) (t : Fin cfg1.N) (p : Fin 128) (n : Fin 2048) (i : S4096x2048.Idx)
    (hi0 : (i 0).val = win1_2.index t (0 : Fin 2) * 128 + p.val) (hi1 : (i 1).val = win1_2.index t (1 : Fin 2) * 2048 + n.val) :
    (dat1 V c).after 2 t (ix2 p n) = Gh V c i := by
  obtain ⟨⟨a0, a1⟩, ⟨b0, b1⟩, ⟨c0, c1⟩, ⟨d0, d1⟩⟩ := idx_facts1 t
  rw [after1_2, out1_2_apply]
  have hp := p.isLt; have hn := n.isLt
  unfold Gh hNew cNew zOf
  exact congr (congrArg hidF
    (zb_apply V c t p _ _ (by show (i 0).val = _; omega) (by show 4096 + (i 1).val = _ + (4096 + n.val); omega)))
    (congr (congr (congr (congrArg cellF
      (zb_apply V c t p _ _ (by show (i 0).val = _; omega) (by show (i 1).val = _ + (n.val); omega)))
      (zb_apply V c t p _ _ (by show (i 0).val = _; omega) (by show 2048 + (i 1).val = _ + (2048 + n.val); omega)))
      (zb_apply V c t p _ _ (by show (i 0).val = _; omega) (by show 6144 + (i 1).val = _ + (6144 + n.val); omega)))
      (cb_apply V c t p n _ (by show (i 0).val = _; omega) (by show (i 1).val = _; omega)))

theorem flushed3_read (c : Dev nD) (t : Fin cfg1.N) :
    (dat1 V c).flushed 3 t = ((cfg1.win 3).blk t).view.read (Elt Ideal) (Gc V c) := by
  funext y
  obtain ⟨p, n, rfl⟩ : ∃ (p : Fin 128) (n : Fin 2048), y = ix2 p n := ⟨y 0, y 1, eq_ix2 y⟩
  show (dat1 V c).after 3 t (ix2 p n) = Gc V c (((cfg1.win 3).blk t).view.emb (ix2 p n))
  exact after3_eq_Gc V c t p n _
    (by show win1_3.index t (0 : Fin 2) * 128 + 1 * p.val = _; omega)
    (by show win1_3.index t (1 : Fin 2) * 2048 + 1 * n.val = _; omega)

theorem flushed2_read (c : Dev nD) (t : Fin cfg1.N) :
    (dat1 V c).flushed 2 t = ((cfg1.win 2).blk t).view.read (Elt Ideal) (Gh V c) := by
  funext y
  obtain ⟨p, n, rfl⟩ : ∃ (p : Fin 128) (n : Fin 2048), y = ix2 p n := ⟨y 0, y 1, eq_ix2 y⟩
  show (dat1 V c).after 2 t (ix2 p n) = Gh V c (((cfg1.win 2).blk t).view.emb (ix2 p n))
  exact after2_eq_Gh V c t p n _
    (by show win1_2.index t (0 : Fin 2) * 128 + 1 * p.val = _; omega)
    (by show win1_2.index t (1 : Fin 2) * 2048 + 1 * n.val = _; omega)

theorem mem_blk1_2 (t : Fin cfg1.N) (i : S4096x2048.Idx) :
    i ∈ ((cfg1.win 2).blk t).view.set ↔ ∀ a : Fin 2, win1_2.index t a * S128x2048.size a ≤ (i a).val ∧ (i a).val < win1_2.index t a * S128x2048.size a + S128x2048.size a := by
  show i ∈ ((View.whole main_v10_0).slice (win1_2.rect t)).set ↔ _
  rw [View.set_slice_whole, Rect.mem_set_unit]
  exact Iff.rfl
theorem mem_blk1_3 (t : Fin cfg1.N) (i : S4096x2048.Idx) :
    i ∈ ((cfg1.win 3).blk t).view.set ↔ ∀ a : Fin 2, win1_3.index t a * S128x2048.size a ≤ (i a).val ∧ (i a).val < win1_3.index t a * S128x2048.size a + S128x2048.size a := by
  show i ∈ ((View.whole main_v10_1).slice (win1_3.rect t)).set ↔ _
  rw [View.set_slice_whole, Rect.mem_set_unit]
  exact Iff.rfl

theorem cover1_2 (i : S4096x2048.Idx) : ∃ t : Fin cfg1.N, (cfg1.win 2).flush t = true ∧ i ∈ ((cfg1.win 2).blk t).view.set := by
  have hi0 : (i 0).val < 4096 := (i 0).isLt
  have hi1 : (i 1).val < 2048 := (i 1).isLt
  have hN : cfg1.N = 32 := N_1
  let t : Fin cfg1.N := ⟨(i 0).val / 128, by rw [hN]; omega⟩
  obtain ⟨-, -, ⟨c0, c1⟩, -⟩ := idx_facts1 t
  have c0' : win1_2.index t (0 : Fin 2) = (i 0).val / 128 := c0
  refine ⟨t, flush1_2 t, ?_⟩
  rw [mem_blk1_2]
  intro a
  match a with
  | ⟨0, _⟩ => show win1_2.index t (0 : Fin 2) * 128 ≤ (i 0).val ∧ (i 0).val < win1_2.index t (0 : Fin 2) * 128 + 128; omega
  | ⟨1, _⟩ => show win1_2.index t (1 : Fin 2) * 2048 ≤ (i 1).val ∧ (i 1).val < win1_2.index t (1 : Fin 2) * 2048 + 2048; omega

theorem cover1_3 (i : S4096x2048.Idx) : ∃ t : Fin cfg1.N, (cfg1.win 3).flush t = true ∧ i ∈ ((cfg1.win 3).blk t).view.set := by
  have hi0 : (i 0).val < 4096 := (i 0).isLt
  have hi1 : (i 1).val < 2048 := (i 1).isLt
  have hN : cfg1.N = 32 := N_1
  let t : Fin cfg1.N := ⟨(i 0).val / 128, by rw [hN]; omega⟩
  obtain ⟨-, -, -, ⟨d0, d1⟩⟩ := idx_facts1 t
  have d0' : win1_3.index t (0 : Fin 2) = (i 0).val / 128 := d0
  refine ⟨t, flush1_3 t, ?_⟩
  rw [mem_blk1_3]
  intro a
  match a with
  | ⟨0, _⟩ => show win1_3.index t (0 : Fin 2) * 128 ≤ (i 0).val ∧ (i 0).val < win1_3.index t (0 : Fin 2) * 128 + 128; omega
  | ⟨1, _⟩ => show win1_3.index t (1 : Fin 2) * 2048 ≤ (i 1).val ∧ (i 1).val < win1_3.index t (1 : Fin 2) * 2048 + 2048; omega

/-- Region 1's result arrays after the run. -/
theorem final1_2 (c : Dev nD) : (dat1 V c).arrAt 2 cfg1.N = Gh V c :=
  (dat1 V c).arrAt_eq_of_cover 2 (Gh V c) (fun t _ => flushed2_read V c t) cover1_2
theorem final1_3 (c : Dev nD) : (dat1 V c).arrAt 3 cfg1.N = Gc V c :=
  (dat1 V c).arrAt_eq_of_cover 3 (Gc V c) (fun t _ => flushed3_read V c t) cover1_3

end Cert.KernelIdeal.Frm

end
-- ==== Proof.KernelIdeal.Host.lean ====
/-
  What the host operations before the regions leave, at the ideal values.

  The four weight matrices are stacked by rows (forget, input, output, candidate) into W, 8192 × 4096, and the four
  bias vectors likewise into b. The columns 0 … 2047 of W and the columns 2048 … 4095 are cut out, transposed, and
  narrowed (the identity here); b is laid out as one row. So entry (κ, n) of the first is W (n, κ), of the second
  W (n, 2048 + κ), and entry (0, n) of the row is b n.
-/
import proofs.«120737_j82282983457013_1_alg».proof.Proof.Gen.KernelIdeal.Regions
import Idealize.ShloMosaic.Lib.StableHlo.Run
import Idealize.ShloMosaic.Lib.Pipeline.Value
import Idealize.ShloMosaic.Lib.ValueIdx
import Idealize.ShloMosaic.Lib.Tactic
import proofs.«120737_j82282983457013_1_alg».proof.Proof.Spec

set_option maxRecDepth 16384

noncomputable section

namespace Cert.KernelIdeal.Frm

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat Cfg Window)
open Cert.Spec

variable (m : (ℓ : Loc nD τ sig) → Buf (Elt Ideal) ℓ)

/-- The stacked weights. -/
def Wcat (c : Dev nD) : S8192x4096.Idx → EReal :=
  concatenate S8192x4096 0 [⟨S2048x4096, m ((c : Thread nD τ).loc main_arg3)⟩, ⟨S2048x4096, m ((c : Thread nD τ).loc main_arg7)⟩,
    ⟨S2048x4096, m ((c : Thread nD τ).loc main_arg9)⟩, ⟨S2048x4096, m ((c : Thread nD τ).loc main_arg5)⟩]
    concatenates_S2048x4096_S2048x4096_S2048x4096_S2048x4096_S8192x4096_d0

/-- The stacked bias. -/
def bcat (c : Dev nD) : S8192.Idx → EReal :=
  concatenate S8192 0 [⟨S2048, m ((c : Thread nD τ).loc main_arg4)⟩, ⟨S2048, m ((c : Thread nD τ).loc main_arg8)⟩,
    ⟨S2048, m ((c : Thread nD τ).loc main_arg10)⟩, ⟨S2048, m ((c : Thread nD τ).loc main_arg6)⟩]
    concatenates_S2048_S2048_S2048_S2048_S8192_d0

theorem v5_term (c : Dev nD) : @Eq (S2048x8192.Idx → EReal) (Gen.V1 m c (Proc.devRef .tc main_v5))
    (truncf (F := Ideal) (φ := .f32) .bf16 (transpose S2048x8192 [1, 0] (extractStridedSlice S8192x2048 ![0, 0] (Wcat m c) slices_S8192x4096_S8192x2048_0_0)
        transposes_S8192x2048_S2048x8192_1_0) bitsLt_bf16_f32) := by
  dsimp only [Gen.V1, Gen.hostOps0]; after_results; rfl

theorem v7_term (c : Dev nD) : @Eq (S2048x8192.Idx → EReal) (Gen.V1 m c (Proc.devRef .tc main_v7))
    (truncf (F := Ideal) (φ := .f32) .bf16 (transpose S2048x8192 [1, 0] (extractStridedSlice S8192x2048 ![0, 2048] (Wcat m c) slices_S8192x4096_S8192x2048_0_2048)
        transposes_S8192x2048_S2048x8192_1_0) bitsLt_bf16_f32) := by
  dsimp only [Gen.V1, Gen.hostOps0]; after_results; rfl

theorem v8_term (c : Dev nD) : @Eq (S1x8192.Idx → EReal) (Gen.V1 m c (Proc.devRef .tc main_v8))
    (shapeCast S1x8192 (bcat m c) shapeCasts_S8192_S1x8192) := by
  dsimp only [Gen.V1, Gen.hostOps0]; after_results; rfl

/-- The first transposed half: entry (κ, n) is W (n, κ). -/
theorem v5_eq (c : Dev nD) : @Eq (S2048x8192.Idx → EReal) (Gen.V1 m c (Proc.devRef .tc main_v5)) (WxOf (Wcat m c)) := by
  rw [v5_term]
  funext i
  have h0 : (i 0).val < 2048 := idx2_lt0 i
  have h1 : (i 1).val < 8192 := idx2_lt1 i
  show transpose S2048x8192 [1, 0] (extractStridedSlice S8192x2048 ![0, 0] (Wcat m c) slices_S8192x4096_S8192x2048_0_0)
    transposes_S8192x2048_S2048x8192_1_0 i = _
  refine (transpose_apply [1, 0] _ transposes_S8192x2048_S2048x8192_1_0 i
    (ix2 (⟨(i 1).val, h1⟩ : Fin 8192) (⟨(i 0).val, h0⟩ : Fin 2048)) (fun b => match b with
    | ⟨0, _⟩ => rfl
    | ⟨1, _⟩ => rfl)).trans ?_
  exact extractStridedSlice_apply ![0, 0] (Wcat m c) slices_S8192x4096_S8192x2048_0_0
    (ix2 (⟨(i 1).val, h1⟩ : Fin 8192) (⟨(i 0).val, h0⟩ : Fin 2048))
    (ix2 (⟨(i 1).val, h1⟩ : Fin 8192) (⟨(i 0).val, by omega⟩ : Fin 4096)) (fun a => match a with
    | ⟨0, _⟩ => by show (i 1).val = 0 + (i 1).val; omega
    | ⟨1, _⟩ => by show (i 0).val = 0 + (i 0).val; omega)

/-- The second transposed half: entry (κ, n) is W (n, 2048 + κ). -/
theorem v7_eq (c : Dev nD) : @Eq (S2048x8192.Idx → EReal) (Gen.V1 m c (Proc.devRef .tc main_v7)) (WhOf (Wcat m c)) := by
  rw [v7_term]
  funext i
  have h0 : (i 0).val < 2048 := idx2_lt0 i
  have h1 : (i 1).val < 8192 := idx2_lt1 i
  show transpose S2048x8192 [1, 0] (extractStridedSlice S8192x2048 ![0, 2048] (Wcat m c) slices_S8192x4096_S8192x2048_0_2048)
    transposes_S8192x2048_S2048x8192_1_0 i = _
  refine (transpose_apply [1, 0] _ transposes_S8192x2048_S2048x8192_1_0 i
    (ix2 (⟨(i 1).val, h1⟩ : Fin 8192) (⟨(i 0).val, h0⟩ : Fin 2048)) (fun b => match b with
    | ⟨0, _⟩ => rfl
    | ⟨1, _⟩ => rfl)).trans ?_
  exact extractStridedSlice_apply ![0, 2048] (Wcat m c) slices_S8192x4096_S8192x2048_0_2048
    (ix2 (⟨(i 1).val, h1⟩ : Fin 8192) (⟨(i 0).val, h0⟩ : Fin 2048))
    (ix2 (⟨(i 1).val, h1⟩ : Fin 8192) (⟨2048 + (i 0).val, by omega⟩ : Fin 4096)) (fun a => match a with
    | ⟨0, _⟩ => by show (i 1).val = 0 + (i 1).val; omega
    | ⟨1, _⟩ => by show 2048 + (i 0).val = 2048 + (i 0).val; omega)

/-- The bias row: entry (0, n) is b n. -/
theorem v8_eq (c : Dev nD) : @Eq (S1x8192.Idx → EReal) (Gen.V1 m c (Proc.devRef .tc main_v8)) (rowOf (bcat m c)) := by
  rw [v8_term]
  funext i
  refine shapeCast_apply _ shapeCasts_S8192_S1x8192 i (ix1 (i 1)) ?_
  have h0 : (i 0).val < 1 := (i 0).isLt
  have h1 : (i 1).val < 8192 := (i 1).isLt
  rw [Shape.rowMajor_val_one, Shape.rowMajor_val_two]
  show (i 1).val = (i 0).val * 8192 + (i 1).val
  omega

end Cert.KernelIdeal.Frm

end
-- ==== Proof.KernelIdeal.Result.lean ====
/-
  The program's two results at the ideal values, in the specification's words.

  Following the buffers through the run: region 0 leaves in its result array the blocked z of X, h, the two
  transposed halves of the stacked weights and the bias row, which is the plain z of X, h, the stacked weights and the
  stacked bias; region 1 leaves in its two result arrays the new hidden and new cell arrays of that z and c. Neither X,
  h nor c has been written on the way.
-/
import proofs.«120737_j82282983457013_1_alg».proof.Proof.KernelIdeal.Regs
import proofs.«120737_j82282983457013_1_alg».proof.Proof.KernelIdeal.Val0
import proofs.«120737_j82282983457013_1_alg».proof.Proof.KernelIdeal.Val1
import proofs.«120737_j82282983457013_1_alg».proof.Proof.KernelIdeal.Host

set_option maxRecDepth 16384

noncomputable section

namespace Cert.KernelIdeal.Frm

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat Cfg Window)
open Cert.Spec

variable (m : (ℓ : Loc nD τ sig) → Buf (Elt Ideal) ℓ)

/-- z as the whole program forms it. -/
def zOut (c : Dev nD) : Fin 4096 → Fin 8192 → EReal :=
  zR (m ((c : Thread nD τ).loc main_arg0)) (m ((c : Thread nD τ).loc main_arg1)) (Wcat m c) (bcat m c)

theorem E1_arg0 (c : Dev nD) : E1 m c main_arg0 = m ((c : Thread nD τ).loc main_arg0) := Gen.V1_of m c main_arg0 (by decide)
theorem E1_arg1 (c : Dev nD) : E1 m c main_arg1 = m ((c : Thread nD τ).loc main_arg1) := Gen.V1_of m c main_arg1 (by decide)
theorem E2_arg2 (c : Dev nD) : E2 m c main_arg2 = m ((c : Thread nD τ).loc main_arg2) :=
  (W2_of_ne m c main_arg2 (by decide)).trans (Gen.V1_of m c main_arg2 (by decide))

/-- What region 1 finds in z's array. -/
theorem z_mid (c : Dev nD) (b : Fin 4096) (n : Fin 8192) : E2 m c main_v9 (ix2 b n) = zOut m c b n := by
  have h : E2 m c main_v9 = Gz (E1 m) c := (W2_arr m c 5).trans (final5 (E1 m) c)
  rw [h]
  unfold Gz zOut
  rw [E1_arg0, E1_arg1, show E1 m c main_v5 = WxOf (Wcat m c) from v5_eq m c, show E1 m c main_v7 = WhOf (Wcat m c) from v7_eq m c,
    show E1 m c main_v8 = rowOf (bcat m c) from v8_eq m c]
  exact zK_eq_zR _ _ _ _ b n

theorem zOf_mid (c : Dev nD) : zOf (E2 m) c = zOut m c :=
  funext fun b => funext fun n => z_mid m c b n

/-- The new hidden array. -/
theorem out_h (c : Dev nD) :
    W3 m c (Proc.devRef .tc main_v10_0) = fun i : S4096x2048.Idx => hNew (zOut m c) (m ((c : Thread nD τ).loc main_arg2)) (i 0) (i 1) := by
  refine ((W3_arr m c 2).trans (final1_2 (E2 m) c)).trans ?_
  unfold Gh
  rw [zOf_mid, E2_arg2]

/-- The new cell array. -/
theorem out_c (c : Dev nD) :
    W3 m c (Proc.devRef .tc main_v10_1) = fun i : S4096x2048.Idx => cNew (zOut m c) (m ((c : Thread nD τ).loc main_arg2)) (i 0) (i 1) := by
  refine ((W3_arr m c 3).trans (final1_3 (E2 m) c)).trans ?_
  unfold Gc
  rw [zOf_mid, E2_arg2]

end Cert.KernelIdeal.Frm

end
-- ==== Proof.RefVal.lean ====
/-
  The reference program's two results, at the ideal values, in the specification's words.

  Its z is, entry by entry, the sum over the 4096 positions of a row of [X | h] against the same row of the stacked
  weights read through their transpose, plus the stacked bias broadcast along the rows. [X | h] at position κ is X
  at κ for κ < 2048 and h at κ − 2048 otherwise. The four column slabs of z then go through the gates; the program
  spells the logistic function as 1 / (1 + exp(−x)) with the constant 1.0, which is the real number 1, and that is
  what the logistic function is here.
-/
import proofs.«120737_j82282983457013_1_alg».proof.Proof.Gen.ReferenceIdeal.Read
import proofs.«120737_j82282983457013_1_alg».proof.Proof.Spec
import Idealize.ShloMosaic.Lib.IdealHost

set_option maxRecDepth 16384

noncomputable section

namespace Cert.ReferenceIdeal.RefValue

open Cert.ReferenceIdeal Cert.ReferenceIdeal.Gen Cert.ReferenceIdeal.Read
open Idealize.ShloMosaic Idealize.ShloMosaic.ValueIdx
open Cert.Spec

variable (x0 x1 x2 : (⟨S4096x2048, .f32⟩ : BufTy).Contents (Elt Ideal))
  (x3 : (⟨S2048x4096, .f32⟩ : BufTy).Contents (Elt Ideal)) (x4 : (⟨S2048, .f32⟩ : BufTy).Contents (Elt Ideal))
  (x5 : (⟨S2048x4096, .f32⟩ : BufTy).Contents (Elt Ideal)) (x6 : (⟨S2048, .f32⟩ : BufTy).Contents (Elt Ideal))
  (x7 : (⟨S2048x4096, .f32⟩ : BufTy).Contents (Elt Ideal)) (x8 : (⟨S2048, .f32⟩ : BufTy).Contents (Elt Ideal))
  (x9 : (⟨S2048x4096, .f32⟩ : BufTy).Contents (Elt Ideal)) (x10 : (⟨S2048, .f32⟩ : BufTy).Contents (Elt Ideal))

/-- The word 0x3F800000 is the real number 1. -/
theorem one_f32 : Ideal.ofBits .f32 0x3F800000#32 = 1 := Ideal.ofBits_one_f32

/-- [X | h] at row b, position κ. -/
theorem v0_apply (b : Fin 4096) (k : Fin 4096) : val_main_v0 (F := Ideal) x0 x1 (ix2 b k) = xh x0 x1 b k.val := by
  unfold val_main_v0 xh
  by_cases hk : k.val < 2048
  · rw [dif_pos hk]
    exact concatenate_pair_apply_left (1 : Fin 2) x0 x1 concatenates_S4096x2048_S4096x2048_S4096x4096_d1 (ix2 b k) rfl
      (ix2 b ⟨k.val, hk⟩) (fun a => match a with
        | ⟨0, _⟩ => rfl
        | ⟨1, _⟩ => rfl)
  · have hk' : k.val - 2048 < 2048 := by have := k.isLt; omega
    rw [dif_neg hk, dif_pos hk']
    exact concatenate_pair_apply_right (1 : Fin 2) x0 x1 concatenates_S4096x2048_S4096x2048_S4096x4096_d1 (ix2 b k) rfl rfl
      (ix2 b ⟨k.val - 2048, hk'⟩) (fun a ha => match a, ha with
        | ⟨0, _⟩, _ => rfl
        | ⟨1, _⟩, h => absurd rfl h)
      (by show (k.val - 2048) + 2048 = k.val; omega)

/-- z at an entry is the plain z of X, h, the stacked weights and the stacked bias. -/
theorem z_apply (i : S4096x8192.Idx) :
    val_main_v7 (F := Ideal) x0 x1 x3 x4 x5 x6 x7 x8 x9 x10 i
      = zR x0 x1 (val_main_v1 (F := Ideal) x3 x5 x7 x9) (val_main_v2 (F := Ideal) x4 x6 x8 x10) (i 0) (i 1) := by
  rw [val_main_v7_apply, val_main_v4_apply, val_main_v6_apply, val_main_v5_apply]
  unfold zR
  refine congrArg₂ (· + ·) (Finset.sum_congr rfl fun k _ => ?_) ?_
  · rw [val_main_v3_apply]
    refine congrArg₂ (· * ·) ?_ ?_
    · have e : lidx_main_v4 i k = ix2 (i 0) k := funext fun a => match a with
        | ⟨0, _⟩ => rfl
        | ⟨1, _⟩ => rfl
      rw [e]; exact v0_apply x0 x1 (i 0) k
    · unfold wrow; rw [dif_pos k.isLt]
      exact congrArg _ (funext fun a => match a with
        | ⟨0, _⟩ => rfl
        | ⟨1, _⟩ => rfl)
  · exact congrArg _ (funext fun a => match a with
      | ⟨0, _⟩ => rfl)

/-- z by row and column. -/
def zRef (x0 x1 : (⟨S4096x2048, .f32⟩ : BufTy).Contents (Elt Ideal)) (x3 : (⟨S2048x4096, .f32⟩ : BufTy).Contents (Elt Ideal))
    (x4 : (⟨S2048, .f32⟩ : BufTy).Contents (Elt Ideal)) (x5 : (⟨S2048x4096, .f32⟩ : BufTy).Contents (Elt Ideal))
    (x6 : (⟨S2048, .f32⟩ : BufTy).Contents (Elt Ideal)) (x7 : (⟨S2048x4096, .f32⟩ : BufTy).Contents (Elt Ideal))
    (x8 : (⟨S2048, .f32⟩ : BufTy).Contents (Elt Ideal)) (x9 : (⟨S2048x4096, .f32⟩ : BufTy).Contents (Elt Ideal))
    (x10 : (⟨S2048, .f32⟩ : BufTy).Contents (Elt Ideal)) : Fin 4096 → Fin 8192 → EReal :=
  fun b n => val_main_v7 (F := Ideal) x0 x1 x3 x4 x5 x6 x7 x8 x9 x10 (ix2 b n)

theorem e8 (b : Fin 4096) (n : Fin 2048) : idx_main_v8 (ix2 b n) = ix2 b ⟨n.val, by have := n.isLt; omega⟩ :=
  funext fun a => match a with
    | ⟨0, _⟩ => rfl
    | ⟨1, _⟩ => rfl
theorem e9 (b : Fin 4096) (n : Fin 2048) : idx_main_v9 (ix2 b n) = ix2 b ⟨2048 + n.val, by have := n.isLt; omega⟩ :=
  funext fun a => match a with
    | ⟨0, _⟩ => rfl
    | ⟨1, _⟩ => rfl
theorem e10 (b : Fin 4096) (n : Fin 2048) : idx_main_v10 (ix2 b n) = ix2 b ⟨4096 + n.val, by have := n.isLt; omega⟩ :=
  funext fun a => match a with
    | ⟨0, _⟩ => rfl
    | ⟨1, _⟩ => rfl
theorem e11 (b : Fin 4096) (n : Fin 2048) : idx_main_v11 (ix2 b n) = ix2 b ⟨6144 + n.val, by have := n.isLt; omega⟩ :=
  funext fun a => match a with
    | ⟨0, _⟩ => rfl
    | ⟨1, _⟩ => rfl

/-- The new cell array, at row b and column n. -/
theorem v33_at (b : Fin 4096) (n : Fin 2048) :
    val_main_v33 (F := Ideal) x0 x1 x2 x3 x4 x5 x6 x7 x8 x9 x10 (ix2 b n) = cNew (zRef x0 x1 x3 x4 x5 x6 x7 x8 x9 x10) x2 b n := by
  rw [val_main_v33_apply, val_main_v32_apply, val_main_v31_apply,
    val_main_v17_apply, val_main_v16_apply, val_main_cst_0_apply, val_main_v15_apply, val_main_v14_apply, val_main_cst_apply,
    val_main_v13_apply, val_main_v12_apply, val_main_v8_apply,
    val_main_v23_apply, val_main_v22_apply, val_main_cst_2_apply, val_main_v21_apply, val_main_v20_apply, val_main_cst_1_apply,
    val_main_v19_apply, val_main_v18_apply, val_main_v9_apply,
    val_main_v30_apply, val_main_v11_apply, e8, e9, e11]
  unfold cNew cellF zRef Ideal.logistic
  simp only [Ideal.ofBits_def, one_f32]
  rfl

/-- The new hidden array, at row b and column n. -/
theorem v35_at (b : Fin 4096) (n : Fin 2048) :
    val_main_v35 (F := Ideal) x0 x1 x2 x3 x4 x5 x6 x7 x8 x9 x10 (ix2 b n) = hNew (zRef x0 x1 x3 x4 x5 x6 x7 x8 x9 x10) x2 b n := by
  rw [val_main_v35_apply, val_main_v34_apply, v33_at,
    val_main_v29_apply, val_main_v28_apply, val_main_cst_4_apply, val_main_v27_apply, val_main_v26_apply, val_main_cst_3_apply,
    val_main_v25_apply, val_main_v24_apply, val_main_v10_apply, e10]
  unfold hNew hidF
  generalize cNew (zRef x0 x1 x3 x4 x5 x6 x7 x8 x9 x10) x2 b n = cn
  unfold zRef Ideal.logistic
  simp only [Ideal.ofBits_def, one_f32]
  rfl

/-- z by row and column is the plain z. -/
theorem zRef_eq : zRef x0 x1 x3 x4 x5 x6 x7 x8 x9 x10 = zR x0 x1 (val_main_v1 (F := Ideal) x3 x5 x7 x9) (val_main_v2 (F := Ideal) x4 x6 x8 x10) :=
  funext fun b => funext fun n => z_apply x0 x1 x3 x4 x5 x6 x7 x8 x9 x10 (ix2 b n)

/-- The two results as the gate functions of the plain z. -/
theorem v33_apply (i : S4096x2048.Idx) :
    val_main_v33 (F := Ideal) x0 x1 x2 x3 x4 x5 x6 x7 x8 x9 x10 i
      = cNew (zR x0 x1 (val_main_v1 (F := Ideal) x3 x5 x7 x9) (val_main_v2 (F := Ideal) x4 x6 x8 x10)) x2 (i 0) (i 1) :=
  (congrArg (val_main_v33 (F := Ideal) x0 x1 x2 x3 x4 x5 x6 x7 x8 x9 x10) (eq_ix2 i)).trans ((v33_at x0 x1 x2 x3 x4 x5 x6 x7 x8 x9 x10 (i 0) (i 1)).trans (by rw [zRef_eq]))

theorem v35_apply (i : S4096x2048.Idx) :
    val_main_v35 (F := Ideal) x0 x1 x2 x3 x4 x5 x6 x7 x8 x9 x10 i
      = hNew (zR x0 x1 (val_main_v1 (F := Ideal) x3 x5 x7 x9) (val_main_v2 (F := Ideal) x4 x6 x8 x10)) x2 (i 0) (i 1) :=
  (congrArg (val_main_v35 (F := Ideal) x0 x1 x2 x3 x4 x5 x6 x7 x8 x9 x10) (eq_ix2 i)).trans ((v35_at x0 x1 x2 x3 x4 x5 x6 x7 x8 x9 x10 (i 0) (i 1)).trans (by rw [zRef_eq]))

end Cert.ReferenceIdeal.RefValue

end
-- ==== Proof.lean ====
/-
  An LSTM cell computed two ways: by a blocked matrix product into a carried accumulator followed by a separate
  gate-combination kernel, and by one plain matrix product followed by the gates. The claim: both programs run to the
  end without fault leaving their arguments as launched, and at the ideal values they return the same new hidden and
  new cell arrays.

  The frames of the two kernel programs come from following every unscoped buffer through the host operations and
  the two kernel regions (the same argument at the word level and at the ideal values); the reference's is its run.
  The idealized program is the word-level program's own text, so nothing is owed for the passage between them.

  For the values, both results are the gate functions of z and c, entry by entry, and both programs' z is
  xh · Wᵀ + b over the same stacked weights W and stacked bias b: the blocked program's four partial sums, taken in
  its order, regroup the plain program's one sum over the 4096 positions of a row of xh = [X | h], which on the
  extended reals needs only that addition is commutative and associative. The logistic function is 1 / (1 + exp(−x))
  in both, spelt out with the constant 1 in the reference.
-/
import proofs.«120737_j82282983457013_1_alg».proof.Defs
import proofs.«120737_j82282983457013_1_alg».proof.Proof.Kernel.Regs
import proofs.«120737_j82282983457013_1_alg».proof.Proof.KernelIdeal.Result
import proofs.«120737_j82282983457013_1_alg».proof.Proof.RefVal
import proofs.«120737_j82282983457013_1_alg».proof.Proof.Gen.Pre_finite_inputs
import Idealize.ShloMosaic.Adequacy
import Idealize.ShloMosaic.Init

set_option maxRecDepth 16384

noncomputable section

namespace Cert.Proof

open Idealize.ShloMosaic Idealize.SL.Sem Idealize.ShloMosaic.ValueIdx
open Cert.Spec

/-- The word-level program runs and leaves its arguments as launched. -/
theorem frame_k : Cert.frame_Kernel := fun m ρ _ => Cert.Kernel.Frm.frame (F := Bits) m ρ

/-- So does the idealized program. -/
theorem frame_ki : Cert.frame_KernelIdeal := fun m ρ _ => Cert.KernelIdeal.Frm.frame (F := Ideal) m ρ

/-- And the reference: its run, the results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The stacked weights and the stacked bias are the same arrays in the two programs. -/
theorem stacked_eq (m : (ℓ : Loc Cert.KernelIdeal.nD Cert.KernelIdeal.τ Cert.KernelIdeal.sig) → Buf (Elt Ideal) ℓ) (c : Dev Cert.KernelIdeal.nD) :
    Cert.ReferenceIdeal.Read.val_main_v1 (F := Ideal) (m ((c.tc : Thread Cert.KernelIdeal.nD Cert.KernelIdeal.τ).loc Cert.KernelIdeal.main_arg3)) (m ((c.tc : Thread Cert.KernelIdeal.nD Cert.KernelIdeal.τ).loc Cert.KernelIdeal.main_arg5)) (m ((c.tc : Thread Cert.KernelIdeal.nD Cert.KernelIdeal.τ).loc Cert.KernelIdeal.main_arg7)) (m ((c.tc : Thread Cert.KernelIdeal.nD Cert.KernelIdeal.τ).loc Cert.KernelIdeal.main_arg9))
      = Cert.KernelIdeal.Frm.Wcat m c
    ∧ Cert.ReferenceIdeal.Read.val_main_v2 (F := Ideal) (m ((c.tc : Thread Cert.KernelIdeal.nD Cert.KernelIdeal.τ).loc Cert.KernelIdeal.main_arg4)) (m ((c.tc : Thread Cert.KernelIdeal.nD Cert.KernelIdeal.τ).loc Cert.KernelIdeal.main_arg6)) (m ((c.tc : Thread Cert.KernelIdeal.nD Cert.KernelIdeal.τ).loc Cert.KernelIdeal.main_arg8)) (m ((c.tc : Thread Cert.KernelIdeal.nD Cert.KernelIdeal.τ).loc Cert.KernelIdeal.main_arg10))
      = Cert.KernelIdeal.Frm.bcat m c := ⟨rfl, rfl⟩

/-- At the ideal values the two programs return the same results. -/
theorem algebraic : Cert.algebraic_KernelIdeal_ReferenceIdeal := by
  intro m ρ m' ρ' _ hagree
  refine ⟨fun c => fun i => hNew (Cert.KernelIdeal.Frm.zOut m c) (m ((c.tc : Thread Cert.KernelIdeal.nD Cert.KernelIdeal.τ).loc Cert.KernelIdeal.main_arg2)) (i 0) (i 1),
    fun c => fun i => cNew (Cert.KernelIdeal.Frm.zOut m c) (m ((c.tc : Thread Cert.KernelIdeal.nD Cert.KernelIdeal.τ).loc Cert.KernelIdeal.main_arg2)) (i 0) (i 1), ?_, ?_⟩
  · refine (θ_run Cert.KernelIdeal.defs _ _).mono (fun r h c => ⟨?_, ?_, ?_⟩) (Cert.KernelIdeal.Frm.run_all (F := Ideal) m ρ)
    · exact (h c _ (Cert.KernelIdeal.Frm.mem_uc Cert.KernelIdeal.main_v10_0 (by decide))).trans (Cert.KernelIdeal.Frm.out_h m c)
    · exact (h c _ (Cert.KernelIdeal.Frm.mem_uc Cert.KernelIdeal.main_v10_1 (by decide))).trans (Cert.KernelIdeal.Frm.out_c m c)
    · exact ⟨(h c _ (Cert.KernelIdeal.Frm.mem_uc Cert.KernelIdeal.main_arg0 (by decide))).trans (Cert.KernelIdeal.Frm.W3_main_arg0 m c),
        (h c _ (Cert.KernelIdeal.Frm.mem_uc Cert.KernelIdeal.main_arg1 (by decide))).trans (Cert.KernelIdeal.Frm.W3_main_arg1 m c),
        (h c _ (Cert.KernelIdeal.Frm.mem_uc Cert.KernelIdeal.main_arg2 (by decide))).trans (Cert.KernelIdeal.Frm.W3_main_arg2 m c),
        (h c _ (Cert.KernelIdeal.Frm.mem_uc Cert.KernelIdeal.main_arg3 (by decide))).trans (Cert.KernelIdeal.Frm.W3_main_arg3 m c),
        (h c _ (Cert.KernelIdeal.Frm.mem_uc Cert.KernelIdeal.main_arg4 (by decide))).trans (Cert.KernelIdeal.Frm.W3_main_arg4 m c),
        (h c _ (Cert.KernelIdeal.Frm.mem_uc Cert.KernelIdeal.main_arg5 (by decide))).trans (Cert.KernelIdeal.Frm.W3_main_arg5 m c),
        (h c _ (Cert.KernelIdeal.Frm.mem_uc Cert.KernelIdeal.main_arg6 (by decide))).trans (Cert.KernelIdeal.Frm.W3_main_arg6 m c),
        (h c _ (Cert.KernelIdeal.Frm.mem_uc Cert.KernelIdeal.main_arg7 (by decide))).trans (Cert.KernelIdeal.Frm.W3_main_arg7 m c),
        (h c _ (Cert.KernelIdeal.Frm.mem_uc Cert.KernelIdeal.main_arg8 (by decide))).trans (Cert.KernelIdeal.Frm.W3_main_arg8 m c),
        (h c _ (Cert.KernelIdeal.Frm.mem_uc Cert.KernelIdeal.main_arg9 (by decide))).trans (Cert.KernelIdeal.Frm.W3_main_arg9 m c),
        (h c _ (Cert.KernelIdeal.Frm.mem_uc Cert.KernelIdeal.main_arg10 (by decide))).trans (Cert.KernelIdeal.Frm.W3_main_arg10 m c)⟩
  · refine (θ_run Cert.ReferenceIdeal.defs _ _).mono (fun r h c => ⟨(h c).1.trans ?_, (h c).2.1.trans ?_, (h c).2.2⟩)
      (Cert.ReferenceIdeal.Value.run (F := Ideal) m' ρ')
    · obtain ⟨h0, h1, h2, h3, h4, h5, h6, h7, h8, h9, h10⟩ := hagree c
      obtain ⟨hW, hb⟩ := stacked_eq m c
      rw [Cert.ReferenceIdeal.Read.val_main_v35_eq]
      funext i
      rw [Cert.ReferenceIdeal.RefValue.v35_apply, h0, h1, h2, h3, h4, h5, h6, h7, h8, h9, h10, hW, hb]
      rfl
    · obtain ⟨h0, h1, h2, h3, h4, h5, h6, h7, h8, h9, h10⟩ := hagree c
      obtain ⟨hW, hb⟩ := stacked_eq m c
      rw [Cert.ReferenceIdeal.Read.val_main_v33_eq]
      funext i
      rw [Cert.ReferenceIdeal.RefValue.v33_apply, h0, h1, h2, h3, h4, h5, h6, h7, h8, h9, h10, hW, hb]
      rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
